-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1 : Shape := ⟨2, ![32768, 1]⟩
abbrev S32768x128 : Shape := ⟨2, ![32768, 128]⟩
abbrev S32768x24 : Shape := ⟨2, ![32768, 24]⟩
abbrev S32768x32 : Shape := ⟨2, ![32768, 32]⟩
abbrev S128x57 : Shape := ⟨2, ![128, 57]⟩
abbrev S128 : Shape := ⟨1, ![128]⟩
abbrev S384x128 : Shape := ⟨2, ![384, 128]⟩
abbrev S384 : Shape := ⟨1, ![384]⟩
abbrev S384x160 : Shape := ⟨2, ![384, 160]⟩
abbrev S128x160 : Shape := ⟨2, ![128, 160]⟩
abbrev S256x128 : Shape := ⟨2, ![256, 128]⟩
abbrev S256 : Shape := ⟨1, ![256]⟩
abbrev S_ : Shape := ⟨0, ![]⟩

class Facts : Prop where
  bcast_S_S32768x1 : S_.BroadcastsInDim S32768x1 (![] : Fin 0 → Fin S32768x1.rank)
  reducesTo_S32768x1_S_d0_1 : S32768x1.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S32768x24 : S_.BroadcastsInDim S32768x24 (![] : Fin 0 → Fin S32768x24.rank)
  reducesTo_S32768x24_S_d0_1 : S32768x24.ReducesTo [0, 1] S_
  bcast_S_S32768x32 : S_.BroadcastsInDim S32768x32 (![] : Fin 0 → Fin S32768x32.rank)
  reducesTo_S32768x32_S_d0_1 : S32768x32.ReducesTo [0, 1] S_
  bcast_S_S128x57 : S_.BroadcastsInDim S128x57 (![] : Fin 0 → Fin S128x57.rank)
  reducesTo_S128x57_S_d0_1 : S128x57.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S384x160 : S_.BroadcastsInDim S384x160 (![] : Fin 0 → Fin S384x160.rank)
  reducesTo_S384x160_S_d0_1 : S384x160.ReducesTo [0, 1] S_
  bcast_S_S128x160 : S_.BroadcastsInDim S128x160 (![] : Fin 0 → Fin S128x160.rank)
  reducesTo_S128x160_S_d0_1 : S128x160.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part6 {F : FTy → Type} [FloatOps F] (main_arg21 : FVec F S128 .f32) (main_arg22 : FVec F S256x128 .f32) (main_arg23 : FVec F S256 .f32) (main_v98 : IVec S_ 1) (main_v101 : IVec S128x160 1) (main_c_39 : IVec S_ 1) : IVec S_ 1 :=
  let main_v102 : IVec S_ 1 := (fun x v => Host.reduce IntOp.andi x v reducesTo_S128x160_S_d0_1 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S256x128 .f32 := Host.absf main_arg22
  let main_cst_42 : FVec F S_ .f32 := constant S_ .f32 0x7F800000#32
  let main_v110 : FVec F S256x128 .f32 := broadcastInDim S256x128 ![] bcast_S_S256x128 main_cst_42
  let main_v111 : IVec S256x128 1 := cmpf .olt main_v109 main_v110
  let main_c_43 : IVec S_ 1 := constantI S_ 1 1#1
  let main_v112 : IVec S_ 1 := (fun x v => Host.reduce IntOp.andi x v reducesTo_S256x128_S_d0_1 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  main_v118

def fn_part5 {F : FTy → Type} [FloatOps F] (main_arg18 : FVec F S128x160 .f32) (main_arg19 : FVec F S128 .f32) (main_arg20 : FVec F S128x160 .f32) (main_arg21 : FVec F S128 .f32) (main_arg22 : FVec F S256x128 .f32) (main_arg23 : FVec F S256 .f32) (main_v83 : IVec S_ 1) (main_v84 : FVec F S384 .f32) (main_cst_32 : FVec F S_ .f32) : IVec S_ 1 :=
  let main_v85 : FVec F S384 .f32 := broadcastInDim S384 ![] bcast_S_S384 main_cst_32
  let main_v86 : IVec S384 1 := cmpf .olt main_v84 main_v85
  let main_c_33 : IVec S_ 1 := constantI S_ 1 1#1
  let main_v87 : IVec S_ 1 := (fun x v => Host.reduce IntOp.andi x v reducesTo_S384_S_d0 h_S_) main_v86 main_c_33
  let main_v88 : IVec S_ 1 := andi main_v83 main_v87
  let main_v89 : FVec F S128x160 .f32 := Host.absf main_arg18
  let main_cst_34 : FVec F S_ .f32 := constant S_ .f32 0x7F800000#32
  let main_v90 : FVec F S128x160 .f32 := broadcastInDim S128x160 ![] bcast_S_S128x160 main_cst_34
  let main_v91 : IVec S128x160 1 := cmpf .olt main_v89 main_v90
  let main_c_35 : IVec S_ 1 := constantI S_ 1 1#1
  let main_v92 : IVec S_ 1 := (fun x v => Host.reduce IntOp.andi x v reducesTo_S128x160_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x160 .f32 := Host.absf main_arg20
  let main_cst_38 : FVec F S_ .f32 := constant S_ .f32 0x7F800000#32
  let main_v100 : FVec F S128x160 .f32 := broadcastInDim S128x160 ![] bcast_S_S128x160 main_cst_38
  let main_v101 : IVec S128x160 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S384x160 .f32) (main_arg15 : FVec F S384x128 .f32) (main_arg16 : FVec F S384 .f32) (main_arg17 : FVec F S384 .f32) (main_arg18 : FVec F S128x160 .f32) (main_arg19 : FVec F S128 .f32) (main_arg20 : FVec F S128x160 .f32) (main_arg21 : FVec F S128 .f32) (main_arg22 : FVec F S256x128 .f32) (main_arg23 : FVec F S256 .f32) (main_v63 : IVec S_ 1) (main_v67 : IVec S_ 1) : IVec S_ 1 :=
  let main_v68 : IVec S_ 1 := andi main_v63 main_v67
  let main_v69 : FVec F S384x160 .f32 := Host.absf main_arg14
  let main_cst_26 : FVec F S_ .f32 := constant S_ .f32 0x7F800000#32
  let main_v70 : FVec F S384x160 .f32 := broadcastInDim S384x160 ![] bcast_S_S384x160 main_cst_26
  let main_v71 : IVec S384x160 1 := cmpf .olt main_v69 main_v70
  let main_c_27 : IVec S_ 1 := constantI S_ 1 1#1
  let main_v72 : IVec S_ 1 := (fun x v => Host.reduce IntOp.andi x v reducesTo_S384x160_S_d0_1 h_S_) main_v71 main_c_27
  let main_v73 : IVec S_ 1 := andi main_v68 main_v72
  let main_v74 : FVec F S384x128 .f32 := Host.absf main_arg15
  let main_cst_28 : FVec F S_ .f32 := constant S_ .f32 0x7F800000#32
  let main_v75 : FVec F S384x128 .f32 := broadcastInDim S384x128 ![] bcast_S_S384x128 main_cst_28
  let main_v76 : IVec S384x128 1 := cmpf .olt main_v74 main_v75
  let main_c_29 : IVec S_ 1 := constantI S_ 1 1#1
  let main_v77 : IVec S_ 1 := (fun x v => Host.reduce IntOp.andi x v reducesTo_S384x128_S_d0_1 h_S_) main_v76 main_c_29
  let main_v78 : IVec S_ 1 := andi main_v73 main_v77
  let main_v79 : FVec F S384 .f32 := Host.absf main_arg16
  let main_cst_30 : FVec F S_ .f32 := constant S_ .f32 0x7F800000#32
  let main_v80 : FVec F S384 .f32 := broadcastInDim S384 ![] bcast_S_S384 main_cst_30
  let main_v81 : IVec S384 1 := cmpf .olt main_v79 main_v80
  let main_c_31 : IVec S_ 1 := constantI S_ 1 1#1
  let main_v82 : IVec S_ 1 := (fun x v => Host.reduce IntOp.andi x v reducesTo_S384_S_d0 h_S_) main_v81 main_c_31
  let main_v83 : IVec S_ 1 := andi main_v78 main_v82
  let main_v84 : FVec F S384 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S384x128 .f32) (main_arg12 : FVec F S384 .f32) (main_arg13 : FVec F S384 .f32) (main_arg14 : FVec F S384x160 .f32) (main_arg15 : FVec F S384x128 .f32) (main_arg16 : FVec F S384 .f32) (main_arg17 : FVec F S384 .f32) (main_arg18 : FVec F S128x160 .f32) (main_arg19 : FVec F S128 .f32) (main_arg20 : FVec F S128x160 .f32) (main_arg21 : FVec F S128 .f32) (main_arg22 : FVec F S256x128 .f32) (main_arg23 : FVec F S256 .f32) (main_v48 : IVec S_ 1) (main_v49 : FVec F S384x128 .f32) (main_v50 : FVec F S384x128 .f32) : IVec S_ 1 :=
  let main_v51 : IVec S384x128 1 := cmpf .olt main_v49 main_v50
  let main_c_19 : IVec S_ 1 := constantI S_ 1 1#1
  let main_v52 : IVec S_ 1 := (fun x v => Host.reduce IntOp.andi x v reducesTo_S384x128_S_d0_1 h_S_) main_v51 main_c_19
  let main_v53 : IVec S_ 1 := andi main_v48 main_v52
  let main_v54 : FVec F S384x128 .f32 := Host.absf main_arg11
  let main_cst_20 : FVec F S_ .f32 := constant S_ .f32 0x7F800000#32
  let main_v55 : FVec F S384x128 .f32 := broadcastInDim S384x128 ![] bcast_S_S384x128 main_cst_20
  let main_v56 : IVec S384x128 1 := cmpf .olt main_v54 main_v55
  let main_c_21 : IVec S_ 1 := constantI S_ 1 1#1
  let main_v57 : IVec S_ 1 := (fun x v => Host.reduce IntOp.andi x v reducesTo_S384x128_S_d0_1 h_S_) main_v56 main_c_21
  let main_v58 : IVec S_ 1 := andi main_v53 main_v57
  let main_v59 : FVec F S384 .f32 := Host.absf main_arg12
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  let main_v64 : FVec F S384 .f32 := Host.absf main_arg13
  let main_cst_24 : FVec F S_ .f32 := constant S_ .f32 0x7F800000#32
  let main_v65 : FVec F S384 .f32 := broadcastInDim S384 ![] bcast_S_S384 main_cst_24
  let main_v66 : IVec S384 1 := cmpf .olt main_v64 main_v65
  let main_c_25 : IVec S_ 1 := constantI S_ 1 1#1
  let main_v67 : IVec S_ 1 := (fun x v => Host.reduce IntOp.andi x v reducesTo_S384_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S32768x32 .f32) (main_arg8 : FVec F S128x57 .f32) (main_arg9 : FVec F S128 .f32) (main_arg10 : FVec F S384x128 .f32) (main_arg11 : FVec F S384x128 .f32) (main_arg12 : FVec F S384 .f32) (main_arg13 : FVec F S384 .f32) (main_arg14 : FVec F S384x160 .f32) (main_arg15 : FVec F S384x128 .f32) (main_arg16 : FVec F S384 .f32) (main_arg17 : FVec F S384 .f32) (main_arg18 : FVec F S128x160 .f32) (main_arg19 : FVec F S128 .f32) (main_arg20 : FVec F S128x160 .f32) (main_arg21 : FVec F S128 .f32) (main_arg22 : FVec F S256x128 .f32) (main_arg23 : FVec F S256 .f32) (main_v33 : IVec S_ 1) : IVec S_ 1 :=
  let main_v34 : FVec F S32768x32 .f32 := Host.absf main_arg7
  let main_cst_12 : FVec F S_ .f32 := constant S_ .f32 0x7F800000#32
  let main_v35 : FVec F S32768x32 .f32 := broadcastInDim S32768x32 ![] bcast_S_S32768x32 main_cst_12
  let main_v36 : IVec S32768x32 1 := cmpf .olt main_v34 main_v35
  let main_c_13 : IVec S_ 1 := constantI S_ 1 1#1
  let main_v37 : IVec S_ 1 := (fun x v => Host.reduce IntOp.andi x v reducesTo_S32768x32_S_d0_1 h_S_) main_v36 main_c_13
  let main_v38 : IVec S_ 1 := andi main_v33 main_v37
  let main_v39 : FVec F S128x57 .f32 := Host.absf main_arg8
  let main_cst_14 : FVec F S_ .f32 := constant S_ .f32 0x7F800000#32
  let main_v40 : FVec F S128x57 .f32 := broadcastInDim S128x57 ![] bcast_S_S128x57 main_cst_14
  let main_v41 : IVec S128x57 1 := cmpf .olt main_v39 main_v40
  let main_c_15 : IVec S_ 1 := constantI S_ 1 1#1
  let main_v42 : IVec S_ 1 := (fun x v => Host.reduce IntOp.andi x v reducesTo_S128x57_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S384x128 .f32 := Host.absf main_arg10
  let main_cst_18 : FVec F S_ .f32 := constant S_ .f32 0x7F800000#32
  let main_v50 : FVec F S384x128 .f32 := broadcastInDim S384x128 ![] bcast_S_S384x128 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S32768x32 .f32) (main_arg5 : FVec F S32768x32 .f32) (main_arg6 : FVec F S32768x32 .f32) (main_arg7 : FVec F S32768x32 .f32) (main_arg8 : FVec F S128x57 .f32) (main_arg9 : FVec F S128 .f32) (main_arg10 : FVec F S384x128 .f32) (main_arg11 : FVec F S384x128 .f32) (main_arg12 : FVec F S384 .f32) (main_arg13 : FVec F S384 .f32) (main_arg14 : FVec F S384x160 .f32) (main_arg15 : FVec F S384x128 .f32) (main_arg16 : FVec F S384 .f32) (main_arg17 : FVec F S384 .f32) (main_arg18 : FVec F S128x160 .f32) (main_arg19 : FVec F S128 .f32) (main_arg20 : FVec F S128x160 .f32) (main_arg21 : FVec F S128 .f32) (main_arg22 : FVec F S256x128 .f32) (main_arg23 : FVec F S256 .f32) (main_v13 : IVec S_ 1) (main_v16 : IVec S32768x24 1) : IVec S_ 1 :=
  let main_c_5 : IVec S_ 1 := constantI S_ 1 1#1
  let main_v17 : IVec S_ 1 := (fun x v => Host.reduce IntOp.andi x v reducesTo_S32768x24_S_d0_1 h_S_) main_v16 main_c_5
  let main_v18 : IVec S_ 1 := andi main_v13 main_v17
  let main_v19 : FVec F S32768x32 .f32 := Host.absf main_arg4
  let main_cst_6 : FVec F S_ .f32 := constant S_ .f32 0x7F800000#32
  let main_v20 : FVec F S32768x32 .f32 := broadcastInDim S32768x32 ![] bcast_S_S32768x32 main_cst_6
  let main_v21 : IVec S32768x32 1 := cmpf .olt main_v19 main_v20
  let main_c_7 : IVec S_ 1 := constantI S_ 1 1#1
  let main_v22 : IVec S_ 1 := (fun x v => Host.reduce IntOp.andi x v reducesTo_S32768x32_S_d0_1 h_S_) main_v21 main_c_7
  let main_v23 : IVec S_ 1 := andi main_v18 main_v22
  let main_v24 : FVec F S32768x32 .f32 := Host.absf main_arg5
  let main_cst_8 : FVec F S_ .f32 := constant S_ .f32 0x7F800000#32
  let main_v25 : FVec F S32768x32 .f32 := broadcastInDim S32768x32 ![] bcast_S_S32768x32 main_cst_8
  let main_v26 : IVec S32768x32 1 := cmpf .olt main_v24 main_v25
  let main_c_9 : IVec S_ 1 := constantI S_ 1 1#1
  let main_v27 : IVec S_ 1 := (fun x v => Host.reduce IntOp.andi x v reducesTo_S32768x32_S_d0_1 h_S_) main_v26 main_c_9
  let main_v28 : IVec S_ 1 := andi main_v23 main_v27
  let main_v29 : FVec F S32768x32 .f32 := Host.absf main_arg6
  let main_cst_10 : FVec F S_ .f32 := constant S_ .f32 0x7F800000#32
  let main_v30 : FVec F S32768x32 .f32 := broadcastInDim S32768x32 ![] bcast_S_S32768x32 main_cst_10
  let main_v31 : IVec S32768x32 1 := cmpf .olt main_v29 main_v30
  let main_c_11 : IVec S_ 1 := constantI S_ 1 1#1
  let main_v32 : IVec S_ 1 := (fun x v => Host.reduce IntOp.andi x v reducesTo_S32768x32_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S32768x1 .f32) (main_arg1 : FVec F S32768x128 .f32) (main_arg2 : FVec F S32768x128 .f32) (main_arg3 : FVec F S32768x24 .f32) (main_arg4 : FVec F S32768x32 .f32) (main_arg5 : FVec F S32768x32 .f32) (main_arg6 : FVec F S32768x32 .f32) (main_arg7 : FVec F S32768x32 .f32) (main_arg8 : FVec F S128x57 .f32) (main_arg9 : FVec F S128 .f32) (main_arg10 : FVec F S384x128 .f32) (main_arg11 : FVec F S384x128 .f32) (main_arg12 : FVec F S384 .f32) (main_arg13 : FVec F S384 .f32) (main_arg14 : FVec F S384x160 .f32) (main_arg15 : FVec F S384x128 .f32) (main_arg16 : FVec F S384 .f32) (main_arg17 : FVec F S384 .f32) (main_arg18 : FVec F S128x160 .f32) (main_arg19 : FVec F S128 .f32) (main_arg20 : FVec F S128x160 .f32) (main_arg21 : FVec F S128 .f32) (main_arg22 : FVec F S256x128 .f32) (main_arg23 : FVec F S256 .f32) : IVec S_ 1 :=
  let main_v0 : FVec F S32768x1 .f32 := Host.absf main_arg0
  let main_cst : FVec F S_ .f32 := constant S_ .f32 0x7F800000#32
  let main_v1 : FVec F S32768x1 .f32 := broadcastInDim S32768x1 ![] bcast_S_S32768x1 main_cst
  let main_v2 : IVec S32768x1 1 := cmpf .olt main_v0 main_v1
  let main_c : IVec S_ 1 := constantI S_ 1 1#1
  let main_v3 : IVec S_ 1 := (fun x v => Host.reduce IntOp.andi x v reducesTo_S32768x1_S_d0_1 h_S_) main_v2 main_c
  let main_v4 : FVec F S32768x128 .f32 := Host.absf main_arg1
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  let main_v9 : FVec F S32768x128 .f32 := Host.absf main_arg2
  let main_cst_2 : FVec F S_ .f32 := constant S_ .f32 0x7F800000#32
  let main_v10 : FVec F S32768x128 .f32 := broadcastInDim S32768x128 ![] bcast_S_S32768x128 main_cst_2
  let main_v11 : IVec S32768x128 1 := cmpf .olt main_v9 main_v10
  let main_c_3 : IVec S_ 1 := constantI S_ 1 1#1
  let main_v12 : IVec S_ 1 := (fun x v => Host.reduce IntOp.andi x v reducesTo_S32768x128_S_d0_1 h_S_) main_v11 main_c_3
  let main_v13 : IVec S_ 1 := andi main_v8 main_v12
  let main_v14 : FVec F S32768x24 .f32 := Host.absf main_arg3
  let main_cst_4 : FVec F S_ .f32 := constant S_ .f32 0x7F800000#32
  let main_v15 : FVec F S32768x24 .f32 := broadcastInDim S32768x24 ![] bcast_S_S32768x24 main_cst_4
  let main_v16 : IVec S32768x24 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S32768x1 : Shape := ⟨2, ![32768, 1]⟩
abbrev S32768x128 : Shape := ⟨2, ![32768, 128]⟩
abbrev S32768x24 : Shape := ⟨2, ![32768, 24]⟩
abbrev S32768x32 : Shape := ⟨2, ![32768, 32]⟩
abbrev S128x57 : Shape := ⟨2, ![128, 57]⟩
abbrev S128 : Shape := ⟨1, ![128]⟩
abbrev S384x128 : Shape := ⟨2, ![384, 128]⟩
abbrev S384 : Shape := ⟨1, ![384]⟩
abbrev S384x160 : Shape := ⟨2, ![384, 160]⟩
abbrev S128x160 : Shape := ⟨2, ![128, 160]⟩
abbrev S256x128 : Shape := ⟨2, ![256, 128]⟩
abbrev S256 : Shape := ⟨1, ![256]⟩
abbrev S128x1 : Shape := ⟨2, ![128, 1]⟩
abbrev S128x24 : Shape := ⟨2, ![128, 24]⟩
abbrev S128x32 : Shape := ⟨2, ![128, 32]⟩
abbrev S384x32 : Shape := ⟨2, ![384, 32]⟩
abbrev S128x128 : Shape := ⟨2, ![128, 128]⟩
abbrev S32768x256 : Shape := ⟨2, ![32768, 256]⟩
abbrev S1024x1 : Shape := ⟨2, ![1024, 1]⟩
abbrev S1024x128 : Shape := ⟨2, ![1024, 128]⟩
abbrev S1024x24 : Shape := ⟨2, ![1024, 24]⟩
abbrev S1024x32 : Shape := ⟨2, ![1024, 32]⟩
abbrev S1024x256 : Shape := ⟨2, ![1024, 256]⟩
abbrev S1x128 : Shape := ⟨2, ![1, 128]⟩
abbrev S24x128 : Shape := ⟨2, ![24, 128]⟩
abbrev S32x128 : Shape := ⟨2, ![32, 128]⟩
abbrev S128x384 : Shape := ⟨2, ![128, 384]⟩
abbrev S1024x384 : Shape := ⟨2, ![1024, 384]⟩
abbrev S1x384 : Shape := ⟨2, ![1, 384]⟩
abbrev S32x384 : Shape := ⟨2, ![32, 384]⟩
abbrev S128x256 : Shape := ⟨2, ![128, 256]⟩
abbrev S1x256 : Shape := ⟨2, ![1, 256]⟩

abbrev nBuf : Space → Nat
  | .hbm => 36
  | .vmem => 43
  | .smem => 0
  | _ => 0

abbrev bufTy : (tb : Table) → Fin (tcTables nBuf tb) → BufTy
  | .hbm, ⟨0, _⟩ => ⟨S32768x1, .f32⟩
  | .hbm, ⟨1, _⟩ => ⟨S32768x128, .f32⟩
  | .hbm, ⟨2, _⟩ => ⟨S32768x128, .f32⟩
  | .hbm, ⟨3, _⟩ => ⟨S32768x24, .f32⟩
  | .hbm, ⟨4, _⟩ => ⟨S32768x32, .f32⟩
  | .hbm, ⟨5, _⟩ => ⟨S32768x32, .f32⟩
  | .hbm, ⟨6, _⟩ => ⟨S32768x32, .f32⟩
  | .hbm, ⟨7, _⟩ => ⟨S32768x32, .f32⟩
  | .hbm, ⟨8, _⟩ => ⟨S128x57, .f32⟩
  | .hbm, ⟨9, _⟩ => ⟨S128, .f32⟩
  | .hbm, ⟨10, _⟩ => ⟨S384x128, .f32⟩
  | .hbm, ⟨11, _⟩ => ⟨S384x128, .f32⟩
  | .hbm, ⟨12, _⟩ => ⟨S384, .f32⟩
  | .hbm, ⟨13, _⟩ => ⟨S384, .f32⟩
  | .hbm, ⟨14, _⟩ => ⟨S384x160, .f32⟩
  | .hbm, ⟨15, _⟩ => ⟨S384x128, .f32⟩
  | .hbm, ⟨16, _⟩ => ⟨S384, .f32⟩
  | .hbm, ⟨17, _⟩ => ⟨S384, .f32⟩
  | .hbm, ⟨18, _⟩ => ⟨S128x160, .f32⟩
  | .hbm, ⟨19, _⟩ => ⟨S128, .f32⟩
  | .hbm, ⟨20, _⟩ => ⟨S128x160, .f32⟩
  | .hbm, ⟨21, _⟩ => ⟨S128, .f32⟩
  | .hbm, ⟨22, _⟩ => ⟨S256x128, .f32⟩
  | .hbm, ⟨23, _⟩ => ⟨S256, .f32⟩
  | .hbm, ⟨24, _⟩ => ⟨S128x1, .f32⟩
  | .hbm, ⟨25, _⟩ => ⟨S128x24, .f32⟩
  | .hbm, ⟨26, _⟩ => ⟨S128x32, .f32⟩
  | .hbm, ⟨27, _⟩ => ⟨S384x128, .f32⟩
  | .hbm, ⟨28, _⟩ => ⟨S384x32, .f32⟩
  | .hbm, ⟨29, _⟩ => ⟨S128x128, .f32⟩
  | .hbm, ⟨30, _⟩ => ⟨S128x32, .f32⟩
  | .hbm, ⟨31, _⟩ => ⟨S128x128, .f32⟩
  | .hbm, ⟨32, _⟩ => ⟨S128x32, .f32⟩
  | .hbm, ⟨33, _⟩ => ⟨S32768x256, .f32⟩
  | .hbm, ⟨34, _⟩ => ⟨S32768x128, .f32⟩
  | .hbm, ⟨35, _⟩ => ⟨S32768x128, .f32⟩
  | .local _ .vmem, ⟨0, _⟩ => ⟨S1024x1, .f32⟩
  | .local _ .vmem, ⟨1, _⟩ => ⟨S1024x1, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x24, .f32⟩
  | .local _ .vmem, ⟨7, _⟩ => ⟨S1024x24, .f32⟩
  | .local _ .vmem, ⟨8, _⟩ => ⟨S1024x32, .f32⟩
  | .local _ .vmem, ⟨9, _⟩ => ⟨S1024x32, .f32⟩
  | .local _ .vmem, ⟨10, _⟩ => ⟨S1024x32, .f32⟩
  | .local _ .vmem, ⟨11, _⟩ => ⟨S1024x32, .f32⟩
  | .local _ .vmem, ⟨12, _⟩ => ⟨S1024x32, .f32⟩
  | .local _ .vmem, ⟨13, _⟩ => ⟨S1024x32, .f32⟩
  | .local _ .vmem, ⟨14, _⟩ => ⟨S1024x32, .f32⟩
  | .local _ .vmem, ⟨15, _⟩ => ⟨S1024x32, .f32⟩
  | .local _ .vmem, ⟨16, _⟩ => ⟨S128x1, .f32⟩
  | .local _ .vmem, ⟨17, _⟩ => ⟨S128x24, .f32⟩
  | .local _ .vmem, ⟨18, _⟩ => ⟨S128x32, .f32⟩
  | .local _ .vmem, ⟨19, _⟩ => ⟨S128, .f32⟩
  | .local _ .vmem, ⟨20, _⟩ => ⟨S384x128, .f32⟩
  | .local _ .vmem, ⟨21, _⟩ => ⟨S384x128, .f32⟩
  | .local _ .vmem, ⟨22, _⟩ => ⟨S384, .f32⟩
  | .local _ .vmem, ⟨23, _⟩ => ⟨S384, .f32⟩
  | .local _ .vmem, ⟨24, _⟩ => ⟨S384x128, .f32⟩
  | .local _ .vmem, ⟨25, _⟩ => ⟨S384x32, .f32⟩
  | .local _ .vmem, ⟨26, _⟩ => ⟨S384x128, .f32⟩
  | .local _ .vmem, ⟨27, _⟩ => ⟨S384, .f32⟩
  | .local _ .vmem, ⟨28, _⟩ => ⟨S384, .f32⟩
  | .local _ .vmem, ⟨29, _⟩ => ⟨S128x128, .f32⟩
  | .local _ .vmem, ⟨30, _⟩ => ⟨S128x32, .f32⟩
  | .local _ .vmem, ⟨31, _⟩ => ⟨S128, .f32⟩
  | .local _ .vmem, ⟨32, _⟩ => ⟨S128x128, .f32⟩
  | .local _ .vmem, ⟨33, _⟩ => ⟨S128x32, .f32⟩
  | .local _ .vmem, ⟨34, _⟩ => ⟨S128, .f32⟩
  | .local _ .vmem, ⟨35, _⟩ => ⟨S256x128, .f32⟩
  | .local _ .vmem, ⟨36, _⟩ => ⟨S256, .f32⟩
  | .local _ .vmem, ⟨37, _⟩ => ⟨S1024x256, .f32⟩
  | .local _ .vmem, ⟨38, _⟩ => ⟨S1024x256, .f32⟩
  | .local _ .vmem, ⟨39, _⟩ => ⟨S1024x128, .f32⟩
  | .local _ .vmem, ⟨40, _⟩ => ⟨S1024x128, .f32⟩
  | .local _ .vmem, ⟨41, _⟩ => ⟨S1024x128, .f32⟩
  | .local _ .vmem, ⟨42, _⟩ => ⟨S1024x128, .f32⟩
  | _, _ => ⟨S32768x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9_0 : Ref sig .tc := ⟨.hbm, 33, rfl⟩
abbrev main_v9_1 : Ref sig .tc := ⟨.hbm, 34, rfl⟩
abbrev main_v9_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg23_0 : Ref sig .tc := ⟨.vmem, 31, rfl⟩
abbrev cc0_stg24_0 : Ref sig .tc := ⟨.vmem, 32, rfl⟩
abbrev cc0_stg25_0 : Ref sig .tc := ⟨.vmem, 33, rfl⟩
abbrev cc0_stg26_0 : Ref sig .tc := ⟨.vmem, 34, rfl⟩
abbrev cc0_stg27_0 : Ref sig .tc := ⟨.vmem, 35, rfl⟩
abbrev cc0_stg28_0 : Ref sig .tc := ⟨.vmem, 36, rfl⟩
abbrev cc0_stg29_0 : Ref sig .tc := ⟨.vmem, 37, rfl⟩
abbrev cc0_stg29_1 : Ref sig .tc := ⟨.vmem, 38, rfl⟩
abbrev cc0_stg30_0 : Ref sig .tc := ⟨.vmem, 39, rfl⟩
abbrev cc0_stg30_1 : Ref sig .tc := ⟨.vmem, 40, rfl⟩
abbrev cc0_stg31_0 : Ref sig .tc := ⟨.vmem, 41, rfl⟩
abbrev cc0_stg31_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem23_0 : DmaSem sig := 31
abbrev cc0_sem24_0 : DmaSem sig := 32
abbrev cc0_sem25_0 : DmaSem sig := 33
abbrev cc0_sem26_0 : DmaSem sig := 34
abbrev cc0_sem27_0 : DmaSem sig := 35
abbrev cc0_sem28_0 : DmaSem sig := 36
abbrev cc0_sem29_0 : DmaSem sig := 37
abbrev cc0_sem29_1 : DmaSem sig := 38
abbrev cc0_sem30_0 : DmaSem sig := 39
abbrev cc0_sem30_1 : DmaSem sig := 40
abbrev cc0_sem31_0 : DmaSem sig := 41
abbrev cc0_sem31_1 : DmaSem sig := 42

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x24 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S384x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S384x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S384x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S384x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S384 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S384 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x32 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x32 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S256x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S1024x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1024x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1024x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

class Facts₀ : Prop where
  slices_S128x57_S128x1_0_0 : S128x57.Slices ![0, 0] S128x1
  slices_S128x57_S128x24_0_1 : S128x57.Slices ![0, 1] S128x24
  slices_S128x57_S128x32_0_25 : S128x57.Slices ![0, 25] S128x32
  slices_S384x160_S384x128_0_0 : S384x160.Slices ![0, 0] S384x128
  slices_S384x160_S384x32_0_128 : S384x160.Slices ![0, 128] S384x32
  slices_S128x160_S128x128_0_0 : S128x160.Slices ![0, 0] S128x128
  slices_S128x160_S128x32_0_128 : S128x160.Slices ![0, 128] S128x32
  inb_S1024x1_S1024x1_0_0 : ∀ a, (![0, 0] : Fin 2 → Nat) a + S1024x1.size a ≤ S1024x1.size a
  h_S1024x1 : 0 < S1024x1.numel
  inb_S1024x24_S1024x24_0_0 : ∀ a, (![0, 0] : Fin 2 → Nat) a + S1024x24.size a ≤ S1024x24.size a
  h_S1024x24 : 0 < S1024x24.numel
  inb_S1024x32_S1024x32_0_0 : ∀ a, (![0, 0] : Fin 2 → Nat) a + S1024x32.size a ≤ S1024x32.size a
  h_S1024x32 : 0 < S1024x32.numel
  inb_S1024x128_S1024x128_0_0 : ∀ a, (![0, 0] : Fin 2 → Nat) a + S1024x128.size a ≤ S1024x128.size a
  h_S1024x128 : 0 < S1024x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  bitsLt_bf16_f32 : FTy.bits .bf16 < FTy.bits .f32
  transposes_S128x1_p1_0_S1x128 : S128x1.Transposes [1, 0] S1x128
  inb_S128x24_S128x24_0_0 : ∀ a, (![0, 0] : Fin 2 → Nat) a + S128x24.size a ≤ S128x24.size a
  h_S128x24 : 0 < S128x24.numel
  shapeCasts_S128x24_S128x24 : S128x24.ShapeCasts S128x24
  transposes_S128x24_p1_0_S24x128 : S128x24.Transposes [1, 0] S24x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  transposes_S128x32_p1_0_S32x128 : S128x32.Transposes [1, 0] S32x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S384x128_S384x128_0_0 : ∀ a, (![0, 0] : Fin 2 → Nat) a + S384x128.size a ≤ S384x128.size a
  h_S384x128 : 0 < S384x128.numel
  transposes_S384x128_p1_0_S128x384 : S384x128.Transposes [1, 0] S128x384
  inb_S384_S384_0 : ∀ a, (![0] : Fin 1 → Nat) a + S384.size a ≤ S384.size a
  h_S384 : 0 < S384.numel
  shapeCasts_S384_S1x384 : S384.ShapeCasts S1x384
  broadcasts_S1x384_S1024x384 : S1x384.Broadcasts S1024x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  shapeCasts_S384x128_S384x128 : S384x128.ShapeCasts S384x128
  inb_S384x32_S384x32_0_0 : ∀ a, (![0, 0] : Fin 2 → Nat) a + S384x32.size a ≤ S384x32.size a
  h_S384x32 : 0 < S384x32.numel
  shapeCasts_S384x32_S384x32 : S384x32.ShapeCasts S384x32
  transposes_S384x32_p1_0_S32x384 : S384x32.Transposes [1, 0] S32x384
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x1_S1x128_S1024x128_1_0_0_1_n_n_wf : DotDims.WF S1024x1 S1x128 S1024x128 [1] [0] [0] [1] [] []
  dot_S1024x24_S24x128_S1024x128_1_0_0_1_n_n_wf : DotDims.WF S1024x24 S24x128 S1024x128 [1] [0] [0] [1] [] []
  dot_S1024x32_S32x128_S1024x128_1_0_0_1_n_n_wf : DotDims.WF S1024x32 S32x128 S1024x128 [1] [0] [0] [1] [] []
  dot_S1024x128_S128x384_S1024x384_1_0_0_1_n_n_wf : DotDims.WF S1024x128 S128x384 S1024x384 [1] [0] [0] [1] [] []
  dot_S1024x32_S32x384_S1024x384_1_0_0_1_n_n_wf : DotDims.WF S1024x32 S32x384 S1024x384 [1] [0] [0] [1] [] []
  dot_S1024x128_S128x128_S1024x128_1_0_0_1_n_n_wf : DotDims.WF S1024x128 S128x128 S1024x128 [1] [0] [0] [1] [] []
  dot_S1024x128_S128x256_S1024x256_1_0_0_1_n_n_wf : DotDims.WF S1024x128 S128x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S32768x1.size a
  hwx0_0 : ∀ i : grid0.Coords, EltTy.bits .f32 = 32 ∨ (Rect.block (s := S32768x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S32768x128.size a
  hwx0_1 : ∀ i : grid0.Coords, EltTy.bits .f32 = 32 ∨ (Rect.block (s := S32768x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S32768x128.size a
  hwx0_2 : ∀ i : grid0.Coords, EltTy.bits .f32 = 32 ∨ (Rect.block (s := S32768x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x24.size a ≤ S32768x24.size a
  hwx0_3 : ∀ i : grid0.Coords, EltTy.bits .f32 = 32 ∨ (Rect.block (s := S32768x24) S1024x24.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x32.size a ≤ S32768x32.size a
  hwx0_4 : ∀ i : grid0.Coords, EltTy.bits .f32 = 32 ∨ (Rect.block (s := S32768x32) S1024x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x32.size a ≤ S32768x32.size a
  hwx0_5 : ∀ i : grid0.Coords, EltTy.bits .f32 = 32 ∨ (Rect.block (s := S32768x32) S1024x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x32.size a ≤ S32768x32.size a
  hwx0_6 : ∀ i : grid0.Coords, EltTy.bits .f32 = 32 ∨ (Rect.block (s := S32768x32) S1024x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x32.size a ≤ S32768x32.size a
  hwx0_7 : ∀ i : grid0.Coords, EltTy.bits .f32 = 32 ∨ (Rect.block (s := S32768x32) S1024x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .f32 = 32 ∨ (Rect.block (s := S128x1) S128x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x24.size a ≤ S128x24.size a
  hwx0_9 : ∀ i : grid0.Coords, EltTy.bits .f32 = 32 ∨ (Rect.block (s := S128x24) S128x24.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x32.size a ≤ S128x32.size a
  hwx0_10 : ∀ i : grid0.Coords, EltTy.bits .f32 = 32 ∨ (Rect.block (s := S128x32) S128x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S384x128.size a ≤ S384x128.size a
  hwx0_12 : ∀ i : grid0.Coords, EltTy.bits .f32 = 32 ∨ (Rect.block (s := S384x128) S384x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S384x128.size a ≤ S384x128.size a
  hwx0_13 : ∀ i : grid0.Coords, EltTy.bits .f32 = 32 ∨ (Rect.block (s := S384x128) S384x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S384.size a ≤ S384.size a
  hwx0_14 : ∀ i : grid0.Coords, EltTy.bits .f32 = 32 ∨ (Rect.block (s := S384) S384.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S384.size a ≤ S384.size a
  hwx0_15 : ∀ i : grid0.Coords, EltTy.bits .f32 = 32 ∨ (Rect.block (s := S384) S384.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S384x128.size a ≤ S384x128.size a
  hwx0_16 : ∀ i : grid0.Coords, EltTy.bits .f32 = 32 ∨ (Rect.block (s := S384x128) S384x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S384x32.size a ≤ S384x32.size a
  hwx0_17 : ∀ i : grid0.Coords, EltTy.bits .f32 = 32 ∨ (Rect.block (s := S384x32) S384x32.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S384x128.size a ≤ S384x128.size a
  hwx0_18 : ∀ i : grid0.Coords, EltTy.bits .f32 = 32 ∨ (Rect.block (s := S384x128) S384x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S384.size a ≤ S384.size a
  hwx0_19 : ∀ i : grid0.Coords, EltTy.bits .f32 = 32 ∨ (Rect.block (s := S384) S384.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S384.size a ≤ S384.size a
  hwx0_20 : ∀ i : grid0.Coords, EltTy.bits .f32 = 32 ∨ (Rect.block (s := S384) S384.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x128.size a ≤ S128x128.size a
  hwx0_21 : ∀ i : grid0.Coords, EltTy.bits .f32 = 32 ∨ (Rect.block (s := S128x128) S128x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128x32.size a ≤ S128x32.size a
  hwx0_22 : ∀ i : grid0.Coords, EltTy.bits .f32 = 32 ∨ (Rect.block (s := S128x32) S128x32.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S128.size a ≤ S128.size a
  hwx0_23 : ∀ i : grid0.Coords, EltTy.bits .f32 = 32 ∨ (Rect.block (s := S128) S128.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S128x128.size a ≤ S128x128.size a
  hwx0_24 : ∀ i : grid0.Coords, EltTy.bits .f32 = 32 ∨ (Rect.block (s := S128x128) S128x128.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S128x32.size a ≤ S128x32.size a
  hwx0_25 : ∀ i : grid0.Coords, EltTy.bits .f32 = 32 ∨ (Rect.block (s := S128x32) S128x32.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S128.size a ≤ S128.size a
  hwx0_26 : ∀ i : grid0.Coords, EltTy.bits .f32 = 32 ∨ (Rect.block (s := S128) S128.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S256x128.size a ≤ S256x128.size a
  hwx0_27 : ∀ i : grid0.Coords, EltTy.bits .f32 = 32 ∨ (Rect.block (s := S256x128) S256x128.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S256.size a ≤ S256.size a
  hwx0_28 : ∀ i : grid0.Coords, EltTy.bits .f32 = 32 ∨ (Rect.block (s := S256) S256.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S1024x256.size a ≤ S32768x256.size a
  hwx0_29 : ∀ i : grid0.Coords, EltTy.bits .f32 = 32 ∨ (Rect.block (s := S32768x256) S1024x256.size (cc0_transform_29 i) (hinb0_29 i)).WholeWords (EltTy.packing .f32)
  hstage0_30 : ∀ j, (stage0_30 j).IsWhole
  nbuf0_30 : grid0.bufCount reads0_30 false = 2
  hreads0_30 : ∀ i i' : grid0.Coords, (∀ a, reads0_30 a = true → i a = i' a) → cc0_transform_30 i = cc0_transform_30 i'
  hinb0_30 : ∀ (i : grid0.Coords) a, (cc0_transform_30 i a + 1) * S1024x128.size a ≤ S32768x128.size a
  hwx0_30 : ∀ i : grid0.Coords, EltTy.bits .f32 = 32 ∨ (Rect.block (s := S32768x128) S1024x128.size (cc0_transform_30 i) (hinb0_30 i)).WholeWords (EltTy.packing .f32)
  hstage0_31 : ∀ j, (stage0_31 j).IsWhole
  nbuf0_31 : grid0.bufCount reads0_31 false = 2
  hreads0_31 : ∀ i i' : grid0.Coords, (∀ a, reads0_31 a = true → i a = i' a) → cc0_transform_31 i = cc0_transform_31 i'
  hinb0_31 : ∀ (i : grid0.Coords) a, (cc0_transform_31 i a + 1) * S1024x128.size a ≤ S32768x128.size a
  hwx0_31 : ∀ i : grid0.Coords, EltTy.bits .f32 = 32 ∨ (Rect.block (s := S32768x128) S1024x128.size (cc0_transform_31 i) (hinb0_31 i)).WholeWords (EltTy.packing .f32)

variable [Facts₀]

def dot_S1024x1_S1x128_S1024x128_1_0_0_1_n_n : DotDims S1024x1 S1x128 S1024x128 where
  lhsContracting := [1]
  rhsContracting := [0]
  lhsNonContracting := [0]
  rhsNonContracting := [1]
  lhsBatch := []
  rhsBatch := []
  wf := dot_S1024x1_S1x128_S1024x128_1_0_0_1_n_n_wf
def dot_S1024x24_S24x128_S1024x128_1_0_0_1_n_n : DotDims S1024x24 S24x128 S1024x128 where
  lhsContracting := [1]
  rhsContracting := [0]
  lhsNonContracting := [0]
  rhsNonContracting := [1]
  lhsBatch := []
  rhsBatch := []
  wf := dot_S1024x24_S24x128_S1024x128_1_0_0_1_n_n_wf
def dot_S1024x32_S32x128_S1024x128_1_0_0_1_n_n : DotDims S1024x32 S32x128 S1024x128 where
  lhsContracting := [1]
  rhsContracting := [0]
  lhsNonContracting := [0]
  rhsNonContracting := [1]
  lhsBatch := []
  rhsBatch := []
  wf := dot_S1024x32_S32x128_S1024x128_1_0_0_1_n_n_wf
def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf
def dot_S1024x32_S32x384_S1024x384_1_0_0_1_n_n : DotDims S1024x32 S32x384 S1024x384 where
  lhsContracting := [1]
  rhsContracting := [0]
  lhsNonContracting := [0]
  rhsNonContracting := [1]
  lhsBatch := []
  rhsBatch := []
  wf := dot_S1024x32_S32x384_S1024x384_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpec (Memref.whole main_arg0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x24.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024x32.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S128x24.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S128x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S384x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S384x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S384.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg13) S384.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v3) S384x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v4) S384x32.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg15) S384x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg16) S384.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg17) S384.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v5) S128x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v6) S128x32.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg19) S128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v7) S128x128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v8) S128x32.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg21) S128.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg22) S256x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_arg23) S256.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v9_0) S1024x256.size cc0_transform_29 reads0_29 true false 2 stage0_29 sem0_29
    hrank0 hreads0_29 hinb0_29 nbuf0_29 (Memref.isWhole_whole _) hwx0_29 hstage0_29

abbrev win0_30 : Pipeline.Window sig grid0 :=
  Pipeline.Window.ofSpec (Memref.whole main_v9_1) S1024x128.size cc0_transform_30 reads0_30 true false 2 stage0_30 sem0_30
    hrank0 hreads0_30 hinb0_30 nbuf0_30 (Memref.isWhole_whole _) hwx0_30 hstage0_30

abbrev win0_31 : Pipeline.Window sig grid0 :=
  Pipeline.Window.ofSpec (Memref.whole main_v9_2) S1024x128.size cc0_transform_31 reads0_31 true false 2 stage0_31 sem0_31
    hrank0 hreads0_31 hinb0_31 nbuf0_31 (Memref.isWhole_whole _) hwx0_31 hstage0_31

abbrev win0 : Fin 32 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | ⟨_ + 32, h⟩ => absurd h (Nat.not_lt.2 (Nat.le_add_left _ _))
abbrev spec0 : Fin 32 → Pipeline.WinSpec sig grid0.rank := fun w => (win0 w).toWinSpec

class Facts : Prop extends Facts₀ where

variable [Facts]
-- ==== ReferenceIdeal.lean ====
abbrev S32768x1 : Shape := ⟨2, ![32768, 1]⟩
abbrev S32768x128 : Shape := ⟨2, ![32768, 128]⟩
abbrev S32768x24 : Shape := ⟨2, ![32768, 24]⟩
abbrev S32768x32 : Shape := ⟨2, ![32768, 32]⟩
abbrev S128x57 : Shape := ⟨2, ![128, 57]⟩
abbrev S128 : Shape := ⟨1, ![128]⟩
abbrev S384x128 : Shape := ⟨2, ![384, 128]⟩
abbrev S384 : Shape := ⟨1, ![384]⟩
abbrev S384x160 : Shape := ⟨2, ![384, 160]⟩
abbrev S128x160 : Shape := ⟨2, ![128, 160]⟩
abbrev S256x128 : Shape := ⟨2, ![256, 128]⟩
abbrev S256 : Shape := ⟨1, ![256]⟩
abbrev S32768x57 : Shape := ⟨2, ![32768, 57]⟩
abbrev S57x128 : Shape := ⟨2, ![57, 128]⟩
abbrev S1x128 : Shape := ⟨2, ![1, 128]⟩
abbrev S128x384 : Shape := ⟨2, ![128, 384]⟩
abbrev S32768x384 : Shape := ⟨2, ![32768, 384]⟩
abbrev S1x384 : Shape := ⟨2, ![1, 384]⟩
abbrev S_ : Shape := ⟨0, ![]⟩
abbrev S32768x160 : Shape := ⟨2, ![32768, 160]⟩
abbrev S160x384 : Shape := ⟨2, ![160, 384]⟩
abbrev S160x128 : Shape := ⟨2, ![160, 128]⟩
abbrev S128x256 : Shape := ⟨2, ![128, 256]⟩
abbrev S32768x256 : Shape := ⟨2, ![32768, 256]⟩
abbrev S1x256 : Shape := ⟨2, ![1, 256]⟩

abbrev nBuf : Space → Nat
  | .hbm => 142
  | .vmem => 0
  | .smem => 0
  | _ => 0

abbrev hbmTy0_0 (i : Nat) : BufTy := match i % 128 with
  | 0 => ⟨S32768x1, .f32⟩
  | 1 => ⟨S32768x128, .f32⟩
  | 2 => ⟨S32768x128, .f32⟩
  | 3 => ⟨S32768x24, .f32⟩
  | 4 => ⟨S32768x32, .f32⟩
  | 5 => ⟨S32768x32, .f32⟩
  | 6 => ⟨S32768x32, .f32⟩
  | 7 => ⟨S32768x32, .f32⟩
  | 8 => ⟨S128x57, .f32⟩
  | 9 => ⟨S128, .f32⟩
  | 10 => ⟨S384x128, .f32⟩
  | 11 => ⟨S384x128, .f32⟩
  | 12 => ⟨S384, .f32⟩
  | 13 => ⟨S384, .f32⟩
  | 14 => ⟨S384x160, .f32⟩
  | 15 => ⟨S384x128, .f32⟩
  | 16 => ⟨S384, .f32⟩
  | 17 => ⟨S384, .f32⟩
  | 18 => ⟨S128x160, .f32⟩
  | 19 => ⟨S128, .f32⟩
  | 20 => ⟨S128x160, .f32⟩
  | 21 => ⟨S128, .f32⟩
  | 22 => ⟨S256x128, .f32⟩
  | 23 => ⟨S256, .f32⟩
  | 24 => ⟨S32768x57, .f32⟩
  | 25 => ⟨S57x128, .f32⟩
  | 26 => ⟨S32768x128, .f32⟩
  | 27 => ⟨S1x128, .f32⟩
  | 28 => ⟨S32768x128, .f32⟩
  | 29 => ⟨S32768x128, .f32⟩
  | 30 => ⟨S128x384, .f32⟩
  | 31 => ⟨S32768x384, .f32⟩
  | 32 => ⟨S1x384, .f32⟩
  | 33 => ⟨S32768x384, .f32⟩
  | 34 => ⟨S32768x384, .f32⟩
  | 35 => ⟨S128x384, .f32⟩
  | 36 => ⟨S32768x384, .f32⟩
  | 37 => ⟨S1x384, .f32⟩
  | 38 => ⟨S32768x384, .f32⟩
  | 39 => ⟨S32768x384, .f32⟩
  | 40 => ⟨S32768x128, .f32⟩
  | 41 => ⟨S32768x128, .f32⟩
  | 42 => ⟨S32768x128, .f32⟩
  | 43 => ⟨S32768x128, .f32⟩
  | 44 => ⟨S32768x128, .f32⟩
  | 45 => ⟨S32768x128, .f32⟩
  | 46 => ⟨S32768x128, .f32⟩
  | 47 => ⟨S32768x128, .f32⟩
  | 48 => ⟨S32768x128, .f32⟩
  | 49 => ⟨S_, .f32⟩
  | 50 => ⟨S32768x128, .f32⟩
  | 51 => ⟨S32768x128, .f32⟩
  | 52 => ⟨S_, .f32⟩
  | 53 => ⟨S32768x128, .f32⟩
  | 54 => ⟨S32768x128, .f32⟩
  | 55 => ⟨S32768x128, .f32⟩
  | 56 => ⟨S32768x128, .f32⟩
  | 57 => ⟨S32768x128, .f32⟩
  | 58 => ⟨S_, .f32⟩
  | 59 => ⟨S32768x128, .f32⟩
  | 60 => ⟨S32768x128, .f32⟩
  | 61 => ⟨S_, .f32⟩
  | 62 => ⟨S32768x128, .f32⟩
  | 63 => ⟨S32768x128, .f32⟩
  | 64 => ⟨S32768x128, .f32⟩
  | 65 => ⟨S32768x128, .f32⟩
  | 66 => ⟨S32768x128, .f32⟩
  | 67 => ⟨S_, .f32⟩
  | 68 => ⟨S32768x128, .f32⟩
  | 69 => ⟨S32768x128, .f32⟩
  | 70 => ⟨S32768x128, .f32⟩
  | 71 => ⟨S32768x128, .f32⟩
  | 72 => ⟨S32768x128, .f32⟩
  | 73 => ⟨S32768x128, .f32⟩
  | 74 => ⟨S32768x160, .f32⟩
  | 75 => ⟨S160x384, .f32⟩
  | 76 => ⟨S32768x384, .f32⟩
  | 77 => ⟨S1x384, .f32⟩
  | 78 => ⟨S32768x384, .f32⟩
  | 79 => ⟨S32768x384, .f32⟩
  | 80 => ⟨S128x384, .f32⟩
  | 81 => ⟨S32768x384, .f32⟩
  | 82 => ⟨S1x384, .f32⟩
  | 83 => ⟨S32768x384, .f32⟩
  | 84 => ⟨S32768x384, .f32⟩
  | 85 => ⟨S32768x128, .f32⟩
  | 86 => ⟨S32768x128, .f32⟩
  | 87 => ⟨S32768x128, .f32⟩
  | 88 => ⟨S32768x128, .f32⟩
  | 89 => ⟨S32768x128, .f32⟩
  | 90 => ⟨S32768x128, .f32⟩
  | 91 => ⟨S32768x128, .f32⟩
  | 92 => ⟨S32768x128, .f32⟩
  | 93 => ⟨S32768x128, .f32⟩
  | 94 => ⟨S_, .f32⟩
  | 95 => ⟨S32768x128, .f32⟩
  | 96 => ⟨S32768x128, .f32⟩
  | 97 => ⟨S_, .f32⟩
  | 98 => ⟨S32768x128, .f32⟩
  | 99 => ⟨S32768x128, .f32⟩
  | 100 => ⟨S32768x128, .f32⟩
  | 101 => ⟨S32768x128, .f32⟩
  | 102 => ⟨S32768x128, .f32⟩
  | 103 => ⟨S_, .f32⟩
  | 104 => ⟨S32768x128, .f32⟩
  | 105 => ⟨S32768x128, .f32⟩
  | 106 => ⟨S_, .f32⟩
  | 107 => ⟨S32768x128, .f32⟩
  | 108 => ⟨S32768x128, .f32⟩
  | 109 => ⟨S32768x128, .f32⟩
  | 110 => ⟨S32768x128, .f32⟩
  | 111 => ⟨S32768x128, .f32⟩
  | 112 => ⟨S_, .f32⟩
  | 113 => ⟨S32768x128, .f32⟩
  | 114 => ⟨S32768x128, .f32⟩
  | 115 => ⟨S32768x128, .f32⟩
  | 116 => ⟨S32768x128, .f32⟩
  | 117 => ⟨S32768x128, .f32⟩
  | 118 => ⟨S32768x128, .f32⟩
  | 119 => ⟨S32768x160, .f32⟩
  | 120 => ⟨S160x128, .f32⟩
  | 121 => ⟨S32768x128, .f32⟩
  | 122 => ⟨S1x128, .f32⟩
  | 123 => ⟨S32768x128, .f32⟩
  | 124 => ⟨S32768x128, .f32⟩
  | 125 => ⟨S_, .f32⟩
  | 126 => ⟨S32768x128, .f32⟩
  | 127 => ⟨S32768x128, .f32⟩
  | _ => ⟨S32768x1, .f32⟩

abbrev hbmTy0_1 (i : Nat) : BufTy := match i % 128 with
  | 0 => ⟨S32768x160, .f32⟩
  | 1 => ⟨S160x128, .f32⟩
  | 2 => ⟨S32768x128, .f32⟩
  | 3 => ⟨S1x128, .f32⟩
  | 4 => ⟨S32768x128, .f32⟩
  | 5 => ⟨S32768x128, .f32⟩
  | 6 => ⟨S_, .f32⟩
  | 7 => ⟨S32768x128, .f32⟩
  | 8 => ⟨S32768x128, .f32⟩
  | 9 => ⟨S128x256, .f32⟩
  | 10 => ⟨S32768x256, .f32⟩
  | 11 => ⟨S1x256, .f32⟩
  | 12 => ⟨S32768x256, .f32⟩
  | 13 => ⟨S32768x256, .f32⟩
  | _ => ⟨S32768x1, .f32⟩

abbrev hbmTy (i : Nat) : BufTy := match i / 128 with
  | 0 => hbmTy0_0 i
  | 1 => hbmTy0_1 i
  | _ => ⟨S32768x1, .f32⟩

abbrev bufTy : (tb : Table) → Fin (tcTables nBuf tb) → BufTy
  | .hbm, ⟨i, _⟩ => hbmTy i
  | _, _ => ⟨S32768x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst : Ref sig .tc := ⟨.hbm, 49, rfl⟩
abbrev main_v25 : Ref sig .tc := ⟨.hbm, 50, rfl⟩
abbrev main_v26 : Ref sig .tc := ⟨.hbm, 51, rfl⟩
abbrev main_cst_0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_1 : Ref sig .tc := ⟨.hbm, 58, rfl⟩
abbrev main_v32 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_3 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_4 : Ref sig .tc := ⟨.hbm, 94, rfl⟩
abbrev main_v65 : Ref sig .tc := ⟨.hbm, 95, rfl⟩
abbrev main_v66 : Ref sig .tc := ⟨.hbm, 96, rfl⟩
abbrev main_cst_5 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_6 : Ref sig .tc := ⟨.hbm, 103, rfl⟩
abbrev main_v72 : Ref sig .tc := ⟨.hbm, 104, rfl⟩
abbrev main_v73 : Ref sig .tc := ⟨.hbm, 105, rfl⟩
abbrev main_cst_7 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_8 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call0_cst : Ref sig .tc := ⟨.hbm, 125, rfl⟩
abbrev main_call0_v0 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_call1_cst : Ref sig .tc := ⟨.hbm, 134, rfl⟩
abbrev main_call1_v0 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩

abbrev nD : Nat := 1
abbrev τ : Topo := Topo.v7x

variable {F : FTy → Type} [FloatOps F]

class Facts₀ : Prop where
  concatenates_S32768x1_S32768x24_S32768x32_S32768x57_d1 : Shape.Concatenates [S32768x1, S32768x24, S32768x32] S32768x57 1
  transposes_S128x57_S57x128_1_0 : S128x57.Transposes [1, 0] S57x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  transposes_S384x128_S128x384_1_0 : S384x128.Transposes [1, 0] S128x384
  bcast_S384_S1x384_1 : S384.BroadcastsInDim S1x384 (![1] : Fin 1 → Fin S1x384.rank)
  bcast_S1x384_S32768x384_0_1 : S1x384.BroadcastsInDim S32768x384 (![0, 1] : Fin 2 → Fin S32768x384.rank)
  slices_S32768x384_S32768x128_0_0 : S32768x384.Slices ![0, 0] S32768x128
  slices_S32768x384_S32768x128_0_128 : S32768x384.Slices ![0, 128] S32768x128
  slices_S32768x384_S32768x128_0_256 : S32768x384.Slices ![0, 256] S32768x128
  bcast_S_S32768x128 : S_.BroadcastsInDim S32768x128 (![] : Fin 0 → Fin S32768x128.rank)
  concatenates_S32768x128_S32768x32_S32768x160_d1 : Shape.Concatenates [S32768x128, S32768x32] S32768x160 1
  transposes_S384x160_S160x384_1_0 : S384x160.Transposes [1, 0] S160x384
  transposes_S128x160_S160x128_1_0 : S128x160.Transposes [1, 0] S160x128
  transposes_S256x128_S128x256_1_0 : S256x128.Transposes [1, 0] S128x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  dot_S32768x57_S57x128_S32768x128_1_0_0_1_n_n_wf : DotDims.WF S32768x57 S57x128 S32768x128 [1] [0] [0] [1] [] []
  dot_S32768x128_S128x384_S32768x384_1_0_0_1_n_n_wf : DotDims.WF S32768x128 S128x384 S32768x384 [1] [0] [0] [1] [] []
  dot_S32768x160_S160x384_S32768x384_1_0_0_1_n_n_wf : DotDims.WF S32768x160 S160x384 S32768x384 [1] [0] [0] [1] [] []
  dot_S32768x160_S160x128_S32768x128_1_0_0_1_n_n_wf : DotDims.WF S32768x160 S160x128 S32768x128 [1] [0] [0] [1] [] []
  dot_S32768x128_S128x256_S32768x256_1_0_0_1_n_n_wf : DotDims.WF S32768x128 S128x256 S32768x256 [1] [0] [0] [1] [] []

variable [Facts₀]

def dot_S32768x57_S57x128_S32768x128_1_0_0_1_n_n : DotDims S32768x57 S57x128 S32768x128 where
  lhsContracting := [1]
  rhsContracting := [0]
  lhsNonContracting := [0]
  rhsNonContracting := [1]
  lhsBatch := []
  rhsBatch := []
  wf := dot_S32768x57_S57x128_S32768x128_1_0_0_1_n_n_wf
def dot_S32768x128_S128x384_S32768x384_1_0_0_1_n_n : DotDims S32768x128 S128x384 S32768x384 where
  lhsContracting := [1]
  rhsContracting := [0]
  lhsNonContracting := [0]
  rhsNonContracting := [1]
  lhsBatch := []
  rhsBatch := []
  wf := dot_S32768x128_S128x384_S32768x384_1_0_0_1_n_n_wf
def dot_S32768x160_S160x384_S32768x384_1_0_0_1_n_n : DotDims S32768x160 S160x384 S32768x384 where
  lhsContracting := [1]
  rhsContracting := [0]
  lhsNonContracting := [0]
  rhsNonContracting := [1]
  lhsBatch := []
  rhsBatch := []
  wf := dot_S32768x160_S160x384_S32768x384_1_0_0_1_n_n_wf
def dot_S32768x160_S160x128_S32768x128_1_0_0_1_n_n : DotDims S32768x160 S160x128 S32768x128 where
  lhsContracting := [1]
  rhsContracting := [0]
  lhsNonContracting := [0]
  rhsNonContracting := [1]
  lhsBatch := []
  rhsBatch := []
  wf := dot_S32768x160_S160x128_S32768x128_1_0_0_1_n_n_wf
def dot_S32768x128_S128x256_S32768x256_1_0_0_1_n_n : DotDims S32768x128 S128x256 S32768x256 where
  lhsContracting := [1]
  rhsContracting := [0]
  lhsNonContracting := [0]
  rhsNonContracting := [1]
  lhsBatch := []
  rhsBatch := []
  wf := dot_S32768x128_S128x256_S32768x256_1_0_0_1_n_n_wf

class Facts : Prop extends Facts₀ where

variable [Facts]
-- ==== Proof.Spec.lean ====
/-
  The mathematics both programs compute, one batch row at a time, over the extended reals.

  A row's inputs are the scalar x, the two hidden states h1 and h2, the features m and four auxiliary vectors a1 … a4.
  The input projection io = [x, m, a1]·I_wᵀ + I_b is a sum of three dot products (the 57 columns of I_w split 1 + 24 + 32);
  a GRU cell takes the two 384-wide gate pre-activations gi and gh (reset, update and candidate gates in thirds) and the old
  state h to  (1 − z)·c + z·h  with  r = σ(gi_r + gh_r),  z = σ(gi_z + gh_z),  c = tanh(gi_c + r·gh_c);
  the first cell runs on io and h1, its result plus io (a residual) joined with a2 feeds the second cell on h2, and
  the sum of the residual and the second cell's result goes through two ReLU layers (joined with a3 and a4) and a last
  dense layer to the 256 logits. Every dense layer over a joined input is written here as the SUM of the dot products
  over the parts, which is what the blocked program evaluates; that it equals the dot product over the joined vector is
  the splitting of a finite sum in a commutative monoid (no finiteness of the entries is needed).
-/
import Idealize.ShloMosaic.PureOps.Ideal
import Idealize.ShloMosaic.Lib.ValueIdx

noncomputable section

open scoped BigOperators

namespace Cert.GruSpec

open Idealize.ShloMosaic Idealize.ShloMosaic.ValueIdx

/-- The float word of 1.0 and of 0.0, read at the extended reals. -/
abbrev one : EReal := Ideal.ofBits .f32 0x3F800000#32
abbrev zero : EReal := Ideal.ofBits .f32 0x00000000#32

/-- A dot product over `K` entries. -/
def dot {K : ℕ} (x w : Fin K → EReal) : EReal := ∑ k, x k * w k

/-- A dense layer with bias, one output unit at a time. -/
def lin {K N : ℕ} (x : Fin K → EReal) (W : Fin N → Fin K → EReal) (b : Fin N → EReal) (j : Fin N) : EReal :=
  dot x (W j) + b j

/-- A dense layer over an input given in two parts. -/
def lin2 {K L N : ℕ} (x : Fin K → EReal) (y : Fin L → EReal) (W : Fin N → Fin K → EReal) (U : Fin N → Fin L → EReal)
    (b : Fin N → EReal) (j : Fin N) : EReal :=
  dot x (W j) + dot y (U j) + b j

/-- The three thirds of a 384-wide gate vector. -/
def lo (n : Fin 128) : Fin 384 := ⟨n.val, by omega⟩
def mid (n : Fin 128) : Fin 384 := ⟨128 + n.val, by omega⟩
def hi (n : Fin 128) : Fin 384 := ⟨256 + n.val, by omega⟩

/-- The GRU cell on its gate pre-activations. -/
def cell (gi gh : Fin 384 → EReal) (h : Fin 128 → EReal) (n : Fin 128) : EReal :=
  (one - Ideal.logistic (gi (mid n) + gh (mid n)))
      * Ideal.tanh (gi (hi n) + Ideal.logistic (gi (lo n) + gh (lo n)) * gh (hi n))
    + Ideal.logistic (gi (mid n) + gh (mid n)) * h n

/-- Row `p` of a two-axis array, a matrix as rows of entries, a one-axis array as a function. -/
def row {R K : ℕ} (v : (⟨2, ![R, K]⟩ : Shape).Idx → EReal) (p : Fin R) : Fin K → EReal := fun k => v (ix2 p k)
def mat {N K : ℕ} (w : (⟨2, ![N, K]⟩ : Shape).Idx → EReal) : Fin N → Fin K → EReal := fun n k => w (ix2 n k)
def vec {N : ℕ} (b : (⟨1, ![N]⟩ : Shape).Idx → EReal) : Fin N → EReal := fun n => b (ix1 n)

/-- Columns `o … o + K − 1` of a matrix with `C` columns. -/
def cols {N C : ℕ} (K o : ℕ) (h : o + K ≤ C) (w : (⟨2, ![N, C]⟩ : Shape).Idx → EReal) : Fin N → Fin K → EReal :=
  fun n k => w (ix2 n ⟨o + k.val, by omega⟩)

/-- One batch row's inputs. -/
structure Row where
  x : Fin 1 → EReal
  h1 : Fin 128 → EReal
  h2 : Fin 128 → EReal
  m : Fin 24 → EReal
  a1 : Fin 32 → EReal
  a2 : Fin 32 → EReal
  a3 : Fin 32 → EReal
  a4 : Fin 32 → EReal

/-- The parameters, each matrix by output unit then input entry, the matrices over joined inputs already in parts. -/
structure Wts where
  Ix : Fin 128 → Fin 1 → EReal
  Im : Fin 128 → Fin 24 → EReal
  Ia : Fin 128 → Fin 32 → EReal
  Ib : Fin 128 → EReal
  r1i : Fin 384 → Fin 128 → EReal
  r1h : Fin 384 → Fin 128 → EReal
  r1bi : Fin 384 → EReal
  r1bh : Fin 384 → EReal
  r2i : Fin 384 → Fin 128 → EReal
  r2a : Fin 384 → Fin 32 → EReal
  r2h : Fin 384 → Fin 128 → EReal
  r2bi : Fin 384 → EReal
  r2bh : Fin 384 → EReal
  f1 : Fin 128 → Fin 128 → EReal
  f1a : Fin 128 → Fin 32 → EReal
  f1b : Fin 128 → EReal
  f2 : Fin 128 → Fin 128 → EReal
  f2a : Fin 128 → Fin 32 → EReal
  f2b : Fin 128 → EReal
  f3 : Fin 256 → Fin 128 → EReal
  f3b : Fin 256 → EReal

/-- The input projection. -/
def io (R : Row) (W : Wts) (n : Fin 128) : EReal := dot R.x (W.Ix n) + dot R.m (W.Im n) + dot R.a1 (W.Ia n) + W.Ib n
/-- The first cell's new state. -/
def h1p (R : Row) (W : Wts) : Fin 128 → EReal :=
  cell (lin (io R W) W.r1i W.r1bi) (lin R.h1 W.r1h W.r1bh) R.h1
/-- The residual input of the second cell. -/
def g2 (R : Row) (W : Wts) (n : Fin 128) : EReal := h1p R W n + io R W n
/-- The second cell's new state. -/
def h2p (R : Row) (W : Wts) : Fin 128 → EReal :=
  cell (lin2 (g2 R W) R.a2 W.r2i W.r2a W.r2bi) (lin R.h2 W.r2h W.r2bh) R.h2
/-- The input of the first ReLU layer. -/
def add1 (R : Row) (W : Wts) (n : Fin 128) : EReal := g2 R W n + h2p R W n
def relu1 (R : Row) (W : Wts) (n : Fin 128) : EReal := max (lin2 (add1 R W) R.a3 W.f1 W.f1a W.f1b n) zero
def relu2 (R : Row) (W : Wts) (n : Fin 128) : EReal := max (lin2 (relu1 R W) R.a4 W.f2 W.f2a W.f2b n) zero
/-- The logits. -/
def logits (R : Row) (W : Wts) : Fin 256 → EReal := lin (relu2 R W) W.f3 W.f3b

/-- Row `p` of the eight batch arrays (of any number `B` of rows: the whole batch, or one block of it). -/
def rowOf {B : ℕ} (x : (⟨2, ![B, 1]⟩ : Shape).Idx → EReal) (h1 h2 : (⟨2, ![B, 128]⟩ : Shape).Idx → EReal)
    (m : (⟨2, ![B, 24]⟩ : Shape).Idx → EReal) (a1 a2 a3 a4 : (⟨2, ![B, 32]⟩ : Shape).Idx → EReal) (p : Fin B) : Row :=
  ⟨row x p, row h1 p, row h2 p, row m p, row a1 p, row a2 p, row a3 p, row a4 p⟩

/-- The parameters from the sixteen parameter arrays: I_w's 57 columns are x's one, m's 24 and a1's 32; r2_wih's, fc1_w's
    and fc2_w's 160 columns are the 128 of the computed part and the 32 of the auxiliary vector. -/
def wtsOf (Iw : (⟨2, ![128, 57]⟩ : Shape).Idx → EReal) (Ib : (⟨1, ![128]⟩ : Shape).Idx → EReal)
    (r1i r1h : (⟨2, ![384, 128]⟩ : Shape).Idx → EReal) (r1bi r1bh : (⟨1, ![384]⟩ : Shape).Idx → EReal)
    (r2i : (⟨2, ![384, 160]⟩ : Shape).Idx → EReal) (r2h : (⟨2, ![384, 128]⟩ : Shape).Idx → EReal)
    (r2bi r2bh : (⟨1, ![384]⟩ : Shape).Idx → EReal)
    (f1 : (⟨2, ![128, 160]⟩ : Shape).Idx → EReal) (f1b : (⟨1, ![128]⟩ : Shape).Idx → EReal)
    (f2 : (⟨2, ![128, 160]⟩ : Shape).Idx → EReal) (f2b : (⟨1, ![128]⟩ : Shape).Idx → EReal)
    (f3 : (⟨2, ![256, 128]⟩ : Shape).Idx → EReal) (f3b : (⟨1, ![256]⟩ : Shape).Idx → EReal) : Wts :=
  ⟨cols 1 0 (by omega) Iw, cols 24 1 (by omega) Iw, cols 32 25 (by omega) Iw, vec Ib,
   mat r1i, mat r1h, vec r1bi, vec r1bh,
   cols 128 0 (by omega) r2i, cols 32 128 (by omega) r2i, mat r2h, vec r2bi, vec r2bh,
   cols 128 0 (by omega) f1, cols 32 128 (by omega) f1, vec f1b,
   cols 128 0 (by omega) f2, cols 32 128 (by omega) f2, vec f2b,
   mat f3, vec f3b⟩

/-- The parameters from the arrays the blocked program is handed: the joined matrices already cut into their parts. -/
def wtsCut (Ix : (⟨2, ![128, 1]⟩ : Shape).Idx → EReal) (Im : (⟨2, ![128, 24]⟩ : Shape).Idx → EReal)
    (Ia : (⟨2, ![128, 32]⟩ : Shape).Idx → EReal) (Ib : (⟨1, ![128]⟩ : Shape).Idx → EReal)
    (r1i r1h : (⟨2, ![384, 128]⟩ : Shape).Idx → EReal) (r1bi r1bh : (⟨1, ![384]⟩ : Shape).Idx → EReal)
    (r2i : (⟨2, ![384, 128]⟩ : Shape).Idx → EReal) (r2a : (⟨2, ![384, 32]⟩ : Shape).Idx → EReal)
    (r2h : (⟨2, ![384, 128]⟩ : Shape).Idx → EReal) (r2bi r2bh : (⟨1, ![384]⟩ : Shape).Idx → EReal)
    (f1 : (⟨2, ![128, 128]⟩ : Shape).Idx → EReal) (f1a : (⟨2, ![128, 32]⟩ : Shape).Idx → EReal) (f1b : (⟨1, ![128]⟩ : Shape).Idx → EReal)
    (f2 : (⟨2, ![128, 128]⟩ : Shape).Idx → EReal) (f2a : (⟨2, ![128, 32]⟩ : Shape).Idx → EReal) (f2b : (⟨1, ![128]⟩ : Shape).Idx → EReal)
    (f3 : (⟨2, ![256, 128]⟩ : Shape).Idx → EReal) (f3b : (⟨1, ![256]⟩ : Shape).Idx → EReal) : Wts :=
  ⟨mat Ix, mat Im, mat Ia, vec Ib, mat r1i, mat r1h, vec r1bi, vec r1bh, mat r2i, mat r2a, mat r2h, vec r2bi, vec r2bh,
   mat f1, mat f1a, vec f1b, mat f2, mat f2a, vec f2b, mat f3, vec f3b⟩

/-- The word of 1.0 is the real 1. -/
theorem one_eq : one = 1 := by
  show Ideal.ofBits .f32 0x3F800000#32 = 1
  simp [Ideal.ofBits, Ideal.ieee, -EReal.coe_mul]; norm_num

/-- The logistic function spelt as a quotient, as the unblocked program evaluates it. -/
theorem logistic_eq (x : EReal) : Ideal.div one (one + Ideal.exp (-x)) = Ideal.logistic x := by
  rw [one_eq]; rfl

/-- A sum over `a + b` entries is the sum over the first `a` plus the sum over the last `b`. -/
theorem dot_split {a b : ℕ} (x w : Fin (a + b) → EReal) :
    dot x w = dot (fun k : Fin a => x (Fin.castAdd b k)) (fun k => w (Fin.castAdd b k))
      + dot (fun k : Fin b => x (Fin.natAdd a k)) (fun k => w (Fin.natAdd a k)) := by
  unfold dot
  exact Fin.sum_univ_add _

/-- The dot product over 160 joined entries is the dot product over the first 128 plus the one over the last 32. -/
theorem dot_cut2 (x w : Fin 160 → EReal) :
    dot x w = dot (fun k : Fin 128 => x ⟨0 + k.val, by omega⟩) (fun k : Fin 128 => w ⟨0 + k.val, by omega⟩)
      + dot (fun k : Fin 32 => x ⟨128 + k.val, by omega⟩) (fun k : Fin 32 => w ⟨128 + k.val, by omega⟩) := by
  refine (dot_split (a := 128) (b := 32) x w).trans ?_
  refine congrArg₂ (· + ·) ?_ rfl
  unfold dot
  exact Finset.sum_congr rfl fun k _ => by
    have e : (Fin.castAdd 32 k : Fin (128 + 32)) = ⟨0 + k.val, by omega⟩ := Fin.ext (by simp)
    dsimp only
    rw [e]

/-- The dot product over 57 joined entries is the sum of those over the first one, the next 24 and the last 32. -/
theorem dot_cut3 (x w : Fin 57 → EReal) :
    dot x w = dot (fun k : Fin 1 => x ⟨0 + k.val, by omega⟩) (fun k : Fin 1 => w ⟨0 + k.val, by omega⟩)
      + dot (fun k : Fin 24 => x ⟨1 + k.val, by omega⟩) (fun k : Fin 24 => w ⟨1 + k.val, by omega⟩)
      + dot (fun k : Fin 32 => x ⟨25 + k.val, by omega⟩) (fun k : Fin 32 => w ⟨25 + k.val, by omega⟩) := by
  refine (dot_split (a := 25) (b := 32) x w).trans ?_
  refine congrArg₂ (· + ·) ?_ rfl
  refine (dot_split (a := 1) (b := 24) _ _).trans ?_
  refine congrArg₂ (· + ·) ?_ rfl
  unfold dot
  exact Finset.sum_congr rfl fun k _ => by
    have e : (Fin.castAdd 32 (Fin.castAdd 24 k) : Fin (25 + 32)) = ⟨0 + k.val, by omega⟩ := Fin.ext (by simp)
    dsimp only
    rw [e]

end Cert.GruSpec

end
-- ==== Proof.MatMul.lean ====
/-
  The blocked program multiplies a block of batch rows by a TRANSPOSED parameter matrix into a zero accumulator.
  Read at one entry (p, q) that product is the dot product of row p of the block with row q of the (untransposed)
  parameter matrix: the contraction runs over the one shared axis, and the transpose swaps the matrix's two coordinates.
  One lemma per pair of sizes the program uses.
-/
import proofs.«138707_j25177098289494_1_alg».proof.Proof.Gen.KernelIdeal
import proofs.«138707_j25177098289494_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.MatMul

open Cert.KernelIdeal Cert.GruSpec Idealize.ShloMosaic Idealize.ShloMosaic.ValueIdx

/-- Axis 0 of the left operand's index is the output's row coordinate. -/
private theorem lhs_1_128_0 (i : S1024x128.Idx) (q : dot_S1024x1_S1x128_S1024x128_1_0_0_1_n_n.contr.Idx) :
    (dot_S1024x1_S1x128_S1024x128_1_0_0_1_n_n.lhsIdx i q 0).val = (i 0).val := by
  unfold DotDims.lhsIdx
  rw [dif_neg (show ¬(0 : Fin S1024x1.rank) ∈ dot_S1024x1_S1x128_S1024x128_1_0_0_1_n_n.lhsBatch by decide), dif_pos (show (0 : Fin S1024x1.rank) ∈ dot_S1024x1_S1x128_S1024x128_1_0_0_1_n_n.lhsNonContracting by decide)]
  rfl
/-- Axis 1 of the left operand's index is the contraction coordinate. -/
private theorem lhs_1_128_1 (i : S1024x128.Idx) (q : dot_S1024x1_S1x128_S1024x128_1_0_0_1_n_n.contr.Idx) :
    (dot_S1024x1_S1x128_S1024x128_1_0_0_1_n_n.lhsIdx i q 1).val = (q ⟨0, by decide⟩).val :=
  dot_S1024x1_S1x128_S1024x128_1_0_0_1_n_n.lhsIdx_val_of_single rfl i q
/-- Axis 0 of the right operand's index is the contraction coordinate. -/
private theorem rhs_1_128_0 (i : S1024x128.Idx) (q : dot_S1024x1_S1x128_S1024x128_1_0_0_1_n_n.contr.Idx) :
    (dot_S1024x1_S1x128_S1024x128_1_0_0_1_n_n.rhsIdx i q 0).val = (q ⟨0, by decide⟩).val :=
  dot_S1024x1_S1x128_S1024x128_1_0_0_1_n_n.rhsIdx_val_of_single rfl i q
/-- Axis 1 of the right operand's index is the output's column coordinate. -/
private theorem rhs_1_128_1 (i : S1024x128.Idx) (q : dot_S1024x1_S1x128_S1024x128_1_0_0_1_n_n.contr.Idx) :
    (dot_S1024x1_S1x128_S1024x128_1_0_0_1_n_n.rhsIdx i q 1).val = (i 1).val := by
  unfold DotDims.rhsIdx
  rw [dif_neg (show ¬(1 : Fin S1x128.rank) ∈ dot_S1024x1_S1x128_S1024x128_1_0_0_1_n_n.rhsBatch by decide), dif_pos (show (1 : Fin S1x128.rank) ∈ dot_S1024x1_S1x128_S1024x128_1_0_0_1_n_n.rhsNonContracting by decide)]
  rfl

/-- A [1024, 1] block times the transpose of a [128, 1] matrix, at entry (p, q). -/
theorem mm_1_128 {φ₁ φ₂ : FTy} (a : FVec Ideal S1024x1 φ₁) (w : FVec Ideal S128x1 φ₂) (h : S128x1.Transposes [1, 0] S1x128)
    (p : Fin 1024) (q : Fin 128) :
    matmul dot_S1024x1_S1x128_S1024x128_1_0_0_1_n_n none a (transpose S1x128 [1, 0] w h) (constant S1024x128 .f32 0x00000000#32) (ix2 p q)
      = dot (row a p) (mat w q) := by
  -- The product into the zero accumulator is the sum over the contraction index; re-index that sum by Fin 1.
  show FloatOps.matmul _ _ _ _ _ _ = _
  rw [Ideal.matmul_constant_zero_apply, ← Equiv.sum_comp (contrEquiv1 dot_S1024x1_S1x128_S1024x128_1_0_0_1_n_n 1 rfl rfl).symm]
  unfold dot
  refine Finset.sum_congr rfl fun k _ => ?_
  have hk := contrEquiv1_symm_val dot_S1024x1_S1x128_S1024x128_1_0_0_1_n_n 1 rfl rfl k
  -- The left operand is read at (p, k), the right (transposed) operand at (k, q).
  have el : dot_S1024x1_S1x128_S1024x128_1_0_0_1_n_n.lhsIdx (ix2 p q) ((contrEquiv1 dot_S1024x1_S1x128_S1024x128_1_0_0_1_n_n 1 rfl rfl).symm k) = ix2 p k := funext fun b => Fin.ext (by
    match b with
    | ⟨0, _⟩ => exact lhs_1_128_0 _ _
    | ⟨1, _⟩ => exact (lhs_1_128_1 _ _).trans hk)
  have er : dot_S1024x1_S1x128_S1024x128_1_0_0_1_n_n.rhsIdx (ix2 p q) ((contrEquiv1 dot_S1024x1_S1x128_S1024x128_1_0_0_1_n_n 1 rfl rfl).symm k) = ix2 k q := funext fun b => Fin.ext (by
    match b with
    | ⟨0, _⟩ => exact (rhs_1_128_0 _ _).trans hk
    | ⟨1, _⟩ => exact rhs_1_128_1 _ _)
  -- The transpose swaps the matrix's two coordinates.
  rw [el, er, transpose_ix2_apply]
  rfl

/-- Axis 0 of the left operand's index is the output's row coordinate. -/
private theorem lhs_24_128_0 (i : S1024x128.Idx) (q : dot_S1024x24_S24x128_S1024x128_1_0_0_1_n_n.contr.Idx) :
    (dot_S1024x24_S24x128_S1024x128_1_0_0_1_n_n.lhsIdx i q 0).val = (i 0).val := by
  unfold DotDims.lhsIdx
  rw [dif_neg (show ¬(0 : Fin S1024x24.rank) ∈ dot_S1024x24_S24x128_S1024x128_1_0_0_1_n_n.lhsBatch by decide), dif_pos (show (0 : Fin S1024x24.rank) ∈ dot_S1024x24_S24x128_S1024x128_1_0_0_1_n_n.lhsNonContracting by decide)]
  rfl
/-- Axis 1 of the left operand's index is the contraction coordinate. -/
private theorem lhs_24_128_1 (i : S1024x128.Idx) (q : dot_S1024x24_S24x128_S1024x128_1_0_0_1_n_n.contr.Idx) :
    (dot_S1024x24_S24x128_S1024x128_1_0_0_1_n_n.lhsIdx i q 1).val = (q ⟨0, by decide⟩).val :=
  dot_S1024x24_S24x128_S1024x128_1_0_0_1_n_n.lhsIdx_val_of_single rfl i q
/-- Axis 0 of the right operand's index is the contraction coordinate. -/
private theorem rhs_24_128_0 (i : S1024x128.Idx) (q : dot_S1024x24_S24x128_S1024x128_1_0_0_1_n_n.contr.Idx) :
    (dot_S1024x24_S24x128_S1024x128_1_0_0_1_n_n.rhsIdx i q 0).val = (q ⟨0, by decide⟩).val :=
  dot_S1024x24_S24x128_S1024x128_1_0_0_1_n_n.rhsIdx_val_of_single rfl i q
/-- Axis 1 of the right operand's index is the output's column coordinate. -/
private theorem rhs_24_128_1 (i : S1024x128.Idx) (q : dot_S1024x24_S24x128_S1024x128_1_0_0_1_n_n.contr.Idx) :
    (dot_S1024x24_S24x128_S1024x128_1_0_0_1_n_n.rhsIdx i q 1).val = (i 1).val := by
  unfold DotDims.rhsIdx
  rw [dif_neg (show ¬(1 : Fin S24x128.rank) ∈ dot_S1024x24_S24x128_S1024x128_1_0_0_1_n_n.rhsBatch by decide), dif_pos (show (1 : Fin S24x128.rank) ∈ dot_S1024x24_S24x128_S1024x128_1_0_0_1_n_n.rhsNonContracting by decide)]
  rfl

/-- A [1024, 24] block times the transpose of a [128, 24] matrix, at entry (p, q). -/
theorem mm_24_128 {φ₁ φ₂ : FTy} (a : FVec Ideal S1024x24 φ₁) (w : FVec Ideal S128x24 φ₂) (h : S128x24.Transposes [1, 0] S24x128)
    (p : Fin 1024) (q : Fin 128) :
    matmul dot_S1024x24_S24x128_S1024x128_1_0_0_1_n_n none a (transpose S24x128 [1, 0] w h) (constant S1024x128 .f32 0x00000000#32) (ix2 p q)
      = dot (row a p) (mat w q) := by
  -- The product into the zero accumulator is the sum over the contraction index; re-index that sum by Fin 24.
  show FloatOps.matmul _ _ _ _ _ _ = _
  rw [Ideal.matmul_constant_zero_apply, ← Equiv.sum_comp (contrEquiv1 dot_S1024x24_S24x128_S1024x128_1_0_0_1_n_n 24 rfl rfl).symm]
  unfold dot
  refine Finset.sum_congr rfl fun k _ => ?_
  have hk := contrEquiv1_symm_val dot_S1024x24_S24x128_S1024x128_1_0_0_1_n_n 24 rfl rfl k
  -- The left operand is read at (p, k), the right (transposed) operand at (k, q).
  have el : dot_S1024x24_S24x128_S1024x128_1_0_0_1_n_n.lhsIdx (ix2 p q) ((contrEquiv1 dot_S1024x24_S24x128_S1024x128_1_0_0_1_n_n 24 rfl rfl).symm k) = ix2 p k := funext fun b => Fin.ext (by
    match b with
    | ⟨0, _⟩ => exact lhs_24_128_0 _ _
    | ⟨1, _⟩ => exact (lhs_24_128_1 _ _).trans hk)
  have er : dot_S1024x24_S24x128_S1024x128_1_0_0_1_n_n.rhsIdx (ix2 p q) ((contrEquiv1 dot_S1024x24_S24x128_S1024x128_1_0_0_1_n_n 24 rfl rfl).symm k) = ix2 k q := funext fun b => Fin.ext (by
    match b with
    | ⟨0, _⟩ => exact (rhs_24_128_0 _ _).trans hk
    | ⟨1, _⟩ => exact rhs_24_128_1 _ _)
  -- The transpose swaps the matrix's two coordinates.
  rw [el, er, transpose_ix2_apply]
  rfl

/-- Axis 0 of the left operand's index is the output's row coordinate. -/
private theorem lhs_32_128_0 (i : S1024x128.Idx) (q : dot_S1024x32_S32x128_S1024x128_1_0_0_1_n_n.contr.Idx) :
    (dot_S1024x32_S32x128_S1024x128_1_0_0_1_n_n.lhsIdx i q 0).val = (i 0).val := by
  unfold DotDims.lhsIdx
  rw [dif_neg (show ¬(0 : Fin S1024x32.rank) ∈ dot_S1024x32_S32x128_S1024x128_1_0_0_1_n_n.lhsBatch by decide), dif_pos (show (0 : Fin S1024x32.rank) ∈ dot_S1024x32_S32x128_S1024x128_1_0_0_1_n_n.lhsNonContracting by decide)]
  rfl
/-- Axis 1 of the left operand's index is the contraction coordinate. -/
private theorem lhs_32_128_1 (i : S1024x128.Idx) (q : dot_S1024x32_S32x128_S1024x128_1_0_0_1_n_n.contr.Idx) :
    (dot_S1024x32_S32x128_S1024x128_1_0_0_1_n_n.lhsIdx i q 1).val = (q ⟨0, by decide⟩).val :=
  dot_S1024x32_S32x128_S1024x128_1_0_0_1_n_n.lhsIdx_val_of_single rfl i q
/-- Axis 0 of the right operand's index is the contraction coordinate. -/
private theorem rhs_32_128_0 (i : S1024x128.Idx) (q : dot_S1024x32_S32x128_S1024x128_1_0_0_1_n_n.contr.Idx) :
    (dot_S1024x32_S32x128_S1024x128_1_0_0_1_n_n.rhsIdx i q 0).val = (q ⟨0, by decide⟩).val :=
  dot_S1024x32_S32x128_S1024x128_1_0_0_1_n_n.rhsIdx_val_of_single rfl i q
/-- Axis 1 of the right operand's index is the output's column coordinate. -/
private theorem rhs_32_128_1 (i : S1024x128.Idx) (q : dot_S1024x32_S32x128_S1024x128_1_0_0_1_n_n.contr.Idx) :
    (dot_S1024x32_S32x128_S1024x128_1_0_0_1_n_n.rhsIdx i q 1).val = (i 1).val := by
  unfold DotDims.rhsIdx
  rw [dif_neg (show ¬(1 : Fin S32x128.rank) ∈ dot_S1024x32_S32x128_S1024x128_1_0_0_1_n_n.rhsBatch by decide), dif_pos (show (1 : Fin S32x128.rank) ∈ dot_S1024x32_S32x128_S1024x128_1_0_0_1_n_n.rhsNonContracting by decide)]
  rfl

/-- A [1024, 32] block times the transpose of a [128, 32] matrix, at entry (p, q). -/
theorem mm_32_128 {φ₁ φ₂ : FTy} (a : FVec Ideal S1024x32 φ₁) (w : FVec Ideal S128x32 φ₂) (h : S128x32.Transposes [1, 0] S32x128)
    (p : Fin 1024) (q : Fin 128) :
    matmul dot_S1024x32_S32x128_S1024x128_1_0_0_1_n_n none a (transpose S32x128 [1, 0] w h) (constant S1024x128 .f32 0x00000000#32) (ix2 p q)
      = dot (row a p) (mat w q) := by
  -- The product into the zero accumulator is the sum over the contraction index; re-index that sum by Fin 32.
  show FloatOps.matmul _ _ _ _ _ _ = _
  rw [Ideal.matmul_constant_zero_apply, ← Equiv.sum_comp (contrEquiv1 dot_S1024x32_S32x128_S1024x128_1_0_0_1_n_n 32 rfl rfl).symm]
  unfold dot
  refine Finset.sum_congr rfl fun k _ => ?_
  have hk := contrEquiv1_symm_val dot_S1024x32_S32x128_S1024x128_1_0_0_1_n_n 32 rfl rfl k
  -- The left operand is read at (p, k), the right (transposed) operand at (k, q).
  have el : dot_S1024x32_S32x128_S1024x128_1_0_0_1_n_n.lhsIdx (ix2 p q) ((contrEquiv1 dot_S1024x32_S32x128_S1024x128_1_0_0_1_n_n 32 rfl rfl).symm k) = ix2 p k := funext fun b => Fin.ext (by
    match b with
    | ⟨0, _⟩ => exact lhs_32_128_0 _ _
    | ⟨1, _⟩ => exact (lhs_32_128_1 _ _).trans hk)
  have er : dot_S1024x32_S32x128_S1024x128_1_0_0_1_n_n.rhsIdx (ix2 p q) ((contrEquiv1 dot_S1024x32_S32x128_S1024x128_1_0_0_1_n_n 32 rfl rfl).symm k) = ix2 k q := funext fun b => Fin.ext (by
    match b with
    | ⟨0, _⟩ => exact (rhs_32_128_0 _ _).trans hk
    | ⟨1, _⟩ => exact rhs_32_128_1 _ _)
  -- The transpose swaps the matrix's two coordinates.
  rw [el, er, transpose_ix2_apply]
  rfl

/-- Axis 0 of the left operand's index is the output's row coordinate. -/
private theorem lhs_128_384_0 (i : S1024x384.Idx) (q : dot_S1024x128_S128x384_S1024x384_1_0_0_1_n_n.contr.Idx) :
    (dot_S1024x128_S128x384_S1024x384_1_0_0_1_n_n.lhsIdx i q 0).val = (i 0).val := by
  unfold DotDims.lhsIdx
  rw [dif_neg (show ¬(0 : Fin S1024x128.rank) ∈ dot_S1024x128_S128x384_S1024x384_1_0_0_1_n_n.lhsBatch by decide), dif_pos (show (0 : Fin S1024x128.rank) ∈ dot_S1024x128_S128x384_S1024x384_1_0_0_1_n_n.lhsNonContracting by decide)]
  rfl
/-- Axis 1 of the left operand's index is the contraction coordinate. -/
private theorem lhs_128_384_1 (i : S1024x384.Idx) (q : dot_S1024x128_S128x384_S1024x384_1_0_0_1_n_n.contr.Idx) :
    (dot_S1024x128_S128x384_S1024x384_1_0_0_1_n_n.lhsIdx i q 1).val = (q ⟨0, by decide⟩).val :=
  dot_S1024x128_S128x384_S1024x384_1_0_0_1_n_n.lhsIdx_val_of_single rfl i q
/-- Axis 0 of the right operand's index is the contraction coordinate. -/
private theorem rhs_128_384_0 (i : S1024x384.Idx) (q : dot_S1024x128_S128x384_S1024x384_1_0_0_1_n_n.contr.Idx) :
    (dot_S1024x128_S128x384_S1024x384_1_0_0_1_n_n.rhsIdx i q 0).val = (q ⟨0, by decide⟩).val :=
  dot_S1024x128_S128x384_S1024x384_1_0_0_1_n_n.rhsIdx_val_of_single rfl i q
/-- Axis 1 of the right operand's index is the output's column coordinate. -/
private theorem rhs_128_384_1 (i : S1024x384.Idx) (q : dot_S1024x128_S128x384_S1024x384_1_0_0_1_n_n.contr.Idx) :
    (dot_S1024x128_S128x384_S1024x384_1_0_0_1_n_n.rhsIdx i q 1).val = (i 1).val := by
  unfold DotDims.rhsIdx
  rw [dif_neg (show ¬(1 : Fin S128x384.rank) ∈ dot_S1024x128_S128x384_S1024x384_1_0_0_1_n_n.rhsBatch by decide), dif_pos (show (1 : Fin S128x384.rank) ∈ dot_S1024x128_S128x384_S1024x384_1_0_0_1_n_n.rhsNonContracting by decide)]
  rfl

/-- A [1024, 128] block times the transpose of a [384, 128] matrix, at entry (p, q). -/
theorem mm_128_384 {φ₁ φ₂ : FTy} (a : FVec Ideal S1024x128 φ₁) (w : FVec Ideal S384x128 φ₂) (h : S384x128.Transposes [1, 0] S128x384)
    (p : Fin 1024) (q : Fin 384) :
    matmul dot_S1024x128_S128x384_S1024x384_1_0_0_1_n_n none a (transpose S128x384 [1, 0] w h) (constant S1024x384 .f32 0x00000000#32) (ix2 p q)
      = dot (row a p) (mat w q) := by
  -- The product into the zero accumulator is the sum over the contraction index; re-index that sum by Fin 128.
  show FloatOps.matmul _ _ _ _ _ _ = _
  rw [Ideal.matmul_constant_zero_apply, ← Equiv.sum_comp (contrEquiv1 dot_S1024x128_S128x384_S1024x384_1_0_0_1_n_n 128 rfl rfl).symm]
  unfold dot
  refine Finset.sum_congr rfl fun k _ => ?_
  have hk := contrEquiv1_symm_val dot_S1024x128_S128x384_S1024x384_1_0_0_1_n_n 128 rfl rfl k
  -- The left operand is read at (p, k), the right (transposed) operand at (k, q).
  have el : dot_S1024x128_S128x384_S1024x384_1_0_0_1_n_n.lhsIdx (ix2 p q) ((contrEquiv1 dot_S1024x128_S128x384_S1024x384_1_0_0_1_n_n 128 rfl rfl).symm k) = ix2 p k := funext fun b => Fin.ext (by
    match b with
    | ⟨0, _⟩ => exact lhs_128_384_0 _ _
    | ⟨1, _⟩ => exact (lhs_128_384_1 _ _).trans hk)
  have er : dot_S1024x128_S128x384_S1024x384_1_0_0_1_n_n.rhsIdx (ix2 p q) ((contrEquiv1 dot_S1024x128_S128x384_S1024x384_1_0_0_1_n_n 128 rfl rfl).symm k) = ix2 k q := funext fun b => Fin.ext (by
    match b with
    | ⟨0, _⟩ => exact (rhs_128_384_0 _ _).trans hk
    | ⟨1, _⟩ => exact rhs_128_384_1 _ _)
  -- The transpose swaps the matrix's two coordinates.
  rw [el, er, transpose_ix2_apply]
  rfl

/-- Axis 0 of the left operand's index is the output's row coordinate. -/
private theorem lhs_32_384_0 (i : S1024x384.Idx) (q : dot_S1024x32_S32x384_S1024x384_1_0_0_1_n_n.contr.Idx) :
    (dot_S1024x32_S32x384_S1024x384_1_0_0_1_n_n.lhsIdx i q 0).val = (i 0).val := by
  unfold DotDims.lhsIdx
  rw [dif_neg (show ¬(0 : Fin S1024x32.rank) ∈ dot_S1024x32_S32x384_S1024x384_1_0_0_1_n_n.lhsBatch by decide), dif_pos (show (0 : Fin S1024x32.rank) ∈ dot_S1024x32_S32x384_S1024x384_1_0_0_1_n_n.lhsNonContracting by decide)]
  rfl
/-- Axis 1 of the left operand's index is the contraction coordinate. -/
private theorem lhs_32_384_1 (i : S1024x384.Idx) (q : dot_S1024x32_S32x384_S1024x384_1_0_0_1_n_n.contr.Idx) :
    (dot_S1024x32_S32x384_S1024x384_1_0_0_1_n_n.lhsIdx i q 1).val = (q ⟨0, by decide⟩).val :=
  dot_S1024x32_S32x384_S1024x384_1_0_0_1_n_n.lhsIdx_val_of_single rfl i q
/-- Axis 0 of the right operand's index is the contraction coordinate. -/
private theorem rhs_32_384_0 (i : S1024x384.Idx) (q : dot_S1024x32_S32x384_S1024x384_1_0_0_1_n_n.contr.Idx) :
    (dot_S1024x32_S32x384_S1024x384_1_0_0_1_n_n.rhsIdx i q 0).val = (q ⟨0, by decide⟩).val :=
  dot_S1024x32_S32x384_S1024x384_1_0_0_1_n_n.rhsIdx_val_of_single rfl i q
/-- Axis 1 of the right operand's index is the output's column coordinate. -/
private theorem rhs_32_384_1 (i : S1024x384.Idx) (q : dot_S1024x32_S32x384_S1024x384_1_0_0_1_n_n.contr.Idx) :
    (dot_S1024x32_S32x384_S1024x384_1_0_0_1_n_n.rhsIdx i q 1).val = (i 1).val := by
  unfold DotDims.rhsIdx
  rw [dif_neg (show ¬(1 : Fin S32x384.rank) ∈ dot_S1024x32_S32x384_S1024x384_1_0_0_1_n_n.rhsBatch by decide), dif_pos (show (1 : Fin S32x384.rank) ∈ dot_S1024x32_S32x384_S1024x384_1_0_0_1_n_n.rhsNonContracting by decide)]
  rfl

/-- A [1024, 32] block times the transpose of a [384, 32] matrix, at entry (p, q). -/
theorem mm_32_384 {φ₁ φ₂ : FTy} (a : FVec Ideal S1024x32 φ₁) (w : FVec Ideal S384x32 φ₂) (h : S384x32.Transposes [1, 0] S32x384)
    (p : Fin 1024) (q : Fin 384) :
    matmul dot_S1024x32_S32x384_S1024x384_1_0_0_1_n_n none a (transpose S32x384 [1, 0] w h) (constant S1024x384 .f32 0x00000000#32) (ix2 p q)
      = dot (row a p) (mat w q) := by
  -- The product into the zero accumulator is the sum over the contraction index; re-index that sum by Fin 32.
  show FloatOps.matmul _ _ _ _ _ _ = _
  rw [Ideal.matmul_constant_zero_apply, ← Equiv.sum_comp (contrEquiv1 dot_S1024x32_S32x384_S1024x384_1_0_0_1_n_n 32 rfl rfl).symm]
  unfold dot
  refine Finset.sum_congr rfl fun k _ => ?_
  have hk := contrEquiv1_symm_val dot_S1024x32_S32x384_S1024x384_1_0_0_1_n_n 32 rfl rfl k
  -- The left operand is read at (p, k), the right (transposed) operand at (k, q).
  have el : dot_S1024x32_S32x384_S1024x384_1_0_0_1_n_n.lhsIdx (ix2 p q) ((contrEquiv1 dot_S1024x32_S32x384_S1024x384_1_0_0_1_n_n 32 rfl rfl).symm k) = ix2 p k := funext fun b => Fin.ext (by
    match b with
    | ⟨0, _⟩ => exact lhs_32_384_0 _ _
    | ⟨1, _⟩ => exact (lhs_32_384_1 _ _).trans hk)
  have er : dot_S1024x32_S32x384_S1024x384_1_0_0_1_n_n.rhsIdx (ix2 p q) ((contrEquiv1 dot_S1024x32_S32x384_S1024x384_1_0_0_1_n_n 32 rfl rfl).symm k) = ix2 k q := funext fun b => Fin.ext (by
    match b with
    | ⟨0, _⟩ => exact (rhs_32_384_0 _ _).trans hk
    | ⟨1, _⟩ => exact rhs_32_384_1 _ _)
  -- The transpose swaps the matrix's two coordinates.
  rw [el, er, transpose_ix2_apply]
  rfl

/-- Axis 0 of the left operand's index is the output's row coordinate. -/
private theorem lhs_128_128_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- Axis 1 of the left operand's index is the contraction coordinate. -/
private theorem lhs_128_128_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- Axis 0 of the right operand's index is the contraction coordinate. -/
private theorem rhs_128_128_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- Axis 1 of the right operand's index is the output's column coordinate. -/
private theorem rhs_128_128_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- A [1024, 128] block times the transpose of a [128, 128] matrix, at entry (p, q). -/
theorem mm_128_128 {φ₁ φ₂ : FTy} (a : FVec Ideal S1024x128 φ₁) (w : FVec Ideal S128x128 φ₂) (h : S128x128.Transposes [1, 0] S128x128)
    (p : Fin 1024) (q : Fin 128) :
    matmul dot_S1024x128_S128x128_S1024x128_1_0_0_1_n_n none a (transpose S128x128 [1, 0] w h) (constant S1024x128 .f32 0x00000000#32) (ix2 p q)
      = dot (row a p) (mat w q) := by
  -- The product into the zero accumulator is the sum over the contraction index; re-index that sum by Fin 128.
  show FloatOps.matmul _ _ _ _ _ _ = _
  rw [Ideal.matmul_constant_zero_apply, ← Equiv.sum_comp (contrEquiv1 dot_S1024x128_S128x128_S1024x128_1_0_0_1_n_n 128 rfl rfl).symm]
  unfold dot
  refine Finset.sum_congr rfl fun k _ => ?_
  have hk := contrEquiv1_symm_val dot_S1024x128_S128x128_S1024x128_1_0_0_1_n_n 128 rfl rfl k
  -- The left operand is read at (p, k), the right (transposed) operand at (k, q).
  have el : dot_S1024x128_S128x128_S1024x128_1_0_0_1_n_n.lhsIdx (ix2 p q) ((contrEquiv1 dot_S1024x128_S128x128_S1024x128_1_0_0_1_n_n 128 rfl rfl).symm k) = ix2 p k := funext fun b => Fin.ext (by
    match b with
    | ⟨0, _⟩ => exact lhs_128_128_0 _ _
    | ⟨1, _⟩ => exact (lhs_128_128_1 _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun b => Fin.ext (by
    match b with
    | ⟨0, _⟩ => exact (rhs_128_128_0 _ _).trans hk
    | ⟨1, _⟩ => exact rhs_128_128_1 _ _)
  -- The transpose swaps the matrix's two coordinates.
  rw [el, er, transpose_ix2_apply]
  rfl

/-- Axis 0 of the left operand's index is the output's row coordinate. -/
private theorem lhs_128_256_0 (i : S1024x256.Idx) (q : dot_S1024x128_S128x256_S1024x256_1_0_0_1_n_n.contr.Idx) :
    (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
/-- Axis 1 of the left operand's index is the contraction coordinate. -/
private theorem lhs_128_256_1 (i : S1024x256.Idx) (q : dot_S1024x128_S128x256_S1024x256_1_0_0_1_n_n.contr.Idx) :
    (dot_S1024x128_S128x256_S1024x256_1_0_0_1_n_n.lhsIdx i q 1).val = (q ⟨0, by decide⟩).val :=
  dot_S1024x128_S128x256_S1024x256_1_0_0_1_n_n.lhsIdx_val_of_single rfl i q
/-- Axis 0 of the right operand's index is the contraction coordinate. -/
private theorem rhs_128_256_0 (i : S1024x256.Idx) (q : dot_S1024x128_S128x256_S1024x256_1_0_0_1_n_n.contr.Idx) :
    (dot_S1024x128_S128x256_S1024x256_1_0_0_1_n_n.rhsIdx i q 0).val = (q ⟨0, by decide⟩).val :=
  dot_S1024x128_S128x256_S1024x256_1_0_0_1_n_n.rhsIdx_val_of_single rfl i q
/-- Axis 1 of the right operand's index is the output's column coordinate. -/
private theorem rhs_128_256_1 (i : S1024x256.Idx) (q : dot_S1024x128_S128x256_S1024x256_1_0_0_1_n_n.contr.Idx) :
    (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl

/-- A [1024, 128] block times the transpose of a [256, 128] matrix, at entry (p, q). -/
theorem mm_128_256 {φ₁ φ₂ : FTy} (a : FVec Ideal S1024x128 φ₁) (w : FVec Ideal S256x128 φ₂) (h : S256x128.Transposes [1, 0] S128x256)
    (p : Fin 1024) (q : Fin 256) :
    matmul dot_S1024x128_S128x256_S1024x256_1_0_0_1_n_n none a (transpose S128x256 [1, 0] w h) (constant S1024x256 .f32 0x00000000#32) (ix2 p q)
      = dot (row a p) (mat w q) := by
  -- The product into the zero accumulator is the sum over the contraction index; re-index that sum by Fin 128.
  show FloatOps.matmul _ _ _ _ _ _ = _
  rw [Ideal.matmul_constant_zero_apply, ← Equiv.sum_comp (contrEquiv1 dot_S1024x128_S128x256_S1024x256_1_0_0_1_n_n 128 rfl rfl).symm]
  unfold dot
  refine Finset.sum_congr rfl fun k _ => ?_
  have hk := contrEquiv1_symm_val dot_S1024x128_S128x256_S1024x256_1_0_0_1_n_n 128 rfl rfl k
  -- The left operand is read at (p, k), the right (transposed) operand at (k, q).
  have el : dot_S1024x128_S128x256_S1024x256_1_0_0_1_n_n.lhsIdx (ix2 p q) ((contrEquiv1 dot_S1024x128_S128x256_S1024x256_1_0_0_1_n_n 128 rfl rfl).symm k) = ix2 p k := funext fun b => Fin.ext (by
    match b with
    | ⟨0, _⟩ => exact lhs_128_256_0 _ _
    | ⟨1, _⟩ => exact (lhs_128_256_1 _ _).trans hk)
  have er : dot_S1024x128_S128x256_S1024x256_1_0_0_1_n_n.rhsIdx (ix2 p q) ((contrEquiv1 dot_S1024x128_S128x256_S1024x256_1_0_0_1_n_n 128 rfl rfl).symm k) = ix2 k q := funext fun b => Fin.ext (by
    match b with
    | ⟨0, _⟩ => exact (rhs_128_256_0 _ _).trans hk
    | ⟨1, _⟩ => exact rhs_128_256_1 _ _)
  -- The transpose swaps the matrix's two coordinates.
  rw [el, er, transpose_ix2_apply]
  rfl

end Cert.KernelIdeal.MatMul

end
-- ==== Proof.KPay.lean ====
/-
  The body's named values read at one entry. Every value of the body is a function of the row of the block it
  sits in: a product with a transposed parameter matrix is a dot product of that row (MatMul), a bias is added to
  every row, the three gates are the thirds of the 384-wide pre-activations, and the rest is entrywise. The
  lemmas below read each named value at entry (p, q) as the row mathematics of Spec applied to row p.
-/
import proofs.«138707_j25177098289494_1_alg».proof.Proof.Gen.KernelIdeal.Skeleton
import proofs.«138707_j25177098289494_1_alg».proof.Proof.MatMul
import Idealize.ShloMosaic.Lib.ValueIdx
import Idealize.ShloMosaic.Lib.ValueLayout
import Idealize.ShloMosaic.Lib.Pipeline.Value

noncomputable section

open scoped BigOperators

namespace Cert.KernelIdeal.KPay

open Cert.KernelIdeal Cert.KernelIdeal.Gen Cert.KernelIdeal.MatMul Cert.GruSpec Idealize.ShloMosaic Idealize.ShloMosaic.ValueIdx

/-- A bias row spread over every row of a block, read at one entry. -/
private theorem bias_apply {R N : ℕ} (b : (⟨1, ![N]⟩ : Shape).Idx → EReal)
    (h1 : (⟨1, ![N]⟩ : Shape).ShapeCasts ⟨2, ![1, N]⟩) (h2 : (⟨2, ![1, N]⟩ : Shape).Broadcasts ⟨2, ![R, N]⟩)
    (p : Fin R) (q : Fin N) :
    broadcastTo ⟨2, ![R, N]⟩ (shapeCast ⟨2, ![1, N]⟩ b h1) h2 (ix2 p q) = vec b q :=
  (broadcastTo_1b_ab_apply _ h2 p q).trans (shapeCast_a_1a_apply b h1 0 q)

/-- The three thirds of a 384-wide block, read at one entry. -/
private theorem slice_lo (v : FVec Ideal S1024x384 .f32) (h : S1024x384.Slices ![0, 0] S1024x128) (p : Fin 1024) (q : Fin 128) :
    extractStridedSlice S1024x128 ![0, 0] v h (ix2 p q) = v (ix2 p (lo q)) :=
  slice2_axis1_apply 0 v h p q (lo q) (Nat.zero_add _).symm

private theorem slice_mid (v : FVec Ideal S1024x384 .f32) (h : S1024x384.Slices ![0, 128] S1024x128) (p : Fin 1024) (q : Fin 128) :
    extractStridedSlice S1024x128 ![0, 128] v h (ix2 p q) = v (ix2 p (mid q)) :=
  slice2_axis1_apply 128 v h p q (mid q) rfl

private theorem slice_hi (v : FVec Ideal S1024x384 .f32) (h : S1024x384.Slices ![0, 256] S1024x128) (p : Fin 1024) (q : Fin 128) :
    extractStridedSlice S1024x128 ![0, 256] v h (ix2 p q) = v (ix2 p (hi q)) :=
  slice2_axis1_apply 256 v h p q (hi q) rfl

/-- The 384-wide gate pre-activations of row p: a dense layer with bias on the row. -/
private theorem gates_apply (a : FVec Ideal S1024x128 .f32) (w : FVec Ideal S384x128 .f32) (b : FVec Ideal S384 .f32)
    (p : Fin 1024) (j : Fin 384) :
    addf (matmul dot_S1024x128_S128x384_S1024x384_1_0_0_1_n_n none (truncf .bf16 a bitsLt_bf16_f32)
        (transpose S128x384 [1, 0] (truncf .bf16 w bitsLt_bf16_f32) transposes_S384x128_p1_0_S128x384)
        (constant S1024x384 .f32 0x00000000#32))
      (broadcastTo S1024x384 (shapeCast S1x384 b shapeCasts_S384_S1x384) broadcasts_S1x384_S1024x384) (ix2 p j)
      = lin (row a p) (mat w) (vec b) j :=
  congrArg₂ (· + ·) (mm_128_384 _ _ _ p j) (bias_apply b _ _ p j)

/-- The cell's entrywise part on two 384-wide blocks whose rows p are known. -/
private theorem cell_apply (gi gh : FVec Ideal S1024x384 .f32) (h : FVec Ideal S1024x128 .f32) (Gi Gh : Fin 384 → EReal)
    (p : Fin 1024) (hgi : ∀ j, gi (ix2 p j) = Gi j) (hgh : ∀ j, gh (ix2 p j) = Gh j) (q : Fin 128) :
    addf (mulf (subf (broadcast S1024x128 (Scalar.ofBits .f32 0x3F800000#32))
            (logistic (addf (extractStridedSlice S1024x128 ![0, 128] gi slices_S1024x384_o0_128_S1024x128)
              (extractStridedSlice S1024x128 ![0, 128] gh slices_S1024x384_o0_128_S1024x128))))
          (tanh (addf (extractStridedSlice S1024x128 ![0, 256] gi slices_S1024x384_o0_256_S1024x128)
            (mulf (logistic (addf (extractStridedSlice S1024x128 ![0, 0] gi slices_S1024x384_o0_0_S1024x128)
                (extractStridedSlice S1024x128 ![0, 0] gh slices_S1024x384_o0_0_S1024x128)))
              (extractStridedSlice S1024x128 ![0, 256] gh slices_S1024x384_o0_256_S1024x128)))))
        (mulf (logistic (addf (extractStridedSlice S1024x128 ![0, 128] gi slices_S1024x384_o0_128_S1024x128)
              (extractStridedSlice S1024x128 ![0, 128] gh slices_S1024x384_o0_128_S1024x128))) h) (ix2 p q)
      = cell Gi Gh (row h p) q := by
  show (one - Ideal.logistic (extractStridedSlice S1024x128 ![0, 128] gi slices_S1024x384_o0_128_S1024x128 (ix2 p q)
            + extractStridedSlice S1024x128 ![0, 128] gh slices_S1024x384_o0_128_S1024x128 (ix2 p q)))
        * Ideal.tanh (extractStridedSlice S1024x128 ![0, 256] gi slices_S1024x384_o0_256_S1024x128 (ix2 p q)
            + Ideal.logistic (extractStridedSlice S1024x128 ![0, 0] gi slices_S1024x384_o0_0_S1024x128 (ix2 p q)
                + extractStridedSlice S1024x128 ![0, 0] gh slices_S1024x384_o0_0_S1024x128 (ix2 p q))
              * extractStridedSlice S1024x128 ![0, 256] gh slices_S1024x384_o0_256_S1024x128 (ix2 p q))
      + Ideal.logistic (extractStridedSlice S1024x128 ![0, 128] gi slices_S1024x384_o0_128_S1024x128 (ix2 p q)
            + extractStridedSlice S1024x128 ![0, 128] gh slices_S1024x384_o0_128_S1024x128 (ix2 p q)) * h (ix2 p q)
      = cell Gi Gh (row h p) q
  rw [slice_lo, slice_lo, slice_mid, slice_mid, slice_hi, slice_hi, hgi, hgi, hgi, hgh, hgh, hgh]
  rfl

/-- The input projection of row p. -/
theorem pay1_apply (x : FVec Ideal S1024x1 .f32) (m : FVec Ideal S1024x24 .f32) (a : FVec Ideal S1024x32 .f32)
    (wx : FVec Ideal S128x1 .f32) (wm : FVec Ideal S128x24 .f32) (wa : FVec Ideal S128x32 .f32) (b : FVec Ideal S128 .f32)
    (p : Fin 1024) (q : Fin 128) :
    k0_pay1 (F := Ideal) x m a wx wm wa b (ix2 p q)
      = dot (row x p) (mat wx q) + dot (row m p) (mat wm q) + dot (row a p) (mat wa q) + vec b q := by
  unfold k0_pay1
  rw [shapeCast_self, shapeCast_self, shapeCast_self]
  refine congrArg₂ (· + ·) (congrArg₂ (· + ·) (congrArg₂ (· + ·) ?_ ?_) ?_) ?_
  · exact mm_1_128 _ _ _ p q
  · exact mm_24_128 _ _ _ p q
  · exact mm_32_128 _ _ _ p q
  · exact bias_apply b _ _ p q

/-- The first cell's new state of row p, from the row's input projection `io` and old state `h`. -/
theorem pay2_apply (h io : FVec Ideal S1024x128 .f32) (wi : FVec Ideal S384x128 .f32) (bi : FVec Ideal S384 .f32) (wh : FVec Ideal S384x128 .f32) (bh : FVec Ideal S384 .f32)
    (p : Fin 1024) (q : Fin 128) :
    k0_pay2 (F := Ideal) h io wi bi wh bh (ix2 p q)
      = cell (lin (row io p) (mat wi) (vec bi)) (lin (row h p) (mat wh) (vec bh)) (row h p) q := by
  unfold k0_pay2
  exact cell_apply _ _ h _ _ p (gates_apply io wi bi p) (gates_apply h wh bh p) q

/-- The residual: the new state plus the input projection. -/
theorem pay3_apply (h io : FVec Ideal S1024x128 .f32) (wi : FVec Ideal S384x128 .f32) (bi : FVec Ideal S384 .f32) (wh : FVec Ideal S384x128 .f32) (bh : FVec Ideal S384 .f32)
    (p : Fin 1024) (q : Fin 128) :
    k0_pay3 (F := Ideal) h io wi bi wh bh (ix2 p q)
      = cell (lin (row io p) (mat wi) (vec bi)) (lin (row h p) (mat wh) (vec bh)) (row h p) q + io (ix2 p q) := by
  unfold k0_pay3
  exact congrArg (· + io (ix2 p q)) (pay2_apply h io wi bi wh bh p q)

/-- The residual's part of the second cell's input gates. -/
theorem pay4_apply (h io : FVec Ideal S1024x128 .f32) (wi : FVec Ideal S384x128 .f32) (bi : FVec Ideal S384 .f32) (wh : FVec Ideal S384x128 .f32) (bh : FVec Ideal S384 .f32)
    (w2 : FVec Ideal S384x128 .f32) (p : Fin 1024) (j : Fin 384) :
    k0_pay4 (F := Ideal) h io wi bi wh bh w2 (ix2 p j)
      = dot (fun k => cell (lin (row io p) (mat wi) (vec bi)) (lin (row h p) (mat wh) (vec bh)) (row h p) k + io (ix2 p k)) (mat w2 j) := by
  unfold k0_pay4
  rw [shapeCast_self]
  refine (mm_128_384 _ _ _ p j).trans ?_
  refine congrArg (fun r => dot r (mat w2 j)) (funext fun k => ?_)
  exact pay3_apply h io wi bi wh bh p k

/-- A change of float format is the identity on the extended reals. -/
theorem pay5_apply (a : FVec Ideal S1024x32 .f32) (i : S1024x32.Idx) : k0_pay5 (F := Ideal) a i = a i :=
  rfl

theorem pay6_apply (w : FVec Ideal S384x32 .f32) (i : S384x32.Idx) : k0_pay6 (F := Ideal) w i = w i := by
  unfold k0_pay6
  rw [shapeCast_self]
  rfl

/-- The first ReLU layer's product over the auxiliary part of its input. -/
theorem pay9_apply (a : FVec Ideal S1024x32 .f32) (w : FVec Ideal S128x32 .f32) (p : Fin 1024) (q : Fin 128) :
    k0_pay9 (F := Ideal) a w (ix2 p q) = dot (row a p) (mat w q) := by
  unfold k0_pay9
  rw [shapeCast_self]
  exact mm_32_128 _ _ _ p q

end Cert.KernelIdeal.KPay

end
-- ==== Proof.KPayB.lean ====
/-
  The body's named values of the second cell and of the three last layers, read at one entry (the companion of KPay).
-/
import proofs.«138707_j25177098289494_1_alg».proof.Proof.Gen.KernelIdeal.Skeleton
import proofs.«138707_j25177098289494_1_alg».proof.Proof.MatMul
import Idealize.ShloMosaic.Lib.ValueIdx
import Idealize.ShloMosaic.Lib.ValueLayout
import Idealize.ShloMosaic.Lib.Pipeline.Value

noncomputable section

open scoped BigOperators

namespace Cert.KernelIdeal.KPayB

open Cert.KernelIdeal Cert.KernelIdeal.Gen Cert.KernelIdeal.MatMul Cert.GruSpec Idealize.ShloMosaic Idealize.ShloMosaic.ValueIdx

/-- A bias vector cast to one row and broadcast over all rows reads, at (p, q), its entry q. -/
private theorem bias_apply {a b : ℕ} (v : (⟨1, ![b]⟩ : Shape).Idx → EReal)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ v h1) h2 (ix2 p q) = vec v q :=
  (broadcastTo_1b_ab_apply _ h2 p q).trans (shapeCast_a_1a_apply v h1 0 q)

/-- The three thirds of a 384-wide array, read at (p, q). -/
private theorem third0_apply (X : FVec Ideal S1024x384 .f32) (p : Fin 1024) (q : Fin 128) :
    extractStridedSlice S1024x128 ![0, 0] X slices_S1024x384_o0_0_S1024x128 (ix2 p q) = X (ix2 p (lo q)) :=
  slice2_axis1_apply 0 X _ p q (lo q) (Nat.zero_add _).symm

private theorem third1_apply (X : FVec Ideal S1024x384 .f32) (p : Fin 1024) (q : Fin 128) :
    extractStridedSlice S1024x128 ![0, 128] X slices_S1024x384_o0_128_S1024x128 (ix2 p q) = X (ix2 p (mid q)) :=
  slice2_axis1_apply 128 X _ p q (mid q) rfl

private theorem third2_apply (X : FVec Ideal S1024x384 .f32) (p : Fin 1024) (q : Fin 128) :
    extractStridedSlice S1024x128 ![0, 256] X slices_S1024x384_o0_256_S1024x128 (ix2 p q) = X (ix2 p (hi q)) :=
  slice2_axis1_apply 256 X _ p q (hi q) rfl

/-- The entrywise part of a cell: from the two 384-wide gate arrays, whose row p is `gi` and `gh`, and the old state. -/
private theorem cell_apply (X Y : FVec Ideal S1024x384 .f32) (h : FVec Ideal S1024x128 .f32) (gi gh : Fin 384 → EReal)
    (p : Fin 1024) (q : Fin 128) (hX : ∀ j, X (ix2 p j) = gi j) (hY : ∀ j, Y (ix2 p j) = gh j) :
    addf
      (mulf
        (subf (broadcast S1024x128 (Scalar.ofBits (F := Ideal) .f32 0x3F800000#32))
          (logistic (addf (extractStridedSlice S1024x128 ![0, 128] X slices_S1024x384_o0_128_S1024x128)
            (extractStridedSlice S1024x128 ![0, 128] Y slices_S1024x384_o0_128_S1024x128))))
        (tanh (addf (extractStridedSlice S1024x128 ![0, 256] X slices_S1024x384_o0_256_S1024x128)
          (mulf
            (logistic (addf (extractStridedSlice S1024x128 ![0, 0] X slices_S1024x384_o0_0_S1024x128)
              (extractStridedSlice S1024x128 ![0, 0] Y slices_S1024x384_o0_0_S1024x128)))
            (extractStridedSlice S1024x128 ![0, 256] Y slices_S1024x384_o0_256_S1024x128)))))
      (mulf
        (logistic (addf (extractStridedSlice S1024x128 ![0, 128] X slices_S1024x384_o0_128_S1024x128)
          (extractStridedSlice S1024x128 ![0, 128] Y slices_S1024x384_o0_128_S1024x128)))
        h)
      (ix2 p q)
      = cell gi gh (row h p) q := by
  have e1 : extractStridedSlice S1024x128 ![0, 128] X slices_S1024x384_o0_128_S1024x128 (ix2 p q)
      + extractStridedSlice S1024x128 ![0, 128] Y slices_S1024x384_o0_128_S1024x128 (ix2 p q) = gi (mid q) + gh (mid q) :=
    congrArg₂ (· + ·) ((third1_apply X p q).trans (hX _)) ((third1_apply Y p q).trans (hY _))
  have e0 : extractStridedSlice S1024x128 ![0, 0] X slices_S1024x384_o0_0_S1024x128 (ix2 p q)
      + extractStridedSlice S1024x128 ![0, 0] Y slices_S1024x384_o0_0_S1024x128 (ix2 p q) = gi (lo q) + gh (lo q) :=
    congrArg₂ (· + ·) ((third0_apply X p q).trans (hX _)) ((third0_apply Y p q).trans (hY _))
  have e2X : extractStridedSlice S1024x128 ![0, 256] X slices_S1024x384_o0_256_S1024x128 (ix2 p q) = gi (hi q) :=
    (third2_apply X p q).trans (hX _)
  have e2Y : extractStridedSlice S1024x128 ![0, 256] Y slices_S1024x384_o0_256_S1024x128 (ix2 p q) = gh (hi q) :=
    (third2_apply Y p q).trans (hY _)
  show (one - Ideal.logistic (extractStridedSlice S1024x128 ![0, 128] X slices_S1024x384_o0_128_S1024x128 (ix2 p q)
          + extractStridedSlice S1024x128 ![0, 128] Y slices_S1024x384_o0_128_S1024x128 (ix2 p q)))
        * Ideal.tanh (extractStridedSlice S1024x128 ![0, 256] X slices_S1024x384_o0_256_S1024x128 (ix2 p q)
          + Ideal.logistic (extractStridedSlice S1024x128 ![0, 0] X slices_S1024x384_o0_0_S1024x128 (ix2 p q)
              + extractStridedSlice S1024x128 ![0, 0] Y slices_S1024x384_o0_0_S1024x128 (ix2 p q))
            * extractStridedSlice S1024x128 ![0, 256] Y slices_S1024x384_o0_256_S1024x128 (ix2 p q))
      + Ideal.logistic (extractStridedSlice S1024x128 ![0, 128] X slices_S1024x384_o0_128_S1024x128 (ix2 p q)
          + extractStridedSlice S1024x128 ![0, 128] Y slices_S1024x384_o0_128_S1024x128 (ix2 p q)) * h (ix2 p q) = _
  rw [e1, e0, e2X, e2Y]
  rfl

/-- The second cell's input gates of row p. -/
private theorem gi_apply (g : FVec Ideal S1024x384 .f32) (a : FVec Ideal S1024x32 .bf16) (wa : FVec Ideal S384x32 .bf16)
    (bi : FVec Ideal S384 .f32) (p : Fin 1024) (j : Fin 384) :
    addf
      (addf g
        (matmul dot_S1024x32_S32x384_S1024x384_1_0_0_1_n_n none a
          (transpose S32x384 [1, 0] wa transposes_S384x32_p1_0_S32x384) (constant S1024x384 .f32 0x00000000#32)))
      (broadcastTo S1024x384 (shapeCast S1x384 bi shapeCasts_S384_S1x384) broadcasts_S1x384_S1024x384) (ix2 p j)
      = g (ix2 p j) + dot (row a p) (mat wa j) + vec bi j :=
  congrArg₂ (· + ·) (congrArg₂ (· + ·) rfl (mm_32_384 a wa _ p j)) (bias_apply bi _ _ p j)

/-- The second cell's hidden gates of row p. -/
private theorem gh_apply (h : FVec Ideal S1024x128 .f32) (wh : FVec Ideal S384x128 .f32) (bh : FVec Ideal S384 .f32)
    (p : Fin 1024) (j : Fin 384) :
    addf
      (matmul dot_S1024x128_S128x384_S1024x384_1_0_0_1_n_n none (truncf .bf16 h bitsLt_bf16_f32)
        (transpose S128x384 [1, 0] (truncf .bf16 wh bitsLt_bf16_f32) transposes_S384x128_p1_0_S128x384)
        (constant S1024x384 .f32 0x00000000#32))
      (broadcastTo S1024x384 (shapeCast S1x384 bh shapeCasts_S384_S1x384) broadcasts_S1x384_S1024x384) (ix2 p j)
      = lin (row h p) (mat wh) (vec bh) j :=
  congrArg₂ (· + ·) (mm_128_384 (truncf .bf16 h bitsLt_bf16_f32) (truncf .bf16 wh bitsLt_bf16_f32) _ p j) (bias_apply bh _ _ p j)

/-- The second cell's new state of row p: `g` is the residual's part of the input gates, `a` the auxiliary vector. -/
theorem pay7_apply (h : FVec Ideal S1024x128 .f32) (g : FVec Ideal S1024x384 .f32) (a : FVec Ideal S1024x32 .bf16) (wa : FVec Ideal S384x32 .bf16)
    (bi : FVec Ideal S384 .f32) (wh : FVec Ideal S384x128 .f32) (bh : FVec Ideal S384 .f32) (p : Fin 1024) (q : Fin 128) :
    k0_pay7 (F := Ideal) h g a wa bi wh bh (ix2 p q)
      = cell (fun j => g (ix2 p j) + dot (row a p) (mat wa j) + vec bi j) (lin (row h p) (mat wh) (vec bh)) (row h p) q :=
  cell_apply _ _ h _ _ p q (gi_apply g a wa bi p) (gh_apply h wh bh p)

/-- The first ReLU layer's product over the residual-plus-new-state part of its input. -/
theorem pay8_apply (h g2 : FVec Ideal S1024x128 .f32) (g : FVec Ideal S1024x384 .f32) (a : FVec Ideal S1024x32 .bf16) (wa : FVec Ideal S384x32 .bf16)
    (bi : FVec Ideal S384 .f32) (wh : FVec Ideal S384x128 .f32) (bh : FVec Ideal S384 .f32) (f1 : FVec Ideal S128x128 .f32) (p : Fin 1024) (q : Fin 128) :
    k0_pay8 (F := Ideal) h g2 g a wa bi wh bh f1 (ix2 p q)
      = dot (fun k => g2 (ix2 p k)
          + cell (fun j => g (ix2 p j) + dot (row a p) (mat wa j) + vec bi j) (lin (row h p) (mat wh) (vec bh)) (row h p) k) (mat f1 q) := by
  refine (mm_128_128 (truncf .bf16 (addf g2 (k0_pay7 (F := Ideal) h g a wa bi wh bh)) bitsLt_bf16_f32)
    (truncf .bf16 (shapeCast S128x128 f1 shapeCasts_S128x128_S128x128) bitsLt_bf16_f32) _ p q).trans ?_
  refine congrArg₂ dot (funext fun k => ?_) (funext fun k => ?_)
  · exact congrArg (g2 (ix2 p k) + ·) (pay7_apply h g a wa bi wh bh p k)
  · exact congrFun (shapeCast_self f1 _) (ix2 q k)

/-- The logits of row p from the two products `u`, `v` of the first ReLU layer. -/
theorem pay10_apply (a4 : FVec Ideal S1024x32 .f32) (u v : FVec Ideal S1024x128 .f32) (f1b : FVec Ideal S128 .f32) (f2 : FVec Ideal S128x128 .f32) (f2a : FVec Ideal S128x32 .f32)
    (f2b : FVec Ideal S128 .f32) (f3 : FVec Ideal S256x128 .f32) (f3b : FVec Ideal S256 .f32) (p : Fin 1024) (n : Fin 256) :
    k0_pay10 (F := Ideal) a4 u v f1b f2 f2a f2b f3 f3b (ix2 p n)
      = lin (fun k => max (lin2 (fun k' => max (u (ix2 p k') + v (ix2 p k') + vec f1b k') zero) (row a4 p)
            (mat f2) (mat f2a) (vec f2b) k) zero) (mat f3) (vec f3b) n := by
  -- the first ReLU layer's output at (p, k')
  have r1 : ∀ k' : Fin 128,
      maximumf (addf (addf u v) (broadcastTo S1024x128 (shapeCast S1x128 f1b shapeCasts_S128_S1x128) broadcasts_S1x128_S1024x128))
        (broadcast S1024x128 (Scalar.ofBits (F := Ideal) .f32 0x00000000#32)) (ix2 p k')
        = max (u (ix2 p k') + v (ix2 p k') + vec f1b k') zero := fun k' =>
    congrArg (max · zero) (congrArg (u (ix2 p k') + v (ix2 p k') + ·) (bias_apply f1b _ _ p k'))
  -- the second layer's product over the first layer's output, at (p, k)
  have m1 : ∀ k : Fin 128,
      matmul dot_S1024x128_S128x128_S1024x128_1_0_0_1_n_n none
        (truncf .bf16 (maximumf (addf (addf u v) (broadcastTo S1024x128 (shapeCast S1x128 f1b shapeCasts_S128_S1x128) broadcasts_S1x128_S1024x128))
          (broadcast S1024x128 (Scalar.ofBits (F := Ideal) .f32 0x00000000#32))) bitsLt_bf16_f32)
        (transpose S128x128 [1, 0] (truncf .bf16 (shapeCast S128x128 f2 shapeCasts_S128x128_S128x128) bitsLt_bf16_f32) transposes_S128x128_p1_0_S128x128)
        (constant S1024x128 .f32 0x00000000#32) (ix2 p k)
        = dot (fun k' => max (u (ix2 p k') + v (ix2 p k') + vec f1b k') zero) (mat f2 k) := fun k =>
    (mm_128_128 _ _ _ p k).trans
      (congrArg₂ dot (funext fun k' => r1 k') (funext fun k' => congrFun (shapeCast_self f2 _) (ix2 k k')))
  -- the second layer's product over the auxiliary vector, at (p, k)
  have m2 : ∀ k : Fin 128,
      matmul dot_S1024x32_S32x128_S1024x128_1_0_0_1_n_n none (truncf .bf16 a4 bitsLt_bf16_f32)
        (transpose S32x128 [1, 0] (truncf .bf16 (shapeCast S128x32 f2a shapeCasts_S128x32_S128x32) bitsLt_bf16_f32) transposes_S128x32_p1_0_S32x128)
        (constant S1024x128 .f32 0x00000000#32) (ix2 p k)
        = dot (row a4 p) (mat f2a k) := fun k =>
    (mm_32_128 _ _ _ p k).trans
      (congrArg (dot (row a4 p)) (funext fun k' => congrFun (shapeCast_self f2a _) (ix2 k k')))
  refine congrArg₂ (· + ·) ?_ (bias_apply f3b _ _ p n)
  refine (mm_128_256 _ _ _ p n).trans (congrArg (dot · (mat f3 n)) (funext fun k => ?_))
  exact congrArg (max · zero) (congrArg₂ (· + ·) (congrArg₂ (· + ·) (m1 k) (m2 k)) (bias_apply f2b _ _ p k))

end Cert.KernelIdeal.KPayB

end
-- ==== Proof.KWin.lean ====
/-
  What the body is handed at grid point t. The eight batch arrays are cut into 32 blocks of 1024 rows: row p of block t is
  row 1024·t + p of the array. The 21 parameter arrays are handed whole at every point; nine of them are column ranges of
  I_w, r2_wih, fc1_w and fc2_w cut out before the launch. So the row mathematics of Spec, applied to row p of the blocks and to
  the parameters as handed over, is the row mathematics applied to row 1024·t + p of the arguments and to the parameters as
  Spec cuts them from the arguments. The three results are written back in blocks of 1024 rows in the same way.
-/
import proofs.«138707_j25177098289494_1_alg».proof.Proof.KernelIdealFrameP
import proofs.«138707_j25177098289494_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KWin

open Cert.KernelIdeal Cert.KernelIdeal.Gen Cert.KernelIdeal.GenP Cert.GruSpec Idealize.ShloMosaic Idealize.ShloMosaic.TcCoe Idealize.SL.Sem Idealize.ShloMosaic.ValueIdx

variable (m : (ℓ : Loc nD τ sig) → Buf (Elt Ideal) ℓ)

/-- The block of input window w at point t, at its literal type. -/
abbrev b0 (c : Dev nD) (t : Fin cfg0.N) : FVec Ideal S1024x1 .f32 := iblk m c 0 t
abbrev b1 (c : Dev nD) (t : Fin cfg0.N) : FVec Ideal S1024x128 .f32 := iblk m c 1 t
abbrev b2 (c : Dev nD) (t : Fin cfg0.N) : FVec Ideal S1024x128 .f32 := iblk m c 2 t
abbrev b3 (c : Dev nD) (t : Fin cfg0.N) : FVec Ideal S1024x24 .f32 := iblk m c 3 t
abbrev b4 (c : Dev nD) (t : Fin cfg0.N) : FVec Ideal S1024x32 .f32 := iblk m c 4 t
abbrev b5 (c : Dev nD) (t : Fin cfg0.N) : FVec Ideal S1024x32 .f32 := iblk m c 5 t
abbrev b6 (c : Dev nD) (t : Fin cfg0.N) : FVec Ideal S1024x32 .f32 := iblk m c 6 t
abbrev b7 (c : Dev nD) (t : Fin cfg0.N) : FVec Ideal S1024x32 .f32 := iblk m c 7 t
abbrev b8 (c : Dev nD) (t : Fin cfg0.N) : FVec Ideal S128x1 .f32 := iblk m c 8 t
abbrev b9 (c : Dev nD) (t : Fin cfg0.N) : FVec Ideal S128x24 .f32 := iblk m c 9 t
abbrev b10 (c : Dev nD) (t : Fin cfg0.N) : FVec Ideal S128x32 .f32 := iblk m c 10 t
abbrev b11 (c : Dev nD) (t : Fin cfg0.N) : FVec Ideal S128 .f32 := iblk m c 11 t
abbrev b12 (c : Dev nD) (t : Fin cfg0.N) : FVec Ideal S384x128 .f32 := iblk m c 12 t
abbrev b13 (c : Dev nD) (t : Fin cfg0.N) : FVec Ideal S384x128 .f32 := iblk m c 13 t
abbrev b14 (c : Dev nD) (t : Fin cfg0.N) : FVec Ideal S384 .f32 := iblk m c 14 t
abbrev b15 (c : Dev nD) (t : Fin cfg0.N) : FVec Ideal S384 .f32 := iblk m c 15 t
abbrev b16 (c : Dev nD) (t : Fin cfg0.N) : FVec Ideal S384x128 .f32 := iblk m c 16 t
abbrev b17 (c : Dev nD) (t : Fin cfg0.N) : FVec Ideal S384x32 .f32 := iblk m c 17 t
abbrev b18 (c : Dev nD) (t : Fin cfg0.N) : FVec Ideal S384x128 .f32 := iblk m c 18 t
abbrev b19 (c : Dev nD) (t : Fin cfg0.N) : FVec Ideal S384 .f32 := iblk m c 19 t
abbrev b20 (c : Dev nD) (t : Fin cfg0.N) : FVec Ideal S384 .f32 := iblk m c 20 t
abbrev b21 (c : Dev nD) (t : Fin cfg0.N) : FVec Ideal S128x128 .f32 := iblk m c 21 t
abbrev b22 (c : Dev nD) (t : Fin cfg0.N) : FVec Ideal S128x32 .f32 := iblk m c 22 t
abbrev b23 (c : Dev nD) (t : Fin cfg0.N) : FVec Ideal S128 .f32 := iblk m c 23 t
abbrev b24 (c : Dev nD) (t : Fin cfg0.N) : FVec Ideal S128x128 .f32 := iblk m c 24 t
abbrev b25 (c : Dev nD) (t : Fin cfg0.N) : FVec Ideal S128x32 .f32 := iblk m c 25 t
abbrev b26 (c : Dev nD) (t : Fin cfg0.N) : FVec Ideal S128 .f32 := iblk m c 26 t
abbrev b27 (c : Dev nD) (t : Fin cfg0.N) : FVec Ideal S256x128 .f32 := iblk m c 27 t
abbrev b28 (c : Dev nD) (t : Fin cfg0.N) : FVec Ideal S256 .f32 := iblk m c 28 t

/-- The batch row that row p of block t is. -/
def brow (t : Fin cfg0.N) (p : Fin 1024) : Fin 32768 :=
  ⟨t.val * 1024 + p.val, by have h : t.val < 32 := t.isLt; have := p.isLt; omega⟩

/-! ## The block index of each window at each point

  The batch windows and the result windows have block index (t, 0) at point t; every parameter window has block index 0.
  Each is read off the index map at the 32 points of the grid. -/

private theorem idx0 : ∀ t : Fin cfg0.N, win0_0.index t (0 : Fin 2) = t.val ∧ win0_0.index t (1 : Fin 2) = 0 :=
  (by decide +kernel : ∀ t : Fin grid0.N, _)
private theorem idx1 : ∀ t : Fin cfg0.N, win0_1.index t (0 : Fin 2) = t.val ∧ win0_1.index t (1 : Fin 2) = 0 :=
  (by decide +kernel : ∀ t : Fin grid0.N, _)
private theorem idx2 : ∀ t : Fin cfg0.N, win0_2.index t (0 : Fin 2) = t.val ∧ win0_2.index t (1 : Fin 2) = 0 :=
  (by decide +kernel : ∀ t : Fin grid0.N, _)
private theorem idx3 : ∀ t : Fin cfg0.N, win0_3.index t (0 : Fin 2) = t.val ∧ win0_3.index t (1 : Fin 2) = 0 :=
  (by decide +kernel : ∀ t : Fin grid0.N, _)
private theorem idx4 : ∀ t : Fin cfg0.N, win0_4.index t (0 : Fin 2) = t.val ∧ win0_4.index t (1 : Fin 2) = 0 :=
  (by decide +kernel : ∀ t : Fin grid0.N, _)
private theorem idx5 : ∀ t : Fin cfg0.N, win0_5.index t (0 : Fin 2) = t.val ∧ win0_5.index t (1 : Fin 2) = 0 :=
  (by decide +kernel : ∀ t : Fin grid0.N, _)
private theorem idx6 : ∀ t : Fin cfg0.N, win0_6.index t (0 : Fin 2) = t.val ∧ win0_6.index t (1 : Fin 2) = 0 :=
  (by decide +kernel : ∀ t : Fin grid0.N, _)
private theorem idx7 : ∀ t : Fin cfg0.N, win0_7.index t (0 : Fin 2) = t.val ∧ win0_7.index t (1 : Fin 2) = 0 :=
  (by decide +kernel : ∀ t : Fin grid0.N, _)
private theorem idx29 : ∀ t : Fin cfg0.N, win0_29.index t (0 : Fin 2) = t.val ∧ win0_29.index t (1 : Fin 2) = 0 :=
  (by decide +kernel : ∀ t : Fin grid0.N, _)
private theorem idx30 : ∀ t : Fin cfg0.N, win0_30.index t (0 : Fin 2) = t.val ∧ win0_30.index t (1 : Fin 2) = 0 :=
  (by decide +kernel : ∀ t : Fin grid0.N, _)
private theorem idx31 : ∀ t : Fin cfg0.N, win0_31.index t (0 : Fin 2) = t.val ∧ win0_31.index t (1 : Fin 2) = 0 :=
  (by decide +kernel : ∀ t : Fin grid0.N, _)
private theorem idx8 : ∀ t : Fin cfg0.N, win0_8.index t (0 : Fin 2) = 0 ∧ win0_8.index t (1 : Fin 2) = 0 :=
  (by decide +kernel : ∀ t : Fin grid0.N, _)
private theorem idx9 : ∀ t : Fin cfg0.N, win0_9.index t (0 : Fin 2) = 0 ∧ win0_9.index t (1 : Fin 2) = 0 :=
  (by decide +kernel : ∀ t : Fin grid0.N, _)
private theorem idx10 : ∀ t : Fin cfg0.N, win0_10.index t (0 : Fin 2) = 0 ∧ win0_10.index t (1 : Fin 2) = 0 :=
  (by decide +kernel : ∀ t : Fin grid0.N, _)
private theorem idx12 : ∀ t : Fin cfg0.N, win0_12.index t (0 : Fin 2) = 0 ∧ win0_12.index t (1 : Fin 2) = 0 :=
  (by decide +kernel : ∀ t : Fin grid0.N, _)
private theorem idx13 : ∀ t : Fin cfg0.N, win0_13.index t (0 : Fin 2) = 0 ∧ win0_13.index t (1 : Fin 2) = 0 :=
  (by decide +kernel : ∀ t : Fin grid0.N, _)
private theorem idx16 : ∀ t : Fin cfg0.N, win0_16.index t (0 : Fin 2) = 0 ∧ win0_16.index t (1 : Fin 2) = 0 :=
  (by decide +kernel : ∀ t : Fin grid0.N, _)
private theorem idx17 : ∀ t : Fin cfg0.N, win0_17.index t (0 : Fin 2) = 0 ∧ win0_17.index t (1 : Fin 2) = 0 :=
  (by decide +kernel : ∀ t : Fin grid0.N, _)
private theorem idx18 : ∀ t : Fin cfg0.N, win0_18.index t (0 : Fin 2) = 0 ∧ win0_18.index t (1 : Fin 2) = 0 :=
  (by decide +kernel : ∀ t : Fin grid0.N, _)
private theorem idx21 : ∀ t : Fin cfg0.N, win0_21.index t (0 : Fin 2) = 0 ∧ win0_21.index t (1 : Fin 2) = 0 :=
  (by decide +kernel : ∀ t : Fin grid0.N, _)
private theorem idx22 : ∀ t : Fin cfg0.N, win0_22.index t (0 : Fin 2) = 0 ∧ win0_22.index t (1 : Fin 2) = 0 :=
  (by decide +kernel : ∀ t : Fin grid0.N, _)
private theorem idx24 : ∀ t : Fin cfg0.N, win0_24.index t (0 : Fin 2) = 0 ∧ win0_24.index t (1 : Fin 2) = 0 :=
  (by decide +kernel : ∀ t : Fin grid0.N, _)
private theorem idx25 : ∀ t : Fin cfg0.N, win0_25.index t (0 : Fin 2) = 0 ∧ win0_25.index t (1 : Fin 2) = 0 :=
  (by decide +kernel : ∀ t : Fin grid0.N, _)
private theorem idx27 : ∀ t : Fin cfg0.N, win0_27.index t (0 : Fin 2) = 0 ∧ win0_27.index t (1 : Fin 2) = 0 :=
  (by decide +kernel : ∀ t : Fin grid0.N, _)
private theorem idx11 : ∀ t : Fin cfg0.N, win0_11.index t (0 : Fin 1) = 0 :=
  (by decide +kernel : ∀ t : Fin grid0.N, _)
private theorem idx14 : ∀ t : Fin cfg0.N, win0_14.index t (0 : Fin 1) = 0 :=
  (by decide +kernel : ∀ t : Fin grid0.N, _)
private theorem idx15 : ∀ t : Fin cfg0.N, win0_15.index t (0 : Fin 1) = 0 :=
  (by decide +kernel : ∀ t : Fin grid0.N, _)
private theorem idx19 : ∀ t : Fin cfg0.N, win0_19.index t (0 : Fin 1) = 0 :=
  (by decide +kernel : ∀ t : Fin grid0.N, _)
private theorem idx20 : ∀ t : Fin cfg0.N, win0_20.index t (0 : Fin 1) = 0 :=
  (by decide +kernel : ∀ t : Fin grid0.N, _)
private theorem idx23 : ∀ t : Fin cfg0.N, win0_23.index t (0 : Fin 1) = 0 :=
  (by decide +kernel : ∀ t : Fin grid0.N, _)
private theorem idx26 : ∀ t : Fin cfg0.N, win0_26.index t (0 : Fin 1) = 0 :=
  (by decide +kernel : ∀ t : Fin grid0.N, _)
private theorem idx28 : ∀ t : Fin cfg0.N, win0_28.index t (0 : Fin 1) = 0 :=
  (by decide +kernel : ∀ t : Fin grid0.N, _)

/-! ## The batch blocks

  Entry (p, k) of block t lies at row t·1024 + 1·p and column 0·K + 1·k of the array. -/

private theorem row0 (c : Dev nD) (t : Fin cfg0.N) (p : Fin 1024) :
    row (R := 1024) (K := 1) (b0 m c t) p = row (R := 32768) (K := 1) (m ((c : Thread nD τ).loc main_arg0)) (brow t p) := by
  obtain ⟨e0, e1⟩ := idx0 t
  funext k
  show V m c main_arg0 (((cfg0.win 0).blk t).view.emb (ix2 p k)) = m ((c : Thread nD τ).loc main_arg0) (ix2 (brow t p) k)
  rw [V_main_arg0]
  refine congrArg _ ?_
  funext a; apply Fin.ext
  match a with
  | ⟨0, _⟩ => show win0_0.index t (0 : Fin 2) * 1024 + 1 * p.val = t.val * 1024 + p.val; omega
  | ⟨1, _⟩ => show win0_0.index t (1 : Fin 2) * 1 + 1 * k.val = k.val; omega

private theorem row1 (c : Dev nD) (t : Fin cfg0.N) (p : Fin 1024) :
    row (R := 1024) (K := 128) (b1 m c t) p = row (R := 32768) (K := 128) (m ((c : Thread nD τ).loc main_arg1)) (brow t p) := by
  obtain ⟨e0, e1⟩ := idx1 t
  funext k
  show V m c main_arg1 (((cfg0.win 1).blk t).view.emb (ix2 p k)) = m ((c : Thread nD τ).loc main_arg1) (ix2 (brow t p) k)
  rw [V_main_arg1]
  refine congrArg _ ?_
  funext a; apply Fin.ext
  match a with
  | ⟨0, _⟩ => show win0_1.index t (0 : Fin 2) * 1024 + 1 * p.val = t.val * 1024 + p.val; omega
  | ⟨1, _⟩ => show win0_1.index t (1 : Fin 2) * 128 + 1 * k.val = k.val; omega

private theorem row2 (c : Dev nD) (t : Fin cfg0.N) (p : Fin 1024) :
    row (R := 1024) (K := 128) (b2 m c t) p = row (R := 32768) (K := 128) (m ((c : Thread nD τ).loc main_arg2)) (brow t p) := by
  obtain ⟨e0, e1⟩ := idx2 t
  funext k
  show V m c main_arg2 (((cfg0.win 2).blk t).view.emb (ix2 p k)) = m ((c : Thread nD τ).loc main_arg2) (ix2 (brow t p) k)
  rw [V_main_arg2]
  refine congrArg _ ?_
  funext a; apply Fin.ext
  match a with
  | ⟨0, _⟩ => show win0_2.index t (0 : Fin 2) * 1024 + 1 * p.val = t.val * 1024 + p.val; omega
  | ⟨1, _⟩ => show win0_2.index t (1 : Fin 2) * 128 + 1 * k.val = k.val; omega

private theorem row3 (c : Dev nD) (t : Fin cfg0.N) (p : Fin 1024) :
    row (R := 1024) (K := 24) (b3 m c t) p = row (R := 32768) (K := 24) (m ((c : Thread nD τ).loc main_arg3)) (brow t p) := by
  obtain ⟨e0, e1⟩ := idx3 t
  funext k
  show V m c main_arg3 (((cfg0.win 3).blk t).view.emb (ix2 p k)) = m ((c : Thread nD τ).loc main_arg3) (ix2 (brow t p) k)
  rw [V_main_arg3]
  refine congrArg _ ?_
  funext a; apply Fin.ext
  match a with
  | ⟨0, _⟩ => show win0_3.index t (0 : Fin 2) * 1024 + 1 * p.val = t.val * 1024 + p.val; omega
  | ⟨1, _⟩ => show win0_3.index t (1 : Fin 2) * 24 + 1 * k.val = k.val; omega

private theorem row4 (c : Dev nD) (t : Fin cfg0.N) (p : Fin 1024) :
    row (R := 1024) (K := 32) (b4 m c t) p = row (R := 32768) (K := 32) (m ((c : Thread nD τ).loc main_arg4)) (brow t p) := by
  obtain ⟨e0, e1⟩ := idx4 t
  funext k
  show V m c main_arg4 (((cfg0.win 4).blk t).view.emb (ix2 p k)) = m ((c : Thread nD τ).loc main_arg4) (ix2 (brow t p) k)
  rw [V_main_arg4]
  refine congrArg _ ?_
  funext a; apply Fin.ext
  match a with
  | ⟨0, _⟩ => show win0_4.index t (0 : Fin 2) * 1024 + 1 * p.val = t.val * 1024 + p.val; omega
  | ⟨1, _⟩ => show win0_4.index t (1 : Fin 2) * 32 + 1 * k.val = k.val; omega

private theorem row5 (c : Dev nD) (t : Fin cfg0.N) (p : Fin 1024) :
    row (R := 1024) (K := 32) (b5 m c t) p = row (R := 32768) (K := 32) (m ((c : Thread nD τ).loc main_arg5)) (brow t p) := by
  obtain ⟨e0, e1⟩ := idx5 t
  funext k
  show V m c main_arg5 (((cfg0.win 5).blk t).view.emb (ix2 p k)) = m ((c : Thread nD τ).loc main_arg5) (ix2 (brow t p) k)
  rw [V_main_arg5]
  refine congrArg _ ?_
  funext a; apply Fin.ext
  match a with
  | ⟨0, _⟩ => show win0_5.index t (0 : Fin 2) * 1024 + 1 * p.val = t.val * 1024 + p.val; omega
  | ⟨1, _⟩ => show win0_5.index t (1 : Fin 2) * 32 + 1 * k.val = k.val; omega

private theorem row6 (c : Dev nD) (t : Fin cfg0.N) (p : Fin 1024) :
    row (R := 1024) (K := 32) (b6 m c t) p = row (R := 32768) (K := 32) (m ((c : Thread nD τ).loc main_arg6)) (brow t p) := by
  obtain ⟨e0, e1⟩ := idx6 t
  funext k
  show V m c main_arg6 (((cfg0.win 6).blk t).view.emb (ix2 p k)) = m ((c : Thread nD τ).loc main_arg6) (ix2 (brow t p) k)
  rw [V_main_arg6]
  refine congrArg _ ?_
  funext a; apply Fin.ext
  match a with
  | ⟨0, _⟩ => show win0_6.index t (0 : Fin 2) * 1024 + 1 * p.val = t.val * 1024 + p.val; omega
  | ⟨1, _⟩ => show win0_6.index t (1 : Fin 2) * 32 + 1 * k.val = k.val; omega

private theorem row7 (c : Dev nD) (t : Fin cfg0.N) (p : Fin 1024) :
    row (R := 1024) (K := 32) (b7 m c t) p = row (R := 32768) (K := 32) (m ((c : Thread nD τ).loc main_arg7)) (brow t p) := by
  obtain ⟨e0, e1⟩ := idx7 t
  funext k
  show V m c main_arg7 (((cfg0.win 7).blk t).view.emb (ix2 p k)) = m ((c : Thread nD τ).loc main_arg7) (ix2 (brow t p) k)
  rw [V_main_arg7]
  refine congrArg _ ?_
  funext a; apply Fin.ext
  match a with
  | ⟨0, _⟩ => show win0_7.index t (0 : Fin 2) * 1024 + 1 * p.val = t.val * 1024 + p.val; omega
  | ⟨1, _⟩ => show win0_7.index t (1 : Fin 2) * 32 + 1 * k.val = k.val; omega

/-- Row p of the eight batch blocks at point t is row 1024·t + p of the eight batch arguments. -/
theorem rows_eq (c : Dev nD) (t : Fin cfg0.N) (p : Fin 1024) :
    rowOf (B := 1024) (b0 m c t) (b1 m c t) (b2 m c t) (b3 m c t) (b4 m c t) (b5 m c t) (b6 m c t) (b7 m c t) p
      = rowOf (B := 32768) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (brow t p) := by
  unfold rowOf
  rw [row0 m c t p, row1 m c t p, row2 m c t p, row3 m c t p, row4 m c t p, row5 m c t p, row6 m c t p, row7 m c t p]

/-! ## The parameter blocks handed whole

  The one block of a parameter window is the whole array: entry n (or (n, k)) of the block lies at 0·N + 1·n
  (and 0·K + 1·k) of the array. -/

private theorem mat12 (c : Dev nD) (t : Fin cfg0.N) :
    mat (N := 384) (K := 128) (b12 m c t) = mat (N := 384) (K := 128) (m ((c : Thread nD τ).loc main_arg10)) := by
  obtain ⟨e0, e1⟩ := idx12 t
  funext n k
  show V m c main_arg10 (((cfg0.win 12).blk t).view.emb (ix2 n k)) = m ((c : Thread nD τ).loc main_arg10) (ix2 n k)
  rw [V_main_arg10]
  refine congrArg _ ?_
  funext a; apply Fin.ext
  match a with
  | ⟨0, _⟩ => show win0_12.index t (0 : Fin 2) * 384 + 1 * n.val = n.val; omega
  | ⟨1, _⟩ => show win0_12.index t (1 : Fin 2) * 128 + 1 * k.val = k.val; omega

private theorem mat13 (c : Dev nD) (t : Fin cfg0.N) :
    mat (N := 384) (K := 128) (b13 m c t) = mat (N := 384) (K := 128) (m ((c : Thread nD τ).loc main_arg11)) := by
  obtain ⟨e0, e1⟩ := idx13 t
  funext n k
  show V m c main_arg11 (((cfg0.win 13).blk t).view.emb (ix2 n k)) = m ((c : Thread nD τ).loc main_arg11) (ix2 n k)
  rw [V_main_arg11]
  refine congrArg _ ?_
  funext a; apply Fin.ext
  match a with
  | ⟨0, _⟩ => show win0_13.index t (0 : Fin 2) * 384 + 1 * n.val = n.val; omega
  | ⟨1, _⟩ => show win0_13.index t (1 : Fin 2) * 128 + 1 * k.val = k.val; omega

private theorem mat18 (c : Dev nD) (t : Fin cfg0.N) :
    mat (N := 384) (K := 128) (b18 m c t) = mat (N := 384) (K := 128) (m ((c : Thread nD τ).loc main_arg15)) := by
  obtain ⟨e0, e1⟩ := idx18 t
  funext n k
  show V m c main_arg15 (((cfg0.win 18).blk t).view.emb (ix2 n k)) = m ((c : Thread nD τ).loc main_arg15) (ix2 n k)
  rw [V_main_arg15]
  refine congrArg _ ?_
  funext a; apply Fin.ext
  match a with
  | ⟨0, _⟩ => show win0_18.index t (0 : Fin 2) * 384 + 1 * n.val = n.val; omega
  | ⟨1, _⟩ => show win0_18.index t (1 : Fin 2) * 128 + 1 * k.val = k.val; omega

private theorem mat27 (c : Dev nD) (t : Fin cfg0.N) :
    mat (N := 256) (K := 128) (b27 m c t) = mat (N := 256) (K := 128) (m ((c : Thread nD τ).loc main_arg22)) := by
  obtain ⟨e0, e1⟩ := idx27 t
  funext n k
  show V m c main_arg22 (((cfg0.win 27).blk t).view.emb (ix2 n k)) = m ((c : Thread nD τ).loc main_arg22) (ix2 n k)
  rw [V_main_arg22]
  refine congrArg _ ?_
  funext a; apply Fin.ext
  match a with
  | ⟨0, _⟩ => show win0_27.index t (0 : Fin 2) * 256 + 1 * n.val = n.val; omega
  | ⟨1, _⟩ => show win0_27.index t (1 : Fin 2) * 128 + 1 * k.val = k.val; omega

private theorem vec11 (c : Dev nD) (t : Fin cfg0.N) :
    vec (N := 128) (b11 m c t) = vec (N := 128) (m ((c : Thread nD τ).loc main_arg9)) := by
  have e0 := idx11 t
  funext n
  show V m c main_arg9 (((cfg0.win 11).blk t).view.emb (ix1 n)) = m ((c : Thread nD τ).loc main_arg9) (ix1 n)
  rw [V_main_arg9]
  refine congrArg _ ?_
  funext a; apply Fin.ext
  match a with
  | ⟨0, _⟩ => show win0_11.index t (0 : Fin 1) * 128 + 1 * n.val = n.val; omega

private theorem vec14 (c : Dev nD) (t : Fin cfg0.N) :
    vec (N := 384) (b14 m c t) = vec (N := 384) (m ((c : Thread nD τ).loc main_arg12)) := by
  have e0 := idx14 t
  funext n
  show V m c main_arg12 (((cfg0.win 14).blk t).view.emb (ix1 n)) = m ((c : Thread nD τ).loc main_arg12) (ix1 n)
  rw [V_main_arg12]
  refine congrArg _ ?_
  funext a; apply Fin.ext
  match a with
  | ⟨0, _⟩ => show win0_14.index t (0 : Fin 1) * 384 + 1 * n.val = n.val; omega

private theorem vec15 (c : Dev nD) (t : Fin cfg0.N) :
    vec (N := 384) (b15 m c t) = vec (N := 384) (m ((c : Thread nD τ).loc main_arg13)) := by
  have e0 := idx15 t
  funext n
  show V m c main_arg13 (((cfg0.win 15).blk t).view.emb (ix1 n)) = m ((c : Thread nD τ).loc main_arg13) (ix1 n)
  rw [V_main_arg13]
  refine congrArg _ ?_
  funext a; apply Fin.ext
  match a with
  | ⟨0, _⟩ => show win0_15.index t (0 : Fin 1) * 384 + 1 * n.val = n.val; omega

private theorem vec19 (c : Dev nD) (t : Fin cfg0.N) :
    vec (N := 384) (b19 m c t) = vec (N := 384) (m ((c : Thread nD τ).loc main_arg16)) := by
  have e0 := idx19 t
  funext n
  show V m c main_arg16 (((cfg0.win 19).blk t).view.emb (ix1 n)) = m ((c : Thread nD τ).loc main_arg16) (ix1 n)
  rw [V_main_arg16]
  refine congrArg _ ?_
  funext a; apply Fin.ext
  match a with
  | ⟨0, _⟩ => show win0_19.index t (0 : Fin 1) * 384 + 1 * n.val = n.val; omega

private theorem vec20 (c : Dev nD) (t : Fin cfg0.N) :
    vec (N := 384) (b20 m c t) = vec (N := 384) (m ((c : Thread nD τ).loc main_arg17)) := by
  have e0 := idx20 t
  funext n
  show V m c main_arg17 (((cfg0.win 20).blk t).view.emb (ix1 n)) = m ((c : Thread nD τ).loc main_arg17) (ix1 n)
  rw [V_main_arg17]
  refine congrArg _ ?_
  funext a; apply Fin.ext
  match a with
  | ⟨0, _⟩ => show win0_20.index t (0 : Fin 1) * 384 + 1 * n.val = n.val; omega

private theorem vec23 (c : Dev nD) (t : Fin cfg0.N) :
    vec (N := 128) (b23 m c t) = vec (N := 128) (m ((c : Thread nD τ).loc main_arg19)) := by
  have e0 := idx23 t
  funext n
  show V m c main_arg19 (((cfg0.win 23).blk t).view.emb (ix1 n)) = m ((c : Thread nD τ).loc main_arg19) (ix1 n)
  rw [V_main_arg19]
  refine congrArg _ ?_
  funext a; apply Fin.ext
  match a with
  | ⟨0, _⟩ => show win0_23.index t (0 : Fin 1) * 128 + 1 * n.val = n.val; omega

private theorem vec26 (c : Dev nD) (t : Fin cfg0.N) :
    vec (N := 128) (b26 m c t) = vec (N := 128) (m ((c : Thread nD τ).loc main_arg21)) := by
  have e0 := idx26 t
  funext n
  show V m c main_arg21 (((cfg0.win 26).blk t).view.emb (ix1 n)) = m ((c : Thread nD τ).loc main_arg21) (ix1 n)
  rw [V_main_arg21]
  refine congrArg _ ?_
  funext a; apply Fin.ext
  match a with
  | ⟨0, _⟩ => show win0_26.index t (0 : Fin 1) * 128 + 1 * n.val = n.val; omega

private theorem vec28 (c : Dev nD) (t : Fin cfg0.N) :
    vec (N := 256) (b28 m c t) = vec (N := 256) (m ((c : Thread nD τ).loc main_arg23)) := by
  have e0 := idx28 t
  funext n
  show V m c main_arg23 (((cfg0.win 28).blk t).view.emb (ix1 n)) = m ((c : Thread nD τ).loc main_arg23) (ix1 n)
  rw [V_main_arg23]
  refine congrArg _ ?_
  funext a; apply Fin.ext
  match a with
  | ⟨0, _⟩ => show win0_28.index t (0 : Fin 1) * 256 + 1 * n.val = n.val; omega

/-! ## The parameter blocks cut from a wider matrix

  Nine of the parameter arrays are column ranges o … o + K − 1 of a wider argument, cut out before the launch:
  entry (n, k) of such an array is entry (n, o + k) of the argument. -/

private theorem Vmain_v0 (c : Dev nD) : (V m c main_v0 : S128x1.Idx → EReal)
    = extractStridedSlice S128x1 ![0, 0] (m ((c : Thread nD τ).loc main_arg8) : S128x57.Idx → EReal) slices_S128x57_S128x1_0_0 := by
  dsimp only [GenP.V, Gen.hostOps0]; after_results <;> rfl

private theorem mat8 (c : Dev nD) (t : Fin cfg0.N) :
    mat (N := 128) (K := 1) (b8 m c t) = cols (N := 128) (C := 57) 1 0 (by omega) (m ((c : Thread nD τ).loc main_arg8)) := by
  obtain ⟨e0, e1⟩ := idx8 t
  funext n k
  show V m c main_v0 (((cfg0.win 8).blk t).view.emb (ix2 n k)) = m ((c : Thread nD τ).loc main_arg8) (ix2 n ⟨0 + k.val, by omega⟩)
  have h : ((cfg0.win 8).blk t).view.emb (ix2 n k) = (ix2 n k : S128x1.Idx) := by
    funext a; apply Fin.ext
    match a with
    | ⟨0, _⟩ => show win0_8.index t (0 : Fin 2) * 128 + 1 * n.val = n.val; omega
    | ⟨1, _⟩ => show win0_8.index t (1 : Fin 2) * 1 + 1 * k.val = k.val; omega
  rw [h, Vmain_v0]
  exact slice2_axis1_apply 0 _ _ n k _ rfl

private theorem Vmain_v1 (c : Dev nD) : (V m c main_v1 : S128x24.Idx → EReal)
    = extractStridedSlice S128x24 ![0, 1] (m ((c : Thread nD τ).loc main_arg8) : S128x57.Idx → EReal) slices_S128x57_S128x24_0_1 := by
  dsimp only [GenP.V, Gen.hostOps0]; after_results <;> rfl

private theorem mat9 (c : Dev nD) (t : Fin cfg0.N) :
    mat (N := 128) (K := 24) (b9 m c t) = cols (N := 128) (C := 57) 24 1 (by omega) (m ((c : Thread nD τ).loc main_arg8)) := by
  obtain ⟨e0, e1⟩ := idx9 t
  funext n k
  show V m c main_v1 (((cfg0.win 9).blk t).view.emb (ix2 n k)) = m ((c : Thread nD τ).loc main_arg8) (ix2 n ⟨1 + k.val, by omega⟩)
  have h : ((cfg0.win 9).blk t).view.emb (ix2 n k) = (ix2 n k : S128x24.Idx) := by
    funext a; apply Fin.ext
    match a with
    | ⟨0, _⟩ => show win0_9.index t (0 : Fin 2) * 128 + 1 * n.val = n.val; omega
    | ⟨1, _⟩ => show win0_9.index t (1 : Fin 2) * 24 + 1 * k.val = k.val; omega
  rw [h, Vmain_v1]
  exact slice2_axis1_apply 1 _ _ n k _ rfl

private theorem Vmain_v2 (c : Dev nD) : (V m c main_v2 : S128x32.Idx → EReal)
    = extractStridedSlice S128x32 ![0, 25] (m ((c : Thread nD τ).loc main_arg8) : S128x57.Idx → EReal) slices_S128x57_S128x32_0_25 := by
  dsimp only [GenP.V, Gen.hostOps0]; after_results <;> rfl

private theorem mat10 (c : Dev nD) (t : Fin cfg0.N) :
    mat (N := 128) (K := 32) (b10 m c t) = cols (N := 128) (C := 57) 32 25 (by omega) (m ((c : Thread nD τ).loc main_arg8)) := by
  obtain ⟨e0, e1⟩ := idx10 t
  funext n k
  show V m c main_v2 (((cfg0.win 10).blk t).view.emb (ix2 n k)) = m ((c : Thread nD τ).loc main_arg8) (ix2 n ⟨25 + k.val, by omega⟩)
  have h : ((cfg0.win 10).blk t).view.emb (ix2 n k) = (ix2 n k : S128x32.Idx) := by
    funext a; apply Fin.ext
    match a with
    | ⟨0, _⟩ => show win0_10.index t (0 : Fin 2) * 128 + 1 * n.val = n.val; omega
    | ⟨1, _⟩ => show win0_10.index t (1 : Fin 2) * 32 + 1 * k.val = k.val; omega
  rw [h, Vmain_v2]
  exact slice2_axis1_apply 25 _ _ n k _ rfl

private theorem Vmain_v3 (c : Dev nD) : (V m c main_v3 : S384x128.Idx → EReal)
    = extractStridedSlice S384x128 ![0, 0] (m ((c : Thread nD τ).loc main_arg14) : S384x160.Idx → EReal) slices_S384x160_S384x128_0_0 := by
  dsimp only [GenP.V, Gen.hostOps0]; after_results <;> rfl

private theorem mat16 (c : Dev nD) (t : Fin cfg0.N) :
    mat (N := 384) (K := 128) (b16 m c t) = cols (N := 384) (C := 160) 128 0 (by omega) (m ((c : Thread nD τ).loc main_arg14)) := by
  obtain ⟨e0, e1⟩ := idx16 t
  funext n k
  show V m c main_v3 (((cfg0.win 16).blk t).view.emb (ix2 n k)) = m ((c : Thread nD τ).loc main_arg14) (ix2 n ⟨0 + k.val, by omega⟩)
  have h : ((cfg0.win 16).blk t).view.emb (ix2 n k) = (ix2 n k : S384x128.Idx) := by
    funext a; apply Fin.ext
    match a with
    | ⟨0, _⟩ => show win0_16.index t (0 : Fin 2) * 384 + 1 * n.val = n.val; omega
    | ⟨1, _⟩ => show win0_16.index t (1 : Fin 2) * 128 + 1 * k.val = k.val; omega
  rw [h, Vmain_v3]
  exact slice2_axis1_apply 0 _ _ n k _ rfl

private theorem Vmain_v4 (c : Dev nD) : (V m c main_v4 : S384x32.Idx → EReal)
    = extractStridedSlice S384x32 ![0, 128] (m ((c : Thread nD τ).loc main_arg14) : S384x160.Idx → EReal) slices_S384x160_S384x32_0_128 := by
  dsimp only [GenP.V, Gen.hostOps0]; after_results <;> rfl

private theorem mat17 (c : Dev nD) (t : Fin cfg0.N) :
    mat (N := 384) (K := 32) (b17 m c t) = cols (N := 384) (C := 160) 32 128 (by omega) (m ((c : Thread nD τ).loc main_arg14)) := by
  obtain ⟨e0, e1⟩ := idx17 t
  funext n k
  show V m c main_v4 (((cfg0.win 17).blk t).view.emb (ix2 n k)) = m ((c : Thread nD τ).loc main_arg14) (ix2 n ⟨128 + k.val, by omega⟩)
  have h : ((cfg0.win 17).blk t).view.emb (ix2 n k) = (ix2 n k : S384x32.Idx) := by
    funext a; apply Fin.ext
    match a with
    | ⟨0, _⟩ => show win0_17.index t (0 : Fin 2) * 384 + 1 * n.val = n.val; omega
    | ⟨1, _⟩ => show win0_17.index t (1 : Fin 2) * 32 + 1 * k.val = k.val; omega
  rw [h, Vmain_v4]
  exact slice2_axis1_apply 128 _ _ n k _ rfl

private theorem Vmain_v5 (c : Dev nD) : (V m c main_v5 : S128x128.Idx → EReal)
    = extractStridedSlice S128x128 ![0, 0] (m ((c : Thread nD τ).loc main_arg18) : S128x160.Idx → EReal) slices_S128x160_S128x128_0_0 := by
  dsimp only [GenP.V, Gen.hostOps0]; after_results <;> rfl

private theorem mat21 (c : Dev nD) (t : Fin cfg0.N) :
    mat (N := 128) (K := 128) (b21 m c t) = cols (N := 128) (C := 160) 128 0 (by omega) (m ((c : Thread nD τ).loc main_arg18)) := by
  obtain ⟨e0, e1⟩ := idx21 t
  funext n k
  show V m c main_v5 (((cfg0.win 21).blk t).view.emb (ix2 n k)) = m ((c : Thread nD τ).loc main_arg18) (ix2 n ⟨0 + k.val, by omega⟩)
  have h : ((cfg0.win 21).blk t).view.emb (ix2 n k) = (ix2 n k : S128x128.Idx) := by
    funext a; apply Fin.ext
    match a with
    | ⟨0, _⟩ => show win0_21.index t (0 : Fin 2) * 128 + 1 * n.val = n.val; omega
    | ⟨1, _⟩ => show win0_21.index t (1 : Fin 2) * 128 + 1 * k.val = k.val; omega
  rw [h, Vmain_v5]
  exact slice2_axis1_apply 0 _ _ n k _ rfl

private theorem Vmain_v6 (c : Dev nD) : (V m c main_v6 : S128x32.Idx → EReal)
    = extractStridedSlice S128x32 ![0, 128] (m ((c : Thread nD τ).loc main_arg18) : S128x160.Idx → EReal) slices_S128x160_S128x32_0_128 := by
  dsimp only [GenP.V, Gen.hostOps0]; after_results <;> rfl

private theorem mat22 (c : Dev nD) (t : Fin cfg0.N) :
    mat (N := 128) (K := 32) (b22 m c t) = cols (N := 128) (C := 160) 32 128 (by omega) (m ((c : Thread nD τ).loc main_arg18)) := by
  obtain ⟨e0, e1⟩ := idx22 t
  funext n k
  show V m c main_v6 (((cfg0.win 22).blk t).view.emb (ix2 n k)) = m ((c : Thread nD τ).loc main_arg18) (ix2 n ⟨128 + k.val, by omega⟩)
  have h : ((cfg0.win 22).blk t).view.emb (ix2 n k) = (ix2 n k : S128x32.Idx) := by
    funext a; apply Fin.ext
    match a with
    | ⟨0, _⟩ => show win0_22.index t (0 : Fin 2) * 128 + 1 * n.val = n.val; omega
    | ⟨1, _⟩ => show win0_22.index t (1 : Fin 2) * 32 + 1 * k.val = k.val; omega
  rw [h, Vmain_v6]
  exact slice2_axis1_apply 128 _ _ n k _ rfl

private theorem Vmain_v7 (c : Dev nD) : (V m c main_v7 : S128x128.Idx → EReal)
    = extractStridedSlice S128x128 ![0, 0] (m ((c : Thread nD τ).loc main_arg20) : S128x160.Idx → EReal) slices_S128x160_S128x128_0_0 := by
  dsimp only [GenP.V, Gen.hostOps0]; after_results <;> rfl

private theorem mat24 (c : Dev nD) (t : Fin cfg0.N) :
    mat (N := 128) (K := 128) (b24 m c t) = cols (N := 128) (C := 160) 128 0 (by omega) (m ((c : Thread nD τ).loc main_arg20)) := by
  obtain ⟨e0, e1⟩ := idx24 t
  funext n k
  show V m c main_v7 (((cfg0.win 24).blk t).view.emb (ix2 n k)) = m ((c : Thread nD τ).loc main_arg20) (ix2 n ⟨0 + k.val, by omega⟩)
  have h : ((cfg0.win 24).blk t).view.emb (ix2 n k) = (ix2 n k : S128x128.Idx) := by
    funext a; apply Fin.ext
    match a with
    | ⟨0, _⟩ => show win0_24.index t (0 : Fin 2) * 128 + 1 * n.val = n.val; omega
    | ⟨1, _⟩ => show win0_24.index t (1 : Fin 2) * 128 + 1 * k.val = k.val; omega
  rw [h, Vmain_v7]
  exact slice2_axis1_apply 0 _ _ n k _ rfl

private theorem Vmain_v8 (c : Dev nD) : (V m c main_v8 : S128x32.Idx → EReal)
    = extractStridedSlice S128x32 ![0, 128] (m ((c : Thread nD τ).loc main_arg20) : S128x160.Idx → EReal) slices_S128x160_S128x32_0_128 := by
  dsimp only [GenP.V, Gen.hostOps0]; after_results <;> rfl

private theorem mat25 (c : Dev nD) (t : Fin cfg0.N) :
    mat (N := 128) (K := 32) (b25 m c t) = cols (N := 128) (C := 160) 32 128 (by omega) (m ((c : Thread nD τ).loc main_arg20)) := by
  obtain ⟨e0, e1⟩ := idx25 t
  funext n k
  show V m c main_v8 (((cfg0.win 25).blk t).view.emb (ix2 n k)) = m ((c : Thread nD τ).loc main_arg20) (ix2 n ⟨128 + k.val, by omega⟩)
  have h : ((cfg0.win 25).blk t).view.emb (ix2 n k) = (ix2 n k : S128x32.Idx) := by
    funext a; apply Fin.ext
    match a with
    | ⟨0, _⟩ => show win0_25.index t (0 : Fin 2) * 128 + 1 * n.val = n.val; omega
    | ⟨1, _⟩ => show win0_25.index t (1 : Fin 2) * 32 + 1 * k.val = k.val; omega
  rw [h, Vmain_v8]
  exact slice2_axis1_apply 128 _ _ n k _ rfl

/-- The parameters as the body is handed them are the parameters as cut from the sixteen parameter arguments. -/
theorem wts_eq (c : Dev nD) (t : Fin cfg0.N) :
    wtsCut (b8 m c t) (b9 m c t) (b10 m c t) (b11 m c t) (b12 m c t) (b13 m c t) (b14 m c t) (b15 m c t) (b16 m c t) (b17 m c t)
        (b18 m c t) (b19 m c t) (b20 m c t) (b21 m c t) (b22 m c t) (b23 m c t) (b24 m c t) (b25 m c t) (b26 m c t) (b27 m c t) (b28 m c t)
      = wtsOf (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) (m ((c : Thread nD τ).loc main_arg15)) (m ((c : Thread nD τ).loc main_arg16))
          (m ((c : Thread nD τ).loc main_arg17)) (m ((c : Thread nD τ).loc main_arg18)) (m ((c : Thread nD τ).loc main_arg19))
          (m ((c : Thread nD τ).loc main_arg20)) (m ((c : Thread nD τ).loc main_arg21)) (m ((c : Thread nD τ).loc main_arg22))
          (m ((c : Thread nD τ).loc main_arg23)) := by
  unfold wtsCut wtsOf
  rw [mat8 m c t, mat9 m c t, mat10 m c t, vec11 m c t, mat12 m c t, mat13 m c t, vec14 m c t, vec15 m c t, mat16 m c t, mat17 m c t, mat18 m c t, vec19 m c t, vec20 m c t, mat21 m c t, mat22 m c t, vec23 m c t, mat24 m c t, mat25 m c t, vec26 m c t, mat27 m c t, vec28 m c t]

/-! ## The result blocks -/

/-- Where entry (p, q) of each result's block at point t lies in the result array. -/
theorem emb29 (t : Fin cfg0.N) (p : Fin 1024) (q : Fin 256) :
    ((cfg0.win 29).blk t).view.emb (ix2 p q) = (ix2 (brow t p) q : S32768x256.Idx) := by
  obtain ⟨e0, e1⟩ := idx29 t
  funext a; apply Fin.ext
  match a with
  | ⟨0, _⟩ => show win0_29.index t (0 : Fin 2) * 1024 + 1 * p.val = t.val * 1024 + p.val; omega
  | ⟨1, _⟩ => show win0_29.index t (1 : Fin 2) * 256 + 1 * q.val = q.val; omega

theorem emb30 (t : Fin cfg0.N) (p : Fin 1024) (q : Fin 128) :
    ((cfg0.win 30).blk t).view.emb (ix2 p q) = (ix2 (brow t p) q : S32768x128.Idx) := by
  obtain ⟨e0, e1⟩ := idx30 t
  funext a; apply Fin.ext
  match a with
  | ⟨0, _⟩ => show win0_30.index t (0 : Fin 2) * 1024 + 1 * p.val = t.val * 1024 + p.val; omega
  | ⟨1, _⟩ => show win0_30.index t (1 : Fin 2) * 128 + 1 * q.val = q.val; omega

theorem emb31 (t : Fin cfg0.N) (p : Fin 1024) (q : Fin 128) :
    ((cfg0.win 31).blk t).view.emb (ix2 p q) = (ix2 (brow t p) q : S32768x128.Idx) := by
  obtain ⟨e0, e1⟩ := idx31 t
  funext a; apply Fin.ext
  match a with
  | ⟨0, _⟩ => show win0_31.index t (0 : Fin 2) * 1024 + 1 * p.val = t.val * 1024 + p.val; omega
  | ⟨1, _⟩ => show win0_31.index t (1 : Fin 2) * 128 + 1 * q.val = q.val; omega

/-! An index of a result array is in the block of point t iff each coordinate is in the block's range on its axis; the
  block that holds row r is the one of point r / 1024. -/

private theorem mem_blk29 (t : Fin cfg0.N) (i : S32768x256.Idx) :
    i ∈ ((cfg0.win 29).blk t).view.set ↔ ∀ a : Fin 2, win0_29.index t a * S1024x256.size a ≤ (i a).val ∧ (i a).val < win0_29.index t a * S1024x256.size a + S1024x256.size a := by
  show i ∈ ((View.whole main_v9_0).slice (win0_29.rect t)).set ↔ _
  rw [View.set_slice_whole, Rect.mem_set_unit]
  exact Iff.rfl

private theorem mem_blk30 (t : Fin cfg0.N) (i : S32768x128.Idx) :
    i ∈ ((cfg0.win 30).blk t).view.set ↔ ∀ a : Fin 2, win0_30.index t a * S1024x128.size a ≤ (i a).val ∧ (i a).val < win0_30.index t a * S1024x128.size a + S1024x128.size a := by
  show i ∈ ((View.whole main_v9_1).slice (win0_30.rect t)).set ↔ _
  rw [View.set_slice_whole, Rect.mem_set_unit]
  exact Iff.rfl

private theorem mem_blk31 (t : Fin cfg0.N) (i : S32768x128.Idx) :
    i ∈ ((cfg0.win 31).blk t).view.set ↔ ∀ a : Fin 2, win0_31.index t a * S1024x128.size a ≤ (i a).val ∧ (i a).val < win0_31.index t a * S1024x128.size a + S1024x128.size a := by
  show i ∈ ((View.whole main_v9_2).slice (win0_31.rect t)).set ↔ _
  rw [View.set_slice_whole, Rect.mem_set_unit]
  exact Iff.rfl

/-- Every entry of each result array lies in the block of the point that holds its row. -/
theorem cover29 (i : S32768x256.Idx) : ∃ t : Fin cfg0.N, (cfg0.win 29).flush t = true ∧ i ∈ ((cfg0.win 29).blk t).view.set := by
  have hi0 : (i 0).val < 32768 := (i 0).isLt
  have hi1 : (i 1).val < 256 := (i 1).isLt
  have hlt : (i 0).val / 1024 < 32 := by omega
  obtain ⟨e0, e1⟩ := idx29 ⟨(i 0).val / 1024, hlt⟩
  refine ⟨⟨(i 0).val / 1024, hlt⟩, flush0_29 _, ?_⟩
  rw [mem_blk29]
  intro a
  match a with
  | ⟨0, _⟩ =>
    show win0_29.index ⟨(i 0).val / 1024, hlt⟩ (0 : Fin 2) * 1024 ≤ (i 0).val ∧ (i 0).val < win0_29.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_29.index ⟨(i 0).val / 1024, hlt⟩ (1 : Fin 2) * 256 ≤ (i 1).val ∧ (i 1).val < win0_29.index ⟨(i 0).val / 1024, hlt⟩ (1 : Fin 2) * 256 + 256
    rw [e1]; omega

theorem cover30 (i : S32768x128.Idx) : ∃ t : Fin cfg0.N, (cfg0.win 30).flush t = true ∧ i ∈ ((cfg0.win 30).blk t).view.set := by
  have hi0 : (i 0).val < 32768 := (i 0).isLt
  have hi1 : (i 1).val < 128 := (i 1).isLt
  have hlt : (i 0).val / 1024 < 32 := by omega
  obtain ⟨e0, e1⟩ := idx30 ⟨(i 0).val / 1024, hlt⟩
  refine ⟨⟨(i 0).val / 1024, hlt⟩, flush0_30 _, ?_⟩
  rw [mem_blk30]
  intro a
  match a with
  | ⟨0, _⟩ =>
    show win0_30.index ⟨(i 0).val / 1024, hlt⟩ (0 : Fin 2) * 1024 ≤ (i 0).val ∧ (i 0).val < win0_30.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_30.index ⟨(i 0).val / 1024, hlt⟩ (1 : Fin 2) * 128 ≤ (i 1).val ∧ (i 1).val < win0_30.index ⟨(i 0).val / 1024, hlt⟩ (1 : Fin 2) * 128 + 128
    rw [e1]; omega

theorem cover31 (i : S32768x128.Idx) : ∃ t : Fin cfg0.N, (cfg0.win 31).flush t = true ∧ i ∈ ((cfg0.win 31).blk t).view.set := by
  have hi0 : (i 0).val < 32768 := (i 0).isLt
  have hi1 : (i 1).val < 128 := (i 1).isLt
  have hlt : (i 0).val / 1024 < 32 := by omega
  obtain ⟨e0, e1⟩ := idx31 ⟨(i 0).val / 1024, hlt⟩
  refine ⟨⟨(i 0).val / 1024, hlt⟩, flush0_31 _, ?_⟩
  rw [mem_blk31]
  intro a
  match a with
  | ⟨0, _⟩ =>
    show win0_31.index ⟨(i 0).val / 1024, hlt⟩ (0 : Fin 2) * 1024 ≤ (i 0).val ∧ (i 0).val < win0_31.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_31.index ⟨(i 0).val / 1024, hlt⟩ (1 : Fin 2) * 128 ≤ (i 1).val ∧ (i 1).val < win0_31.index ⟨(i 0).val / 1024, hlt⟩ (1 : Fin 2) * 128 + 128
    rw [e1]; omega

end Cert.KernelIdeal.KWin

end
-- ==== Proof.KBlocks.lean ====
/-
  The blocked program's three results as functions of its arguments.
  At grid point t the body stores, for each result, the row mathematics of Spec applied row by row to the blocks it is handed
  (the body's named values composed); row p of those blocks is row 1024·t + p of the arguments, the blocks written back at
  the 32 points tile each result array, so each result array ends holding, at entry (r, q), the logits (respectively the first
  and the second cell's new state) of row r of the arguments at unit q.
-/
import proofs.«138707_j25177098289494_1_alg».proof.Proof.KernelIdealValueP
import proofs.«138707_j25177098289494_1_alg».proof.Proof.KPay
import proofs.«138707_j25177098289494_1_alg».proof.Proof.KPayB
import proofs.«138707_j25177098289494_1_alg».proof.Proof.KWin

noncomputable section

namespace Cert.KernelIdeal.Blocks

open Cert.KernelIdeal Cert.KernelIdeal.Gen Cert.KernelIdeal.GenP Cert.KernelIdeal.ValueP Cert.KernelIdeal.KPay Cert.KernelIdeal.KPayB Cert.KernelIdeal.KWin
open Cert.GruSpec Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- Row r of the batch arguments and the parameters cut from the parameter arguments, on core c. -/
def RowM (c : Dev nD) (r : Fin 32768) : Row := rowOf (B := 32768) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r
def WtsM (c : Dev nD) : Wts := wtsOf (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))

/-- The three results, entry by entry. -/
def Glogits (c : Dev nD) : S32768x256.Idx → EReal := fun i => logits (RowM m c (i 0)) (WtsM m c) (i 1)
def Gh1 (c : Dev nD) : S32768x128.Idx → EReal := fun i => h1p (RowM m c (i 0)) (WtsM m c) (i 1)
def Gh2 (c : Dev nD) : S32768x128.Idx → EReal := fun i => h2p (RowM m c (i 0)) (WtsM m c) (i 1)

section Stages

variable (x0 : FVec Ideal S1024x1 .f32) (x1 : FVec Ideal S1024x128 .f32) (x2 : FVec Ideal S1024x128 .f32) (x3 : FVec Ideal S1024x24 .f32) (x4 : FVec Ideal S1024x32 .f32) (x5 : FVec Ideal S1024x32 .f32) (x6 : FVec Ideal S1024x32 .f32) (x7 : FVec Ideal S1024x32 .f32) (x8 : FVec Ideal S128x1 .f32) (x9 : FVec Ideal S128x24 .f32) (x10 : FVec Ideal S128x32 .f32) (x11 : FVec Ideal S128 .f32) (x12 : FVec Ideal S384x128 .f32) (x13 : FVec Ideal S384x128 .f32) (x14 : FVec Ideal S384 .f32) (x15 : FVec Ideal S384 .f32) (x16 : FVec Ideal S384x128 .f32) (x17 : FVec Ideal S384x32 .f32) (x18 : FVec Ideal S384x128 .f32) (x19 : FVec Ideal S384 .f32) (x20 : FVec Ideal S384 .f32) (x21 : FVec Ideal S128x128 .f32) (x22 : FVec Ideal S128x32 .f32) (x23 : FVec Ideal S128 .f32) (x24 : FVec Ideal S128x128 .f32) (x25 : FVec Ideal S128x32 .f32) (x26 : FVec Ideal S128 .f32) (x27 : FVec Ideal S256x128 .f32) (x28 : FVec Ideal S256 .f32) (p : Fin 1024)

/-- Row p of the blocks, and the parameters as handed over. -/
abbrev Rb : Row := rowOf (B := 1024) x0 x1 x2 x3 x4 x5 x6 x7 p
abbrev Wb : Wts := wtsCut x8 x9 x10 x11 x12 x13 x14 x15 x16 x17 x18 x19 x20 x21 x22 x23 x24 x25 x26 x27 x28

/-- The input projection of row p. -/
theorem st_io (k : Fin 128) : (k0_pay1 (F := Ideal) x0 x3 x4 x8 x9 x10 x11) (ix2 p k) = io (Rb x0 x1 x2 x3 x4 x5 x6 x7 p) (Wb x8 x9 x10 x11 x12 x13 x14 x15 x16 x17 x18 x19 x20 x21 x22 x23 x24 x25 x26 x27 x28) k :=
  pay1_apply x0 x3 x4 x8 x9 x10 x11 p k

theorem st_io_row : row (k0_pay1 (F := Ideal) x0 x3 x4 x8 x9 x10 x11) p = io (Rb x0 x1 x2 x3 x4 x5 x6 x7 p) (Wb x8 x9 x10 x11 x12 x13 x14 x15 x16 x17 x18 x19 x20 x21 x22 x23 x24 x25 x26 x27 x28) :=
  funext fun k => st_io x0 x1 x2 x3 x4 x5 x6 x7 x8 x9 x10 x11 x12 x13 x14 x15 x16 x17 x18 x19 x20 x21 x22 x23 x24 x25 x26 x27 x28 p k

/-- The first cell's new state of row p. -/
theorem st_h1p (q : Fin 128) :
    k0_pay2 (F := Ideal) x1 (k0_pay1 (F := Ideal) x0 x3 x4 x8 x9 x10 x11) x12 x14 x13 x15 (ix2 p q) = h1p (Rb x0 x1 x2 x3 x4 x5 x6 x7 p) (Wb x8 x9 x10 x11 x12 x13 x14 x15 x16 x17 x18 x19 x20 x21 x22 x23 x24 x25 x26 x27 x28) q := by
  refine (pay2_apply x1 (k0_pay1 (F := Ideal) x0 x3 x4 x8 x9 x10 x11) x12 x14 x13 x15 p q).trans ?_
  rw [st_io_row x0 x1 x2 x3 x4 x5 x6 x7 x8 x9 x10 x11 x12 x13 x14 x15 x16 x17 x18 x19 x20 x21 x22 x23 x24 x25 x26 x27 x28 p]
  rfl

/-- The residual of row p. -/
theorem st_g2 (q : Fin 128) : (k0_pay3 (F := Ideal) x1 (k0_pay1 (F := Ideal) x0 x3 x4 x8 x9 x10 x11) x12 x14 x13 x15) (ix2 p q) = g2 (Rb x0 x1 x2 x3 x4 x5 x6 x7 p) (Wb x8 x9 x10 x11 x12 x13 x14 x15 x16 x17 x18 x19 x20 x21 x22 x23 x24 x25 x26 x27 x28) q := by
  refine (pay3_apply x1 (k0_pay1 (F := Ideal) x0 x3 x4 x8 x9 x10 x11) x12 x14 x13 x15 p q).trans ?_
  rw [st_io_row x0 x1 x2 x3 x4 x5 x6 x7 x8 x9 x10 x11 x12 x13 x14 x15 x16 x17 x18 x19 x20 x21 x22 x23 x24 x25 x26 x27 x28 p, st_io x0 x1 x2 x3 x4 x5 x6 x7 x8 x9 x10 x11 x12 x13 x14 x15 x16 x17 x18 x19 x20 x21 x22 x23 x24 x25 x26 x27 x28 p q]
  rfl

theorem st_g2_fun :
    (fun k => cell (lin (row (k0_pay1 (F := Ideal) x0 x3 x4 x8 x9 x10 x11) p) (mat x12) (vec x14)) (lin (row x1 p) (mat x13) (vec x15)) (row x1 p) k
        + (k0_pay1 (F := Ideal) x0 x3 x4 x8 x9 x10 x11) (ix2 p k)) = g2 (Rb x0 x1 x2 x3 x4 x5 x6 x7 p) (Wb x8 x9 x10 x11 x12 x13 x14 x15 x16 x17 x18 x19 x20 x21 x22 x23 x24 x25 x26 x27 x28) := by
  funext k
  rw [st_io_row x0 x1 x2 x3 x4 x5 x6 x7 x8 x9 x10 x11 x12 x13 x14 x15 x16 x17 x18 x19 x20 x21 x22 x23 x24 x25 x26 x27 x28 p, st_io x0 x1 x2 x3 x4 x5 x6 x7 x8 x9 x10 x11 x12 x13 x14 x15 x16 x17 x18 x19 x20 x21 x22 x23 x24 x25 x26 x27 x28 p k]
  rfl

/-- The residual's part of the second cell's input gates. -/
theorem st_gi2 (j : Fin 384) : (k0_pay4 (F := Ideal) x1 (k0_pay1 (F := Ideal) x0 x3 x4 x8 x9 x10 x11) x12 x14 x13 x15 x16) (ix2 p j) = dot (g2 (Rb x0 x1 x2 x3 x4 x5 x6 x7 p) (Wb x8 x9 x10 x11 x12 x13 x14 x15 x16 x17 x18 x19 x20 x21 x22 x23 x24 x25 x26 x27 x28)) ((Wb x8 x9 x10 x11 x12 x13 x14 x15 x16 x17 x18 x19 x20 x21 x22 x23 x24 x25 x26 x27 x28).r2i j) := by
  refine (pay4_apply x1 (k0_pay1 (F := Ideal) x0 x3 x4 x8 x9 x10 x11) x12 x14 x13 x15 x16 p j).trans ?_
  rw [st_g2_fun x0 x1 x2 x3 x4 x5 x6 x7 x8 x9 x10 x11 x12 x13 x14 x15 x16 x17 x18 x19 x20 x21 x22 x23 x24 x25 x26 x27 x28 p]
  rfl

/-- The second cell's input gates of row p, as the body sums them. -/
theorem st_gi2_fun :
    (fun j => (k0_pay4 (F := Ideal) x1 (k0_pay1 (F := Ideal) x0 x3 x4 x8 x9 x10 x11) x12 x14 x13 x15 x16) (ix2 p j) + dot (row (k0_pay5 (F := Ideal) x5) p) (mat (k0_pay6 (F := Ideal) x17) j) + vec x19 j)
      = lin2 (g2 (Rb x0 x1 x2 x3 x4 x5 x6 x7 p) (Wb x8 x9 x10 x11 x12 x13 x14 x15 x16 x17 x18 x19 x20 x21 x22 x23 x24 x25 x26 x27 x28)) (Rb x0 x1 x2 x3 x4 x5 x6 x7 p).a2 (Wb x8 x9 x10 x11 x12 x13 x14 x15 x16 x17 x18 x19 x20 x21 x22 x23 x24 x25 x26 x27 x28).r2i (Wb x8 x9 x10 x11 x12 x13 x14 x15 x16 x17 x18 x19 x20 x21 x22 x23 x24 x25 x26 x27 x28).r2a (Wb x8 x9 x10 x11 x12 x13 x14 x15 x16 x17 x18 x19 x20 x21 x22 x23 x24 x25 x26 x27 x28).r2bi := by
  funext j
  have e5 : row (k0_pay5 (F := Ideal) x5) p = row x5 p := funext fun k => pay5_apply x5 _
  have e6 : mat (k0_pay6 (F := Ideal) x17) j = mat x17 j := funext fun k => pay6_apply x17 _
  rw [st_gi2 x0 x1 x2 x3 x4 x5 x6 x7 x8 x9 x10 x11 x12 x13 x14 x15 x16 x17 x18 x19 x20 x21 x22 x23 x24 x25 x26 x27 x28 p j, e5, e6]
  rfl

/-- The second cell's new state of row p. -/
theorem st_h2p (q : Fin 128) : (k0_pay7 (F := Ideal) x2 (k0_pay4 (F := Ideal) x1 (k0_pay1 (F := Ideal) x0 x3 x4 x8 x9 x10 x11) x12 x14 x13 x15 x16) (k0_pay5 (F := Ideal) x5) (k0_pay6 (F := Ideal) x17) x19 x18 x20) (ix2 p q) = h2p (Rb x0 x1 x2 x3 x4 x5 x6 x7 p) (Wb x8 x9 x10 x11 x12 x13 x14 x15 x16 x17 x18 x19 x20 x21 x22 x23 x24 x25 x26 x27 x28) q := by
  refine (pay7_apply x2 (k0_pay4 (F := Ideal) x1 (k0_pay1 (F := Ideal) x0 x3 x4 x8 x9 x10 x11) x12 x14 x13 x15 x16) (k0_pay5 (F := Ideal) x5) (k0_pay6 (F := Ideal) x17) x19 x18 x20 p q).trans ?_
  rw [st_gi2_fun x0 x1 x2 x3 x4 x5 x6 x7 x8 x9 x10 x11 x12 x13 x14 x15 x16 x17 x18 x19 x20 x21 x22 x23 x24 x25 x26 x27 x28 p]
  rfl

/-- The first ReLU layer's two products of row p. -/
theorem st_f1 (q : Fin 128) : (k0_pay8 (F := Ideal) x2 (k0_pay3 (F := Ideal) x1 (k0_pay1 (F := Ideal) x0 x3 x4 x8 x9 x10 x11) x12 x14 x13 x15) (k0_pay4 (F := Ideal) x1 (k0_pay1 (F := Ideal) x0 x3 x4 x8 x9 x10 x11) x12 x14 x13 x15 x16) (k0_pay5 (F := Ideal) x5) (k0_pay6 (F := Ideal) x17) x19 x18 x20 x21) (ix2 p q) = dot (add1 (Rb x0 x1 x2 x3 x4 x5 x6 x7 p) (Wb x8 x9 x10 x11 x12 x13 x14 x15 x16 x17 x18 x19 x20 x21 x22 x23 x24 x25 x26 x27 x28)) ((Wb x8 x9 x10 x11 x12 x13 x14 x15 x16 x17 x18 x19 x20 x21 x22 x23 x24 x25 x26 x27 x28).f1 q) := by
  refine (pay8_apply x2 (k0_pay3 (F := Ideal) x1 (k0_pay1 (F := Ideal) x0 x3 x4 x8 x9 x10 x11) x12 x14 x13 x15) (k0_pay4 (F := Ideal) x1 (k0_pay1 (F := Ideal) x0 x3 x4 x8 x9 x10 x11) x12 x14 x13 x15 x16) (k0_pay5 (F := Ideal) x5) (k0_pay6 (F := Ideal) x17) x19 x18 x20 x21 p q).trans ?_
  rw [st_gi2_fun x0 x1 x2 x3 x4 x5 x6 x7 x8 x9 x10 x11 x12 x13 x14 x15 x16 x17 x18 x19 x20 x21 x22 x23 x24 x25 x26 x27 x28 p]
  have e : (fun k => (k0_pay3 (F := Ideal) x1 (k0_pay1 (F := Ideal) x0 x3 x4 x8 x9 x10 x11) x12 x14 x13 x15) (ix2 p k)
      + cell (lin2 (g2 (Rb x0 x1 x2 x3 x4 x5 x6 x7 p) (Wb x8 x9 x10 x11 x12 x13 x14 x15 x16 x17 x18 x19 x20 x21 x22 x23 x24 x25 x26 x27 x28)) (Rb x0 x1 x2 x3 x4 x5 x6 x7 p).a2 (Wb x8 x9 x10 x11 x12 x13 x14 x15 x16 x17 x18 x19 x20 x21 x22 x23 x24 x25 x26 x27 x28).r2i (Wb x8 x9 x10 x11 x12 x13 x14 x15 x16 x17 x18 x19 x20 x21 x22 x23 x24 x25 x26 x27 x28).r2a (Wb x8 x9 x10 x11 x12 x13 x14 x15 x16 x17 x18 x19 x20 x21 x22 x23 x24 x25 x26 x27 x28).r2bi)
          (lin (row x2 p) (mat x18) (vec x20)) (row x2 p) k) = add1 (Rb x0 x1 x2 x3 x4 x5 x6 x7 p) (Wb x8 x9 x10 x11 x12 x13 x14 x15 x16 x17 x18 x19 x20 x21 x22 x23 x24 x25 x26 x27 x28) := by
    funext k
    rw [st_g2 x0 x1 x2 x3 x4 x5 x6 x7 x8 x9 x10 x11 x12 x13 x14 x15 x16 x17 x18 x19 x20 x21 x22 x23 x24 x25 x26 x27 x28 p k]
    rfl
  rw [e]
  rfl

theorem st_f1a (q : Fin 128) : (k0_pay9 (F := Ideal) x6 x22) (ix2 p q) = dot (Rb x0 x1 x2 x3 x4 x5 x6 x7 p).a3 ((Wb x8 x9 x10 x11 x12 x13 x14 x15 x16 x17 x18 x19 x20 x21 x22 x23 x24 x25 x26 x27 x28).f1a q) :=
  pay9_apply x6 x22 p q

/-- The logits of row p. -/
theorem st_logits (n : Fin 256) :
    k0_pay10 (F := Ideal) x7 (k0_pay8 (F := Ideal) x2 (k0_pay3 (F := Ideal) x1 (k0_pay1 (F := Ideal) x0 x3 x4 x8 x9 x10 x11) x12 x14 x13 x15) (k0_pay4 (F := Ideal) x1 (k0_pay1 (F := Ideal) x0 x3 x4 x8 x9 x10 x11) x12 x14 x13 x15 x16) (k0_pay5 (F := Ideal) x5) (k0_pay6 (F := Ideal) x17) x19 x18 x20 x21) (k0_pay9 (F := Ideal) x6 x22) x23 x24 x25 x26 x27 x28 (ix2 p n) = logits (Rb x0 x1 x2 x3 x4 x5 x6 x7 p) (Wb x8 x9 x10 x11 x12 x13 x14 x15 x16 x17 x18 x19 x20 x21 x22 x23 x24 x25 x26 x27 x28) n := by
  refine (pay10_apply x7 (k0_pay8 (F := Ideal) x2 (k0_pay3 (F := Ideal) x1 (k0_pay1 (F := Ideal) x0 x3 x4 x8 x9 x10 x11) x12 x14 x13 x15) (k0_pay4 (F := Ideal) x1 (k0_pay1 (F := Ideal) x0 x3 x4 x8 x9 x10 x11) x12 x14 x13 x15 x16) (k0_pay5 (F := Ideal) x5) (k0_pay6 (F := Ideal) x17) x19 x18 x20 x21) (k0_pay9 (F := Ideal) x6 x22) x23 x24 x25 x26 x27 x28 p n).trans ?_
  have e : (fun k' => max ((k0_pay8 (F := Ideal) x2 (k0_pay3 (F := Ideal) x1 (k0_pay1 (F := Ideal) x0 x3 x4 x8 x9 x10 x11) x12 x14 x13 x15) (k0_pay4 (F := Ideal) x1 (k0_pay1 (F := Ideal) x0 x3 x4 x8 x9 x10 x11) x12 x14 x13 x15 x16) (k0_pay5 (F := Ideal) x5) (k0_pay6 (F := Ideal) x17) x19 x18 x20 x21) (ix2 p k') + (k0_pay9 (F := Ideal) x6 x22) (ix2 p k') + vec x23 k') zero) = relu1 (Rb x0 x1 x2 x3 x4 x5 x6 x7 p) (Wb x8 x9 x10 x11 x12 x13 x14 x15 x16 x17 x18 x19 x20 x21 x22 x23 x24 x25 x26 x27 x28) := by
    funext k'
    rw [st_f1 x0 x1 x2 x3 x4 x5 x6 x7 x8 x9 x10 x11 x12 x13 x14 x15 x16 x17 x18 x19 x20 x21 x22 x23 x24 x25 x26 x27 x28 p k', st_f1a x0 x1 x2 x3 x4 x5 x6 x7 x8 x9 x10 x11 x12 x13 x14 x15 x16 x17 x18 x19 x20 x21 x22 x23 x24 x25 x26 x27 x28 p k']
    rfl
  rw [e]
  rfl

end Stages

/-- The body's store into the logits block, at entry (p, n): the logits of row p of the blocks. -/
theorem out29_apply (x0 : FVec Ideal S1024x1 .f32) (x1 : FVec Ideal S1024x128 .f32) (x2 : FVec Ideal S1024x128 .f32) (x3 : FVec Ideal S1024x24 .f32) (x4 : FVec Ideal S1024x32 .f32) (x5 : FVec Ideal S1024x32 .f32) (x6 : FVec Ideal S1024x32 .f32) (x7 : FVec Ideal S1024x32 .f32) (x8 : FVec Ideal S128x1 .f32) (x9 : FVec Ideal S128x24 .f32) (x10 : FVec Ideal S128x32 .f32) (x11 : FVec Ideal S128 .f32) (x12 : FVec Ideal S384x128 .f32) (x13 : FVec Ideal S384x128 .f32) (x14 : FVec Ideal S384 .f32) (x15 : FVec Ideal S384 .f32) (x16 : FVec Ideal S384x128 .f32) (x17 : FVec Ideal S384x32 .f32) (x18 : FVec Ideal S384x128 .f32) (x19 : FVec Ideal S384 .f32) (x20 : FVec Ideal S384 .f32) (x21 : FVec Ideal S128x128 .f32) (x22 : FVec Ideal S128x32 .f32) (x23 : FVec Ideal S128 .f32) (x24 : FVec Ideal S128x128 .f32) (x25 : FVec Ideal S128x32 .f32) (x26 : FVec Ideal S128 .f32) (x27 : FVec Ideal S256x128 .f32) (x28 : FVec Ideal S256 .f32) (p : Fin 1024) (n : Fin 256) :
    out0_29 (F := Ideal) x0 x1 x2 x3 x4 x5 x6 x7 x8 x9 x10 x11 x12 x13 x14 x15 x16 x17 x18 x19 x20 x21 x22 x23 x24 x25 x26 x27 x28 (ix2 p n) = logits (Rb x0 x1 x2 x3 x4 x5 x6 x7 p) (Wb x8 x9 x10 x11 x12 x13 x14 x15 x16 x17 x18 x19 x20 x21 x22 x23 x24 x25 x26 x27 x28) n := by
  unfold out0_29
  rw [View.canon_unit_zero hz2]
  simp only [View.ld_unit_zero (S := S1024x1) hz2, View.ld_unit_zero (S := S1024x128) hz2, View.ld_unit_zero (S := S1024x24) hz2, View.ld_unit_zero (S := S1024x32) hz2, View.ld_unit_zero (S := S128x1) hz2, View.ld_unit_zero (S := S128x24) hz2, View.ld_unit_zero (S := S128x32) hz2, View.ld_unit_zero (S := S128) hz1, View.ld_unit_zero (S := S384x128) hz2, View.ld_unit_zero (S := S384) hz1, View.ld_unit_zero (S := S384x32) hz2, View.ld_unit_zero (S := S128x128) hz2, View.ld_unit_zero (S := S256x128) hz2, View.ld_unit_zero (S := S256) hz1]
  exact st_logits x0 x1 x2 x3 x4 x5 x6 x7 x8 x9 x10 x11 x12 x13 x14 x15 x16 x17 x18 x19 x20 x21 x22 x23 x24 x25 x26 x27 x28 p n

/-- The body's store into the first cell's state block, at entry (p, q). -/
theorem out30_apply (x0 : FVec Ideal S1024x1 .f32) (x1 : FVec Ideal S1024x128 .f32) (x2 : FVec Ideal S1024x128 .f32) (x3 : FVec Ideal S1024x24 .f32) (x4 : FVec Ideal S1024x32 .f32) (x5 : FVec Ideal S1024x32 .f32) (x6 : FVec Ideal S1024x32 .f32) (x7 : FVec Ideal S1024x32 .f32) (x8 : FVec Ideal S128x1 .f32) (x9 : FVec Ideal S128x24 .f32) (x10 : FVec Ideal S128x32 .f32) (x11 : FVec Ideal S128 .f32) (x12 : FVec Ideal S384x128 .f32) (x13 : FVec Ideal S384x128 .f32) (x14 : FVec Ideal S384 .f32) (x15 : FVec Ideal S384 .f32) (x16 : FVec Ideal S384x128 .f32) (x17 : FVec Ideal S384x32 .f32) (x18 : FVec Ideal S384x128 .f32) (x19 : FVec Ideal S384 .f32) (x20 : FVec Ideal S384 .f32) (x21 : FVec Ideal S128x128 .f32) (x22 : FVec Ideal S128x32 .f32) (x23 : FVec Ideal S128 .f32) (x24 : FVec Ideal S128x128 .f32) (x25 : FVec Ideal S128x32 .f32) (x26 : FVec Ideal S128 .f32) (x27 : FVec Ideal S256x128 .f32) (x28 : FVec Ideal S256 .f32) (p : Fin 1024) (q : Fin 128) :
    out0_30 (F := Ideal) x0 x1 x2 x3 x4 x5 x6 x7 x8 x9 x10 x11 x12 x13 x14 x15 x16 x17 x18 x19 x20 x21 x22 x23 x24 x25 x26 x27 x28 (ix2 p q) = h1p (Rb x0 x1 x2 x3 x4 x5 x6 x7 p) (Wb x8 x9 x10 x11 x12 x13 x14 x15 x16 x17 x18 x19 x20 x21 x22 x23 x24 x25 x26 x27 x28) q := by
  unfold out0_30
  rw [View.canon_unit_zero hz2]
  simp only [View.ld_unit_zero (S := S1024x1) hz2, View.ld_unit_zero (S := S1024x128) hz2, View.ld_unit_zero (S := S1024x24) hz2, View.ld_unit_zero (S := S1024x32) hz2, View.ld_unit_zero (S := S128x1) hz2, View.ld_unit_zero (S := S128x24) hz2, View.ld_unit_zero (S := S128x32) hz2, View.ld_unit_zero (S := S128) hz1, View.ld_unit_zero (S := S384x128) hz2, View.ld_unit_zero (S := S384) hz1, View.ld_unit_zero (S := S384x32) hz2, View.ld_unit_zero (S := S128x128) hz2, View.ld_unit_zero (S := S256x128) hz2, View.ld_unit_zero (S := S256) hz1]
  exact st_h1p x0 x1 x2 x3 x4 x5 x6 x7 x8 x9 x10 x11 x12 x13 x14 x15 x16 x17 x18 x19 x20 x21 x22 x23 x24 x25 x26 x27 x28 p q

/-- The body's store into the second cell's state block, at entry (p, q). -/
theorem out31_apply (x0 : FVec Ideal S1024x1 .f32) (x1 : FVec Ideal S1024x128 .f32) (x2 : FVec Ideal S1024x128 .f32) (x3 : FVec Ideal S1024x24 .f32) (x4 : FVec Ideal S1024x32 .f32) (x5 : FVec Ideal S1024x32 .f32) (x6 : FVec Ideal S1024x32 .f32) (x7 : FVec Ideal S1024x32 .f32) (x8 : FVec Ideal S128x1 .f32) (x9 : FVec Ideal S128x24 .f32) (x10 : FVec Ideal S128x32 .f32) (x11 : FVec Ideal S128 .f32) (x12 : FVec Ideal S384x128 .f32) (x13 : FVec Ideal S384x128 .f32) (x14 : FVec Ideal S384 .f32) (x15 : FVec Ideal S384 .f32) (x16 : FVec Ideal S384x128 .f32) (x17 : FVec Ideal S384x32 .f32) (x18 : FVec Ideal S384x128 .f32) (x19 : FVec Ideal S384 .f32) (x20 : FVec Ideal S384 .f32) (x21 : FVec Ideal S128x128 .f32) (x22 : FVec Ideal S128x32 .f32) (x23 : FVec Ideal S128 .f32) (x24 : FVec Ideal S128x128 .f32) (x25 : FVec Ideal S128x32 .f32) (x26 : FVec Ideal S128 .f32) (x27 : FVec Ideal S256x128 .f32) (x28 : FVec Ideal S256 .f32) (p : Fin 1024) (q : Fin 128) :
    out0_31 (F := Ideal) x0 x1 x2 x3 x4 x5 x6 x7 x8 x9 x10 x11 x12 x13 x14 x15 x16 x17 x18 x19 x20 x21 x22 x23 x24 x25 x26 x27 x28 (ix2 p q) = h2p (Rb x0 x1 x2 x3 x4 x5 x6 x7 p) (Wb x8 x9 x10 x11 x12 x13 x14 x15 x16 x17 x18 x19 x20 x21 x22 x23 x24 x25 x26 x27 x28) q := by
  unfold out0_31
  rw [View.canon_unit_zero hz2]
  simp only [View.ld_unit_zero (S := S1024x1) hz2, View.ld_unit_zero (S := S1024x128) hz2, View.ld_unit_zero (S := S1024x24) hz2, View.ld_unit_zero (S := S1024x32) hz2, View.ld_unit_zero (S := S128x1) hz2, View.ld_unit_zero (S := S128x24) hz2, View.ld_unit_zero (S := S128x32) hz2, View.ld_unit_zero (S := S128) hz1, View.ld_unit_zero (S := S384x128) hz2, View.ld_unit_zero (S := S384) hz1, View.ld_unit_zero (S := S384x32) hz2, View.ld_unit_zero (S := S128x128) hz2, View.ld_unit_zero (S := S256x128) hz2, View.ld_unit_zero (S := S256) hz1]
  exact st_h2p x0 x1 x2 x3 x4 x5 x6 x7 x8 x9 x10 x11 x12 x13 x14 x15 x16 x17 x18 x19 x20 x21 x22 x23 x24 x25 x26 x27 x28 p q

/-- What point t writes back to this result is block t of the result's function of the arguments. -/
theorem flushed29_eq (c : Dev nD) (t : Fin cfg0.N) :
    (dats m 0 c).flushed 29 t = ((cfg0.win 29).blk t).view.read (Elt Ideal) (Glogits m c) := by
  rw [flushed29]
  funext y
  obtain ⟨p, n, rfl⟩ : ∃ (p : Fin 1024) (n : Fin 256), y = ix2 p n := ⟨y 0, y 1, eq_ix2 y⟩
  show out0_29 (F := Ideal) (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (ix2 p n) = Glogits m c (((cfg0.win 29).blk t).view.emb (ix2 p n))
  rw [out29_apply (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) p n, emb29 t p n]
  show logits (rowOf (B := 1024) (b0 m c t) (b1 m c t) (b2 m c t) (b3 m c t) (b4 m c t) (b5 m c t) (b6 m c t) (b7 m c t) p)
      (wtsCut (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t)) n
    = logits (RowM m c (brow t p)) (WtsM m c) n
  rw [rows_eq m c t p, wts_eq m c t]
  rfl

/-- The result array after the run. -/
theorem final29 (c : Dev nD) : (dats m 0 c).arrAt 29 cfg0.N = Glogits m c :=
  (dats m 0 c).arrAt_eq_of_cover 29 (Glogits m c) (fun t _ => flushed29_eq m c t) cover29

/-- What point t writes back to this result is block t of the result's function of the arguments. -/
theorem flushed30_eq (c : Dev nD) (t : Fin cfg0.N) :
    (dats m 0 c).flushed 30 t = ((cfg0.win 30).blk t).view.read (Elt Ideal) (Gh1 m c) := by
  rw [flushed30]
  funext y
  obtain ⟨p, n, rfl⟩ : ∃ (p : Fin 1024) (n : Fin 128), y = ix2 p n := ⟨y 0, y 1, eq_ix2 y⟩
  show out0_30 (F := Ideal) (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (ix2 p n) = Gh1 m c (((cfg0.win 30).blk t).view.emb (ix2 p n))
  rw [out30_apply (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) p n, emb30 t p n]
  show h1p (rowOf (B := 1024) (b0 m c t) (b1 m c t) (b2 m c t) (b3 m c t) (b4 m c t) (b5 m c t) (b6 m c t) (b7 m c t) p)
      (wtsCut (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t)) n
    = h1p (RowM m c (brow t p)) (WtsM m c) n
  rw [rows_eq m c t p, wts_eq m c t]
  rfl

/-- The result array after the run. -/
theorem final30 (c : Dev nD) : (dats m 0 c).arrAt 30 cfg0.N = Gh1 m c :=
  (dats m 0 c).arrAt_eq_of_cover 30 (Gh1 m c) (fun t _ => flushed30_eq m c t) cover30

/-- What point t writes back to this result is block t of the result's function of the arguments. -/
theorem flushed31_eq (c : Dev nD) (t : Fin cfg0.N) :
    (dats m 0 c).flushed 31 t = ((cfg0.win 31).blk t).view.read (Elt Ideal) (Gh2 m c) := by
  rw [flushed31]
  funext y
  obtain ⟨p, n, rfl⟩ : ∃ (p : Fin 1024) (n : Fin 128), y = ix2 p n := ⟨y 0, y 1, eq_ix2 y⟩
  show out0_31 (F := Ideal) (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (ix2 p n) = Gh2 m c (((cfg0.win 31).blk t).view.emb (ix2 p n))
  rw [out31_apply (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) p n, emb31 t p n]
  show h2p (rowOf (B := 1024) (b0 m c t) (b1 m c t) (b2 m c t) (b3 m c t) (b4 m c t) (b5 m c t) (b6 m c t) (b7 m c t) p)
      (wtsCut (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t)) n
    = h2p (RowM m c (brow t p)) (WtsM m c) n
  rw [rows_eq m c t p, wts_eq m c t]
  rfl

/-- The result array after the run. -/
theorem final31 (c : Dev nD) : (dats m 0 c).arrAt 31 cfg0.N = Gh2 m c :=
  (dats m 0 c).arrAt_eq_of_cover 31 (Gh2 m c) (fun t _ => flushed31_eq m c t) cover31

/-- The blocked program's run: every weakly fair execution ends with the three results at their functions of the arguments,
    the arguments unchanged. -/
theorem run : θ_run defs (onTc (τ := τ) (main (F := Ideal))) ⟨m, fun _ => 0, ρ⟩ fun r => ∀ c : Dev nD,
      r.2.mem ((c : Thread nD τ).loc main_v9_0) = Glogits m c
      ∧ r.2.mem ((c : Thread nD τ).loc main_v9_1) = Gh1 m c
      ∧ r.2.mem ((c : Thread nD τ).loc main_v9_2) = Gh2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23) :=
  (θ_run defs _ _).mono (fun r h c => ⟨(h c).1.trans (final29 m c), (h c).2.1.trans (final30 m c), (h c).2.2.1.trans (final31 m c), (h c).2.2.2⟩)
    (run_blocks m ρ)

end Cert.KernelIdeal.Blocks

end
-- ==== Proof.RefCat.lean ====
/-
  Arrays joined along their second axis, read at an entry: the entry of the joined array in column c is the entry of the
  piece whose column range holds c, at the column counted from that piece's first. For the three-piece join [x, m, a1]
  (1 + 24 + 32 = 57 columns) and the two-piece joins of a [·, 128] array with a [·, 32] array (160 columns).
-/
import proofs.«138707_j25177098289494_1_alg».proof.Proof.Gen.ReferenceIdeal
import proofs.«138707_j25177098289494_1_alg».proof.Proof.Spec
import Idealize.ShloMosaic.Lib.ValueIdx
import Idealize.ShloMosaic.Lib.Pipeline.Value

noncomputable section

namespace Cert.ReferenceIdeal.Cat

open Cert.ReferenceIdeal Cert.ReferenceIdeal.Gen Cert.GruSpec Idealize.ShloMosaic Idealize.ShloMosaic.ValueIdx

theorem cat57_x (x0 : (⟨S32768x1, .f32⟩ : BufTy).Contents (Elt Ideal)) (x3 : (⟨S32768x24, .f32⟩ : BufTy).Contents (Elt Ideal)) (x4 : (⟨S32768x32, .f32⟩ : BufTy).Contents (Elt Ideal)) (r : Fin 32768) (k : Fin 1) :
    concatenate S32768x57 1 [⟨S32768x1, x0⟩, ⟨S32768x24, x3⟩, ⟨S32768x32, x4⟩] concatenates_S32768x1_S32768x24_S32768x32_S32768x57_d1
        (ix2 r (⟨0 + k.val, by omega⟩ : Fin 57)) = x0 (ix2 r k) := by
  -- Column 0 + k lies in the first piece (no columns before it).
  exact concatenate_apply_piece (1 : Fin S32768x57.rank) [⟨S32768x1, x0⟩, ⟨S32768x24, x3⟩, ⟨S32768x32, x4⟩] _ _ 0 (by simp) S32768x1 x0 rfl rfl 0 rfl (ix2 r k)
    (fun b hb => match b, hb with
      | ⟨0, _⟩, _ => rfl
      | ⟨1, _⟩, hb => absurd rfl hb)
    rfl

theorem cat57_m (x0 : (⟨S32768x1, .f32⟩ : BufTy).Contents (Elt Ideal)) (x3 : (⟨S32768x24, .f32⟩ : BufTy).Contents (Elt Ideal)) (x4 : (⟨S32768x32, .f32⟩ : BufTy).Contents (Elt Ideal)) (r : Fin 32768) (k : Fin 24) :
    concatenate S32768x57 1 [⟨S32768x1, x0⟩, ⟨S32768x24, x3⟩, ⟨S32768x32, x4⟩] concatenates_S32768x1_S32768x24_S32768x32_S32768x57_d1
        (ix2 r (⟨1 + k.val, by omega⟩ : Fin 57)) = x3 (ix2 r k) := by
  -- Column 1 + k lies in the second piece (one column before it).
  exact concatenate_apply_piece (1 : Fin S32768x57.rank) [⟨S32768x1, x0⟩, ⟨S32768x24, x3⟩, ⟨S32768x32, x4⟩] _ _ 1 (by simp) S32768x24 x3 rfl rfl 1 rfl (ix2 r k)
    (fun b hb => match b, hb with
      | ⟨0, _⟩, _ => rfl
      | ⟨1, _⟩, hb => absurd rfl hb)
    rfl

theorem cat57_a (x0 : (⟨S32768x1, .f32⟩ : BufTy).Contents (Elt Ideal)) (x3 : (⟨S32768x24, .f32⟩ : BufTy).Contents (Elt Ideal)) (x4 : (⟨S32768x32, .f32⟩ : BufTy).Contents (Elt Ideal)) (r : Fin 32768) (k : Fin 32) :
    concatenate S32768x57 1 [⟨S32768x1, x0⟩, ⟨S32768x24, x3⟩, ⟨S32768x32, x4⟩] concatenates_S32768x1_S32768x24_S32768x32_S32768x57_d1
        (ix2 r (⟨25 + k.val, by omega⟩ : Fin 57)) = x4 (ix2 r k) := by
  -- Column 25 + k lies in the third piece (1 + 24 columns before it).
  exact concatenate_apply_piece (1 : Fin S32768x57.rank) [⟨S32768x1, x0⟩, ⟨S32768x24, x3⟩, ⟨S32768x32, x4⟩] _ _ 2 (by simp) S32768x32 x4 rfl rfl 25 rfl (ix2 r k)
    (fun b hb => match b, hb with
      | ⟨0, _⟩, _ => rfl
      | ⟨1, _⟩, hb => absurd rfl hb)
    rfl

theorem cat160_l (a : (⟨S32768x128, .f32⟩ : BufTy).Contents (Elt Ideal)) (b : (⟨S32768x32, .f32⟩ : BufTy).Contents (Elt Ideal)) (r : Fin 32768) (k : Fin 128) :
    concatenate S32768x160 1 [⟨S32768x128, a⟩, ⟨S32768x32, b⟩] concatenates_S32768x128_S32768x32_S32768x160_d1
        (ix2 r (⟨0 + k.val, by omega⟩ : Fin 160)) = a (ix2 r k) := by
  -- Column 0 + k lies in the first piece: same coordinates.
  exact concatenate_pair_apply_left (1 : Fin S32768x160.rank) a b _ _ rfl (ix2 r k)
    (fun c => match c with
      | ⟨0, _⟩ => rfl
      | ⟨1, _⟩ => (Nat.zero_add _).symm)

theorem cat160_r (a : (⟨S32768x128, .f32⟩ : BufTy).Contents (Elt Ideal)) (b : (⟨S32768x32, .f32⟩ : BufTy).Contents (Elt Ideal)) (r : Fin 32768) (k : Fin 32) :
    concatenate S32768x160 1 [⟨S32768x128, a⟩, ⟨S32768x32, b⟩] concatenates_S32768x128_S32768x32_S32768x160_d1
        (ix2 r (⟨128 + k.val, by omega⟩ : Fin 160)) = b (ix2 r k) := by
  -- Column 128 + k lies in the second piece, the first piece's 128 columns less.
  exact concatenate_pair_apply_right (1 : Fin S32768x160.rank) a b _ _ rfl rfl (ix2 r k)
    (fun c hc => match c, hc with
      | ⟨0, _⟩, _ => rfl
      | ⟨1, _⟩, hc => absurd rfl hc)
    (Nat.add_comm _ _)

end Cert.ReferenceIdeal.Cat

end
-- ==== Proof.RS1.lean ====
/-
  The unblocked program, stage by stage, up to the first cell. The joined input [x, m, a1] times I_wᵀ is a dot product over
  57 entries; read through the join it is the sum of the three dot products over x's one entry, m's 24 and a1's 32, each
  against the matching columns of I_w. The logistic function arrives spelt as 1 / (1 + exp(−·)), which is the same function
  of an extended real. With those two facts every stage at entry (r, q) is the row mathematics of Spec on row r.
-/
import proofs.«138707_j25177098289494_1_alg».proof.Proof.Gen.ReferenceIdeal.Read
import proofs.«138707_j25177098289494_1_alg».proof.Proof.Spec
import proofs.«138707_j25177098289494_1_alg».proof.Proof.RefCat
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Stage1

open Cert.ReferenceIdeal Cert.ReferenceIdeal.Gen Cert.ReferenceIdeal.Read Cert.ReferenceIdeal.Cat Cert.GruSpec Idealize.ShloMosaic Idealize.ShloMosaic.ValueIdx

variable (x0 : (⟨S32768x1, .f32⟩ : BufTy).Contents (Elt Ideal)) (x1 x2 : (⟨S32768x128, .f32⟩ : BufTy).Contents (Elt Ideal)) (x3 : (⟨S32768x24, .f32⟩ : BufTy).Contents (Elt Ideal))
  (x4 x5 x6 x7 : (⟨S32768x32, .f32⟩ : BufTy).Contents (Elt Ideal)) (x8 : (⟨S128x57, .f32⟩ : BufTy).Contents (Elt Ideal)) (x9 : (⟨S128, .f32⟩ : BufTy).Contents (Elt Ideal))
  (x10 x11 : (⟨S384x128, .f32⟩ : BufTy).Contents (Elt Ideal)) (x12 x13 : (⟨S384, .f32⟩ : BufTy).Contents (Elt Ideal)) (x14 : (⟨S384x160, .f32⟩ : BufTy).Contents (Elt Ideal))
  (x15 : (⟨S384x128, .f32⟩ : BufTy).Contents (Elt Ideal)) (x16 x17 : (⟨S384, .f32⟩ : BufTy).Contents (Elt Ideal)) (x18 : (⟨S128x160, .f32⟩ : BufTy).Contents (Elt Ideal)) (x19 : (⟨S128, .f32⟩ : BufTy).Contents (Elt Ideal))
  (x20 : (⟨S128x160, .f32⟩ : BufTy).Contents (Elt Ideal)) (x21 : (⟨S128, .f32⟩ : BufTy).Contents (Elt Ideal)) (x22 : (⟨S256x128, .f32⟩ : BufTy).Contents (Elt Ideal)) (x23 : (⟨S256, .f32⟩ : BufTy).Contents (Elt Ideal))
/-- Row `r` of the batch, and the parameters, as Spec reads them off the reference's argument arrays. -/
abbrev R (r : Fin 32768) : Row := rowOf x0 x1 x2 x3 x4 x5 x6 x7 r
abbrev W : Wts := wtsOf x8 x9 x10 x11 x12 x13 x14 x15 x16 x17 x18 x19 x20 x21 x22 x23

/-- The input projection. -/
theorem io_eq (r : Fin 32768) (q : Fin 128) :
    val_main_v5 (F := Ideal) x0 x3 x4 x8 x9 (ix2 r q) = io (R x0 x1 x2 x3 x4 x5 x6 x7 r) (W x8 x9 x10 x11 x12 x13 x14 x15 x16 x17 x18 x19 x20 x21 x22 x23) q := by
  -- The 57-wide sum, read through the join, is the three dot products; the bias is read through its two broadcasts.
  rw [val_main_v5_apply, val_main_v4_apply, val_main_v3_apply, val_main_v2_apply]
  have e3 : idx_main_v3 (idx_main_v4 (ix2 r q)) = ix1 q := funext fun a => Fin.ext (by match a with | ⟨0, _⟩ => rfl)
  have es : (∑ k : Fin 57, val_main_v0 (F := Ideal) x0 x3 x4 (lidx_main_v2 (ix2 r q) k) * val_main_v1 (F := Ideal) x8 (ridx_main_v2 (ix2 r q) k))
      = dot (fun k : Fin 57 => val_main_v0 (F := Ideal) x0 x3 x4 (ix2 r k)) (fun k : Fin 57 => x8 (ix2 q k)) := by
    unfold dot
    refine Finset.sum_congr rfl fun k _ => ?_
    have e1 : lidx_main_v2 (ix2 r q) k = ix2 r k := funext fun a => Fin.ext (by match a with | ⟨0, _⟩ => rfl | ⟨1, _⟩ => rfl)
    have e2 : idx_main_v1 (ridx_main_v2 (ix2 r q) k) = ix2 q k := funext fun a => Fin.ext (by match a with | ⟨0, _⟩ => rfl | ⟨1, _⟩ => rfl)
    rw [val_main_v1_apply, e1, e2]
  have hx : (fun k : Fin 1 => val_main_v0 (F := Ideal) x0 x3 x4 (ix2 r (⟨0 + k.val, by omega⟩ : Fin 57))) = row x0 r :=
    funext fun k => cat57_x x0 x3 x4 r k
  have hm : (fun k : Fin 24 => val_main_v0 (F := Ideal) x0 x3 x4 (ix2 r (⟨1 + k.val, by omega⟩ : Fin 57))) = row x3 r :=
    funext fun k => cat57_m x0 x3 x4 r k
  have ha : (fun k : Fin 32 => val_main_v0 (F := Ideal) x0 x3 x4 (ix2 r (⟨25 + k.val, by omega⟩ : Fin 57))) = row x4 r :=
    funext fun k => cat57_a x0 x3 x4 r k
  rw [es, e3, dot_cut3]
  beta_reduce
  rw [hx, hm, ha]
  rfl

/-- The first cell's input-side gate pre-activations: a dense layer on the input projection. -/
private theorem gi_eq (r : Fin 32768) (j : Fin 384) :
    val_main_v10 (F := Ideal) x0 x3 x4 x8 x9 x10 x12 (ix2 r j) = lin (io (R x0 x1 x2 x3 x4 x5 x6 x7 r) (W x8 x9 x10 x11 x12 x13 x14 x15 x16 x17 x18 x19 x20 x21 x22 x23)) (W x8 x9 x10 x11 x12 x13 x14 x15 x16 x17 x18 x19 x20 x21 x22 x23).r1i (W x8 x9 x10 x11 x12 x13 x14 x15 x16 x17 x18 x19 x20 x21 x22 x23).r1bi j := by
  rw [val_main_v10_apply, val_main_v9_apply, val_main_v8_apply, val_main_v7_apply]
  have e3 : idx_main_v8 (idx_main_v9 (ix2 r j)) = ix1 j := funext fun a => Fin.ext (by match a with | ⟨0, _⟩ => rfl)
  have es : (∑ k : Fin 128, val_main_v5 (F := Ideal) x0 x3 x4 x8 x9 (lidx_main_v7 (ix2 r j) k) * val_main_v6 (F := Ideal) x10 (ridx_main_v7 (ix2 r j) k))
      = dot (io (R x0 x1 x2 x3 x4 x5 x6 x7 r) (W x8 x9 x10 x11 x12 x13 x14 x15 x16 x17 x18 x19 x20 x21 x22 x23)) (mat x10 j) := by
    unfold dot
    refine Finset.sum_congr rfl fun k _ => ?_
    have e1 : lidx_main_v7 (ix2 r j) k = ix2 r k := funext fun a => Fin.ext (by match a with | ⟨0, _⟩ => rfl | ⟨1, _⟩ => rfl)
    have e2 : idx_main_v6 (ridx_main_v7 (ix2 r j) k) = ix2 j k := funext fun a => Fin.ext (by match a with | ⟨0, _⟩ => rfl | ⟨1, _⟩ => rfl)
    rw [val_main_v6_apply, e1, e2, io_eq x0 x1 x2 x3 x4 x5 x6 x7 x8 x9 x10 x11 x12 x13 x14 x15 x16 x17 x18 x19 x20 x21 x22 x23 r k]
    rfl
  rw [es, e3]
  rfl

/-- The first cell's state-side gate pre-activations: a dense layer on the old state. -/
private theorem gh_eq (r : Fin 32768) (j : Fin 384) :
    val_main_v15 (F := Ideal) x1 x11 x13 (ix2 r j) = lin (R x0 x1 x2 x3 x4 x5 x6 x7 r).h1 (W x8 x9 x10 x11 x12 x13 x14 x15 x16 x17 x18 x19 x20 x21 x22 x23).r1h (W x8 x9 x10 x11 x12 x13 x14 x15 x16 x17 x18 x19 x20 x21 x22 x23).r1bh j := by
  rw [val_main_v15_apply, val_main_v14_apply, val_main_v13_apply, val_main_v12_apply]
  have e3 : idx_main_v13 (idx_main_v14 (ix2 r j)) = ix1 j := funext fun a => Fin.ext (by match a with | ⟨0, _⟩ => rfl)
  have es : (∑ k : Fin 128, x1 (lidx_main_v12 (ix2 r j) k) * val_main_v11 (F := Ideal) x11 (ridx_main_v12 (ix2 r j) k))
      = dot (row x1 r) (mat x11 j) := by
    unfold dot
    refine Finset.sum_congr rfl fun k _ => ?_
    have e1 : lidx_main_v12 (ix2 r j) k = ix2 r k := funext fun a => Fin.ext (by match a with | ⟨0, _⟩ => rfl | ⟨1, _⟩ => rfl)
    have e2 : idx_main_v11 (ridx_main_v12 (ix2 r j) k) = ix2 j k := funext fun a => Fin.ext (by match a with | ⟨0, _⟩ => rfl | ⟨1, _⟩ => rfl)
    rw [val_main_v11_apply, e1, e2]
    rfl
  rw [es, e3]
  rfl

/-- The reset gate: the logistic function, spelt as a quotient, of the first thirds' sum. -/
private theorem rg_eq (r : Fin 32768) (q : Fin 128) :
    val_main_v28 (F := Ideal) x0 x1 x3 x4 x8 x9 x10 x11 x12 x13 (ix2 r q)
      = Ideal.logistic (lin (io (R x0 x1 x2 x3 x4 x5 x6 x7 r) (W x8 x9 x10 x11 x12 x13 x14 x15 x16 x17 x18 x19 x20 x21 x22 x23)) (W x8 x9 x10 x11 x12 x13 x14 x15 x16 x17 x18 x19 x20 x21 x22 x23).r1i (W x8 x9 x10 x11 x12 x13 x14 x15 x16 x17 x18 x19 x20 x21 x22 x23).r1bi (lo q) + lin (R x0 x1 x2 x3 x4 x5 x6 x7 r).h1 (W x8 x9 x10 x11 x12 x13 x14 x15 x16 x17 x18 x19 x20 x21 x22 x23).r1h (W x8 x9 x10 x11 x12 x13 x14 x15 x16 x17 x18 x19 x20 x21 x22 x23).r1bh (lo q)) := by
  rw [val_main_v28_apply, val_main_v27_apply, val_main_cst_0_apply, val_main_v26_apply, val_main_v25_apply, val_main_cst_apply,
    val_main_v24_apply, val_main_v23_apply, val_main_v22_apply, val_main_v16_apply, val_main_v19_apply]
  have e1 : idx_main_v16 (ix2 r q) = ix2 r (lo q) := funext fun a => Fin.ext (by match a with | ⟨0, _⟩ => rfl | ⟨1, _⟩ => rfl)
  have e2 : idx_main_v19 (ix2 r q) = ix2 r (lo q) := funext fun a => Fin.ext (by match a with | ⟨0, _⟩ => rfl | ⟨1, _⟩ => rfl)
  rw [e1, e2, gi_eq, gh_eq]
  exact logistic_eq _

/-- The update gate: the logistic function, spelt as a quotient, of the middle thirds' sum. -/
private theorem zg_eq (r : Fin 32768) (q : Fin 128) :
    val_main_v35 (F := Ideal) x0 x1 x3 x4 x8 x9 x10 x11 x12 x13 (ix2 r q)
      = Ideal.logistic (lin (io (R x0 x1 x2 x3 x4 x5 x6 x7 r) (W x8 x9 x10 x11 x12 x13 x14 x15 x16 x17 x18 x19 x20 x21 x22 x23)) (W x8 x9 x10 x11 x12 x13 x14 x15 x16 x17 x18 x19 x20 x21 x22 x23).r1i (W x8 x9 x10 x11 x12 x13 x14 x15 x16 x17 x18 x19 x20 x21 x22 x23).r1bi (mid q) + lin (R x0 x1 x2 x3 x4 x5 x6 x7 r).h1 (W x8 x9 x10 x11 x12 x13 x14 x15 x16 x17 x18 x19 x20 x21 x22 x23).r1h (W x8 x9 x10 x11 x12 x13 x14 x15 x16 x17 x18 x19 x20 x21 x22 x23).r1bh (mid q)) := by
  rw [val_main_v35_apply, val_main_v34_apply, val_main_cst_2_apply, val_main_v33_apply, val_main_v32_apply, val_main_cst_1_apply,
    val_main_v31_apply, val_main_v30_apply, val_main_v29_apply, val_main_v17_apply, val_main_v20_apply]
  have e1 : idx_main_v17 (ix2 r q) = ix2 r (mid q) := funext fun a => Fin.ext (by match a with | ⟨0, _⟩ => rfl | ⟨1, _⟩ => rfl)
  have e2 : idx_main_v20 (ix2 r q) = ix2 r (mid q) := funext fun a => Fin.ext (by match a with | ⟨0, _⟩ => rfl | ⟨1, _⟩ => rfl)
  rw [e1, e2, gi_eq, gh_eq]
  exact logistic_eq _

/-- The candidate state: tanh of the last thirds, the state side scaled by the reset gate. -/
private theorem cg_eq (r : Fin 32768) (q : Fin 128) :
    val_main_v38 (F := Ideal) x0 x1 x3 x4 x8 x9 x10 x11 x12 x13 (ix2 r q)
      = Ideal.tanh (lin (io (R x0 x1 x2 x3 x4 x5 x6 x7 r) (W x8 x9 x10 x11 x12 x13 x14 x15 x16 x17 x18 x19 x20 x21 x22 x23)) (W x8 x9 x10 x11 x12 x13 x14 x15 x16 x17 x18 x19 x20 x21 x22 x23).r1i (W x8 x9 x10 x11 x12 x13 x14 x15 x16 x17 x18 x19 x20 x21 x22 x23).r1bi (hi q)
          + Ideal.logistic (lin (io (R x0 x1 x2 x3 x4 x5 x6 x7 r) (W x8 x9 x10 x11 x12 x13 x14 x15 x16 x17 x18 x19 x20 x21 x22 x23)) (W x8 x9 x10 x11 x12 x13 x14 x15 x16 x17 x18 x19 x20 x21 x22 x23).r1i (W x8 x9 x10 x11 x12 x13 x14 x15 x16 x17 x18 x19 x20 x21 x22 x23).r1bi (lo q) + lin (R x0 x1 x2 x3 x4 x5 x6 x7 r).h1 (W x8 x9 x10 x11 x12 x13 x14 x15 x16 x17 x18 x19 x20 x21 x22 x23).r1h (W x8 x9 x10 x11 x12 x13 x14 x15 x16 x17 x18 x19 x20 x21 x22 x23).r1bh (lo q))
            * lin (R x0 x1 x2 x3 x4 x5 x6 x7 r).h1 (W x8 x9 x10 x11 x12 x13 x14 x15 x16 x17 x18 x19 x20 x21 x22 x23).r1h (W x8 x9 x10 x11 x12 x13 x14 x15 x16 x17 x18 x19 x20 x21 x22 x23).r1bh (hi q)) := by
  rw [val_main_v38_apply, val_main_v37_apply, val_main_v36_apply, val_main_v18_apply, val_main_v21_apply, rg_eq]
  have e1 : idx_main_v18 (ix2 r q) = ix2 r (hi q) := funext fun a => Fin.ext (by match a with | ⟨0, _⟩ => rfl | ⟨1, _⟩ => rfl)
  have e2 : idx_main_v21 (ix2 r q) = ix2 r (hi q) := funext fun a => Fin.ext (by match a with | ⟨0, _⟩ => rfl | ⟨1, _⟩ => rfl)
  rw [e1, e2, gi_eq, gh_eq]
  rfl

/-- The first cell's new state. -/
theorem h1p_eq (r : Fin 32768) (q : Fin 128) :
    val_main_v43 (F := Ideal) x0 x1 x3 x4 x8 x9 x10 x11 x12 x13 (ix2 r q) = h1p (R x0 x1 x2 x3 x4 x5 x6 x7 r) (W x8 x9 x10 x11 x12 x13 x14 x15 x16 x17 x18 x19 x20 x21 x22 x23) q := by
  -- (1 − z)·c + z·h with the three gates above.
  rw [val_main_v43_apply, val_main_v41_apply, val_main_v42_apply, val_main_v40_apply, val_main_v39_apply, val_main_cst_3_apply, zg_eq, cg_eq]
  rfl

/-- The residual. -/
theorem g2_eq (r : Fin 32768) (q : Fin 128) :
    val_main_v44 (F := Ideal) x0 x1 x3 x4 x8 x9 x10 x11 x12 x13 (ix2 r q) = g2 (R x0 x1 x2 x3 x4 x5 x6 x7 r) (W x8 x9 x10 x11 x12 x13 x14 x15 x16 x17 x18 x19 x20 x21 x22 x23) q := by
  rw [val_main_v44_apply, h1p_eq, io_eq]
  rfl

end Cert.ReferenceIdeal.Stage1

end
-- ==== Proof.RS2.lean ====
/-
  The unblocked program's second cell. Its input is the residual joined with a2 (160 entries), so the input gates are a dot
  product over 160 entries: the sum of the dot product of the residual with the first 128 columns of r2_wih and of a2 with
  the last 32.
-/
import proofs.«138707_j25177098289494_1_alg».proof.Proof.Gen.ReferenceIdeal.Read
import proofs.«138707_j25177098289494_1_alg».proof.Proof.Spec
import proofs.«138707_j25177098289494_1_alg».proof.Proof.RefCat
import proofs.«138707_j25177098289494_1_alg».proof.Proof.RS1
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Stage2

open Cert.ReferenceIdeal Cert.ReferenceIdeal.Gen Cert.ReferenceIdeal.Read Cert.ReferenceIdeal.Cat Cert.GruSpec Idealize.ShloMosaic Idealize.ShloMosaic.ValueIdx

variable (x0 : (⟨S32768x1, .f32⟩ : BufTy).Contents (Elt Ideal)) (x1 x2 : (⟨S32768x128, .f32⟩ : BufTy).Contents (Elt Ideal)) (x3 : (⟨S32768x24, .f32⟩ : BufTy).Contents (Elt Ideal))
  (x4 x5 x6 x7 : (⟨S32768x32, .f32⟩ : BufTy).Contents (Elt Ideal)) (x8 : (⟨S128x57, .f32⟩ : BufTy).Contents (Elt Ideal)) (x9 : (⟨S128, .f32⟩ : BufTy).Contents (Elt Ideal))
  (x10 x11 : (⟨S384x128, .f32⟩ : BufTy).Contents (Elt Ideal)) (x12 x13 : (⟨S384, .f32⟩ : BufTy).Contents (Elt Ideal)) (x14 : (⟨S384x160, .f32⟩ : BufTy).Contents (Elt Ideal))
  (x15 : (⟨S384x128, .f32⟩ : BufTy).Contents (Elt Ideal)) (x16 x17 : (⟨S384, .f32⟩ : BufTy).Contents (Elt Ideal)) (x18 : (⟨S128x160, .f32⟩ : BufTy).Contents (Elt Ideal)) (x19 : (⟨S128, .f32⟩ : BufTy).Contents (Elt Ideal))
  (x20 : (⟨S128x160, .f32⟩ : BufTy).Contents (Elt Ideal)) (x21 : (⟨S128, .f32⟩ : BufTy).Contents (Elt Ideal)) (x22 : (⟨S256x128, .f32⟩ : BufTy).Contents (Elt Ideal)) (x23 : (⟨S256, .f32⟩ : BufTy).Contents (Elt Ideal))
open Cert.ReferenceIdeal.Stage1

/-- The second cell's input gates of row r: the 160-wide dot product through the join, plus the bias. -/
private theorem gi_eq (r : Fin 32768) (j : Fin 384) :
    val_main_v50 (F := Ideal) x0 x1 x3 x4 x5 x8 x9 x10 x11 x12 x13 x14 x16 (ix2 r j)
      = lin2 (g2 (R x0 x1 x2 x3 x4 x5 x6 x7 r) (W x8 x9 x10 x11 x12 x13 x14 x15 x16 x17 x18 x19 x20 x21 x22 x23)) (R x0 x1 x2 x3 x4 x5 x6 x7 r).a2
          (W x8 x9 x10 x11 x12 x13 x14 x15 x16 x17 x18 x19 x20 x21 x22 x23).r2i
          (W x8 x9 x10 x11 x12 x13 x14 x15 x16 x17 x18 x19 x20 x21 x22 x23).r2a
          (W x8 x9 x10 x11 x12 x13 x14 x15 x16 x17 x18 x19 x20 x21 x22 x23).r2bi j := by
  rw [val_main_v50_apply, val_main_v47_apply, val_main_v49_apply, val_main_v48_apply]
  have e1 : ∀ k : Fin 160, lidx_main_v47 (ix2 r j) k = ix2 r k := fun k =>
    funext fun a => match a with | ⟨0, _⟩ => rfl | ⟨1, _⟩ => rfl
  have e2 : ∀ k : Fin 160, val_main_v46 (F := Ideal) x14 (ridx_main_v47 (ix2 r j) k) = x14 (ix2 j k) := fun k =>
    (val_main_v46_apply x14 _).trans (congrArg x14 (funext fun a => match a with | ⟨0, _⟩ => rfl | ⟨1, _⟩ => rfl))
  have e3 : idx_main_v48 (idx_main_v49 (ix2 r j)) = ix1 j := funext fun a => match a with | ⟨0, _⟩ => rfl
  -- the joined row against row j of the 160-column matrix, cut at column 128
  have hs : (∑ k : Fin 160, val_main_v45 (F := Ideal) x0 x1 x3 x4 x5 x8 x9 x10 x11 x12 x13 (lidx_main_v47 (ix2 r j) k)
        * val_main_v46 (F := Ideal) x14 (ridx_main_v47 (ix2 r j) k))
      = dot (fun k : Fin 160 => val_main_v45 (F := Ideal) x0 x1 x3 x4 x5 x8 x9 x10 x11 x12 x13 (ix2 r k)) (fun k => x14 (ix2 j k)) :=
    Finset.sum_congr rfl fun k _ => by rw [e1 k, e2 k]
  rw [hs, e3, dot_cut2]
  refine congrArg₂ (· + ·) (congrArg₂ (· + ·) ?_ ?_) rfl
  · refine congrArg (fun v => dot v _) (funext fun k => ?_)
    unfold val_main_v45
    exact (cat160_l _ x5 r k).trans (g2_eq x0 x1 x2 x3 x4 x5 x6 x7 x8 x9 x10 x11 x12 x13 x14 x15 x16 x17 x18 x19 x20 x21 x22 x23 r k)
  · refine congrArg (fun v => dot v _) (funext fun k => ?_)
    unfold val_main_v45
    exact cat160_r _ x5 r k

/-- The second cell's hidden gates of row r. -/
private theorem gh_eq (r : Fin 32768) (j : Fin 384) :
    val_main_v55 (F := Ideal) x2 x15 x17 (ix2 r j) = lin (row x2 r) (mat x15) (vec x17) j := by
  rw [val_main_v55_apply, val_main_v52_apply, val_main_v54_apply, val_main_v53_apply]
  have e1 : ∀ k : Fin 128, lidx_main_v52 (ix2 r j) k = ix2 r k := fun k =>
    funext fun a => match a with | ⟨0, _⟩ => rfl | ⟨1, _⟩ => rfl
  have e2 : ∀ k : Fin 128, val_main_v51 (F := Ideal) x15 (ridx_main_v52 (ix2 r j) k) = x15 (ix2 j k) := fun k =>
    (val_main_v51_apply x15 _).trans (congrArg x15 (funext fun a => match a with | ⟨0, _⟩ => rfl | ⟨1, _⟩ => rfl))
  have e3 : idx_main_v53 (idx_main_v54 (ix2 r j)) = ix1 j := funext fun a => match a with | ⟨0, _⟩ => rfl
  have hs : (∑ k : Fin 128, x2 (lidx_main_v52 (ix2 r j) k) * val_main_v51 (F := Ideal) x15 (ridx_main_v52 (ix2 r j) k))
      = dot (row x2 r) (mat x15 j) :=
    Finset.sum_congr rfl fun k _ => by rw [e1 k, e2 k]; rfl
  rw [hs, e3]
  rfl

/-- The second cell's new state. -/
theorem h2p_eq (r : Fin 32768) (q : Fin 128) :
    val_main_v83 (F := Ideal) x0 x1 x2 x3 x4 x5 x8 x9 x10 x11 x12 x13 x14 x15 x16 x17 (ix2 r q) = h2p (R x0 x1 x2 x3 x4 x5 x6 x7 r) (W x8 x9 x10 x11 x12 x13 x14 x15 x16 x17 x18 x19 x20 x21 x22 x23) q := by
  rw [val_main_v83_apply, val_main_v82_apply, val_main_v81_apply, val_main_v80_apply, val_main_v79_apply, val_main_v78_apply,
    val_main_v77_apply, val_main_v76_apply, val_main_v75_apply, val_main_v74_apply, val_main_v73_apply, val_main_v72_apply,
    val_main_v71_apply, val_main_v70_apply, val_main_v69_apply, val_main_v68_apply, val_main_v67_apply, val_main_v66_apply,
    val_main_v65_apply, val_main_v64_apply, val_main_v63_apply, val_main_v62_apply,
    val_main_cst_4_apply, val_main_cst_5_apply, val_main_cst_6_apply, val_main_cst_7_apply, val_main_cst_8_apply]
  -- the six slices are the thirds of the two gate vectors
  have s56 : val_main_v56 (F := Ideal) x0 x1 x3 x4 x5 x8 x9 x10 x11 x12 x13 x14 x16 (ix2 r q) = val_main_v50 (F := Ideal) x0 x1 x3 x4 x5 x8 x9 x10 x11 x12 x13 x14 x16 (ix2 r (lo q)) :=
    (val_main_v56_apply x0 x1 x3 x4 x5 x8 x9 x10 x11 x12 x13 x14 x16 _).trans (congrArg _ (funext fun a => match a with | ⟨0, _⟩ => rfl | ⟨1, _⟩ => rfl))
  have s57 : val_main_v57 (F := Ideal) x0 x1 x3 x4 x5 x8 x9 x10 x11 x12 x13 x14 x16 (ix2 r q) = val_main_v50 (F := Ideal) x0 x1 x3 x4 x5 x8 x9 x10 x11 x12 x13 x14 x16 (ix2 r (mid q)) :=
    (val_main_v57_apply x0 x1 x3 x4 x5 x8 x9 x10 x11 x12 x13 x14 x16 _).trans (congrArg _ (funext fun a => match a with | ⟨0, _⟩ => rfl | ⟨1, _⟩ => rfl))
  have s58 : val_main_v58 (F := Ideal) x0 x1 x3 x4 x5 x8 x9 x10 x11 x12 x13 x14 x16 (ix2 r q) = val_main_v50 (F := Ideal) x0 x1 x3 x4 x5 x8 x9 x10 x11 x12 x13 x14 x16 (ix2 r (hi q)) :=
    (val_main_v58_apply x0 x1 x3 x4 x5 x8 x9 x10 x11 x12 x13 x14 x16 _).trans (congrArg _ (funext fun a => match a with | ⟨0, _⟩ => rfl | ⟨1, _⟩ => rfl))
  have s59 : val_main_v59 (F := Ideal) x2 x15 x17 (ix2 r q) = val_main_v55 (F := Ideal) x2 x15 x17 (ix2 r (lo q)) :=
    (val_main_v59_apply x2 x15 x17 _).trans (congrArg _ (funext fun a => match a with | ⟨0, _⟩ => rfl | ⟨1, _⟩ => rfl))
  have s60 : val_main_v60 (F := Ideal) x2 x15 x17 (ix2 r q) = val_main_v55 (F := Ideal) x2 x15 x17 (ix2 r (mid q)) :=
    (val_main_v60_apply x2 x15 x17 _).trans (congrArg _ (funext fun a => match a with | ⟨0, _⟩ => rfl | ⟨1, _⟩ => rfl))
  have s61 : val_main_v61 (F := Ideal) x2 x15 x17 (ix2 r q) = val_main_v55 (F := Ideal) x2 x15 x17 (ix2 r (hi q)) :=
    (val_main_v61_apply x2 x15 x17 _).trans (congrArg _ (funext fun a => match a with | ⟨0, _⟩ => rfl | ⟨1, _⟩ => rfl))
  rw [s56, s57, s58, s59, s60, s61]
  simp only [gi_eq x0 x1 x2 x3 x4 x5 x6 x7 x8 x9 x10 x11 x12 x13 x14 x15 x16 x17 x18 x19 x20 x21 x22 x23, gh_eq x2 x15 x17]
  simp only [Ideal.addf_def, Ideal.mulf_def, Ideal.subf_def, Ideal.hostDivf_def, Ideal.hostUnary_exp_def,
    Ideal.hostUnary_tanh_def, Ideal.hostNegf_def, Ideal.negf_def, Ideal.ofBits_def]
  rw [logistic_eq, logistic_eq]
  rfl

/-- The input of the first ReLU layer. -/
theorem add1_eq (r : Fin 32768) (q : Fin 128) :
    val_main_v84 (F := Ideal) x0 x1 x2 x3 x4 x5 x8 x9 x10 x11 x12 x13 x14 x15 x16 x17 (ix2 r q) = add1 (R x0 x1 x2 x3 x4 x5 x6 x7 r) (W x8 x9 x10 x11 x12 x13 x14 x15 x16 x17 x18 x19 x20 x21 x22 x23) q := by
  rw [val_main_v84_apply]
  exact congrArg₂ (· + ·) (g2_eq x0 x1 x2 x3 x4 x5 x6 x7 x8 x9 x10 x11 x12 x13 x14 x15 x16 x17 x18 x19 x20 x21 x22 x23 r q) (h2p_eq x0 x1 x2 x3 x4 x5 x6 x7 x8 x9 x10 x11 x12 x13 x14 x15 x16 x17 x18 x19 x20 x21 x22 x23 r q)

end Cert.ReferenceIdeal.Stage2

end
-- ==== Proof.RS3.lean ====
/-
  The unblocked program's two ReLU layers and the last dense layer. Each ReLU layer's input is a computed vector joined with an
  auxiliary one (160 entries); its dot products split as in the second cell.
-/
import proofs.«138707_j25177098289494_1_alg».proof.Proof.Gen.ReferenceIdeal.Read
import proofs.«138707_j25177098289494_1_alg».proof.Proof.Spec
import proofs.«138707_j25177098289494_1_alg».proof.Proof.RefCat
import proofs.«138707_j25177098289494_1_alg».proof.Proof.RS1
import proofs.«138707_j25177098289494_1_alg».proof.Proof.RS2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Stage3

open Cert.ReferenceIdeal Cert.ReferenceIdeal.Gen Cert.ReferenceIdeal.Read Cert.ReferenceIdeal.Cat Cert.GruSpec Idealize.ShloMosaic Idealize.ShloMosaic.ValueIdx

variable (x0 : (⟨S32768x1, .f32⟩ : BufTy).Contents (Elt Ideal)) (x1 x2 : (⟨S32768x128, .f32⟩ : BufTy).Contents (Elt Ideal)) (x3 : (⟨S32768x24, .f32⟩ : BufTy).Contents (Elt Ideal))
  (x4 x5 x6 x7 : (⟨S32768x32, .f32⟩ : BufTy).Contents (Elt Ideal)) (x8 : (⟨S128x57, .f32⟩ : BufTy).Contents (Elt Ideal)) (x9 : (⟨S128, .f32⟩ : BufTy).Contents (Elt Ideal))
  (x10 x11 : (⟨S384x128, .f32⟩ : BufTy).Contents (Elt Ideal)) (x12 x13 : (⟨S384, .f32⟩ : BufTy).Contents (Elt Ideal)) (x14 : (⟨S384x160, .f32⟩ : BufTy).Contents (Elt Ideal))
  (x15 : (⟨S384x128, .f32⟩ : BufTy).Contents (Elt Ideal)) (x16 x17 : (⟨S384, .f32⟩ : BufTy).Contents (Elt Ideal)) (x18 : (⟨S128x160, .f32⟩ : BufTy).Contents (Elt Ideal)) (x19 : (⟨S128, .f32⟩ : BufTy).Contents (Elt Ideal))
  (x20 : (⟨S128x160, .f32⟩ : BufTy).Contents (Elt Ideal)) (x21 : (⟨S128, .f32⟩ : BufTy).Contents (Elt Ideal)) (x22 : (⟨S256x128, .f32⟩ : BufTy).Contents (Elt Ideal)) (x23 : (⟨S256, .f32⟩ : BufTy).Contents (Elt Ideal))
open Cert.ReferenceIdeal.Stage1 Cert.ReferenceIdeal.Stage2

/-- A dot product over the 160 entries of row r of a join [A | B] against row q of `w` (read through its transpose `V`):
    the sum of the dot products over A's 128 entries and B's 32, against the matching columns of `w`. -/
private theorem dense160 (A : (⟨S32768x128, .f32⟩ : BufTy).Contents (Elt Ideal)) (B : (⟨S32768x32, .f32⟩ : BufTy).Contents (Elt Ideal))
    (w : (⟨S128x160, .f32⟩ : BufTy).Contents (Elt Ideal)) (V : (⟨S160x128, .f32⟩ : BufTy).Contents (Elt Ideal))
    (x : Fin 128 → EReal) (r : Fin 32768) (q : Fin 128)
    (L : Fin 160 → S32768x160.Idx) (Rr : Fin 160 → S160x128.Idx)
    (hA : ∀ k, A (ix2 r k) = x k) (hl : ∀ k, L k = ix2 r k) (hr : ∀ k, V (Rr k) = w (ix2 q k)) :
    ∑ k : Fin 160, concatenate S32768x160 1 [⟨S32768x128, A⟩, ⟨S32768x32, B⟩] concatenates_S32768x128_S32768x32_S32768x160_d1 (L k) * V (Rr k)
      = dot x (cols 128 0 (by omega) w q) + dot (row B r) (cols 32 128 (by omega) w q) := by
  refine (Finset.sum_congr rfl fun k _ => congrArg₂ (· * ·) (congrArg _ (hl k)) (hr k)).trans ?_
  refine (dot_cut2 (fun k => concatenate S32768x160 1 [⟨S32768x128, A⟩, ⟨S32768x32, B⟩] concatenates_S32768x128_S32768x32_S32768x160_d1 (ix2 r k)) (fun k => w (ix2 q k))).trans ?_
  exact congrArg₂ (· + ·) (congrArg₂ dot (funext fun k => (cat160_l A B r k).trans (hA k)) rfl) (congrArg₂ dot (funext fun k => cat160_r A B r k) rfl)

theorem relu1_eq (r : Fin 32768) (q : Fin 128) :
    val_main_v91 (F := Ideal) x0 x1 x2 x3 x4 x5 x6 x8 x9 x10 x11 x12 x13 x14 x15 x16 x17 x18 x19 (ix2 r q) = relu1 (R x0 x1 x2 x3 x4 x5 x6 x7 r) (W x8 x9 x10 x11 x12 x13 x14 x15 x16 x17 x18 x19 x20 x21 x22 x23) q := by
  have hl : ∀ k : Fin 160, lidx_main_v87 (ix2 r q) k = ix2 r k := fun k =>
    funext fun a => match a with | ⟨0, _⟩ => rfl | ⟨1, _⟩ => rfl
  have hr : ∀ k : Fin 160, val_main_v86 (F := Ideal) x18 (ridx_main_v87 (ix2 r q) k) = x18 (ix2 q k) := fun k =>
    (val_main_v86_apply x18 _).trans (congrArg x18 (funext fun a => match a with | ⟨0, _⟩ => rfl | ⟨1, _⟩ => rfl))
  have h87 : val_main_v87 (F := Ideal) x0 x1 x2 x3 x4 x5 x6 x8 x9 x10 x11 x12 x13 x14 x15 x16 x17 x18 (ix2 r q)
      = dot (add1 (R x0 x1 x2 x3 x4 x5 x6 x7 r) (W x8 x9 x10 x11 x12 x13 x14 x15 x16 x17 x18 x19 x20 x21 x22 x23)) ((W x8 x9 x10 x11 x12 x13 x14 x15 x16 x17 x18 x19 x20 x21 x22 x23).f1 q)
        + dot (R x0 x1 x2 x3 x4 x5 x6 x7 r).a3 ((W x8 x9 x10 x11 x12 x13 x14 x15 x16 x17 x18 x19 x20 x21 x22 x23).f1a q) :=
    (val_main_v87_apply x0 x1 x2 x3 x4 x5 x6 x8 x9 x10 x11 x12 x13 x14 x15 x16 x17 x18 (ix2 r q)).trans
      (dense160 _ x6 x18 _ _ r q _ _ (fun k => add1_eq x0 x1 x2 x3 x4 x5 x6 x7 x8 x9 x10 x11 x12 x13 x14 x15 x16 x17 x18 x19 x20 x21 x22 x23 r k) hl hr)
  have h89 : val_main_v89 (F := Ideal) x19 (ix2 r q) = vec x19 q :=
    (val_main_v89_apply x19 _).trans ((val_main_v88_apply x19 _).trans
      (congrArg x19 (funext fun a => match a with | ⟨0, _⟩ => rfl)))
  have h0 : val_main_call0_v0 (F := Ideal) (ix2 r q) = zero := val_main_call0_v0_apply _
  show max (val_main_v87 (F := Ideal) x0 x1 x2 x3 x4 x5 x6 x8 x9 x10 x11 x12 x13 x14 x15 x16 x17 x18 (ix2 r q) + val_main_v89 (F := Ideal) x19 (ix2 r q))
    (val_main_call0_v0 (F := Ideal) (ix2 r q)) = _
  rw [h87, h89, h0]
  rfl

theorem relu2_eq (r : Fin 32768) (q : Fin 128) :
    val_main_v98 (F := Ideal) x0 x1 x2 x3 x4 x5 x6 x7 x8 x9 x10 x11 x12 x13 x14 x15 x16 x17 x18 x19 x20 x21 (ix2 r q) = relu2 (R x0 x1 x2 x3 x4 x5 x6 x7 r) (W x8 x9 x10 x11 x12 x13 x14 x15 x16 x17 x18 x19 x20 x21 x22 x23) q := by
  have hl : ∀ k : Fin 160, lidx_main_v94 (ix2 r q) k = ix2 r k := fun k =>
    funext fun a => match a with | ⟨0, _⟩ => rfl | ⟨1, _⟩ => rfl
  have hr : ∀ k : Fin 160, val_main_v93 (F := Ideal) x20 (ridx_main_v94 (ix2 r q) k) = x20 (ix2 q k) := fun k =>
    (val_main_v93_apply x20 _).trans (congrArg x20 (funext fun a => match a with | ⟨0, _⟩ => rfl | ⟨1, _⟩ => rfl))
  have h94 : val_main_v94 (F := Ideal) x0 x1 x2 x3 x4 x5 x6 x7 x8 x9 x10 x11 x12 x13 x14 x15 x16 x17 x18 x19 x20 (ix2 r q)
      = dot (relu1 (R x0 x1 x2 x3 x4 x5 x6 x7 r) (W x8 x9 x10 x11 x12 x13 x14 x15 x16 x17 x18 x19 x20 x21 x22 x23)) ((W x8 x9 x10 x11 x12 x13 x14 x15 x16 x17 x18 x19 x20 x21 x22 x23).f2 q) + dot (R x0 x1 x2 x3 x4 x5 x6 x7 r).a4 ((W x8 x9 x10 x11 x12 x13 x14 x15 x16 x17 x18 x19 x20 x21 x22 x23).f2a q) :=
    (val_main_v94_apply x0 x1 x2 x3 x4 x5 x6 x7 x8 x9 x10 x11 x12 x13 x14 x15 x16 x17 x18 x19 x20 (ix2 r q)).trans
      (dense160 _ x7 x20 _ _ r q _ _ (fun k => relu1_eq x0 x1 x2 x3 x4 x5 x6 x7 x8 x9 x10 x11 x12 x13 x14 x15 x16 x17 x18 x19 x20 x21 x22 x23 r k) hl hr)
  have h96 : val_main_v96 (F := Ideal) x21 (ix2 r q) = vec x21 q :=
    (val_main_v96_apply x21 _).trans ((val_main_v95_apply x21 _).trans
      (congrArg x21 (funext fun a => match a with | ⟨0, _⟩ => rfl)))
  have h0 : val_main_call1_v0 (F := Ideal) (ix2 r q) = zero := val_main_call1_v0_apply _
  show max (val_main_v94 (F := Ideal) x0 x1 x2 x3 x4 x5 x6 x7 x8 x9 x10 x11 x12 x13 x14 x15 x16 x17 x18 x19 x20 (ix2 r q) + val_main_v96 (F := Ideal) x21 (ix2 r q))
    (val_main_call1_v0 (F := Ideal) (ix2 r q)) = _
  rw [h94, h96, h0]
  rfl

/-- The logits. -/
theorem logits_eq (r : Fin 32768) (n : Fin 256) :
    val_main_v103 (F := Ideal) x0 x1 x2 x3 x4 x5 x6 x7 x8 x9 x10 x11 x12 x13 x14 x15 x16 x17 x18 x19 x20 x21 x22 x23 (ix2 r n) = logits (R x0 x1 x2 x3 x4 x5 x6 x7 r) (W x8 x9 x10 x11 x12 x13 x14 x15 x16 x17 x18 x19 x20 x21 x22 x23) n := by
  have hl : ∀ k : Fin 128, lidx_main_v100 (ix2 r n) k = ix2 r k := fun k =>
    funext fun a => match a with | ⟨0, _⟩ => rfl | ⟨1, _⟩ => rfl
  have hr : ∀ k : Fin 128, val_main_v99 (F := Ideal) x22 (ridx_main_v100 (ix2 r n) k) = x22 (ix2 n k) := fun k =>
    (val_main_v99_apply x22 _).trans (congrArg x22 (funext fun a => match a with | ⟨0, _⟩ => rfl | ⟨1, _⟩ => rfl))
  have hv : ∀ k : Fin 128, val_main_v98 (F := Ideal) x0 x1 x2 x3 x4 x5 x6 x7 x8 x9 x10 x11 x12 x13 x14 x15 x16 x17 x18 x19 x20 x21 (lidx_main_v100 (ix2 r n) k) = relu2 (R x0 x1 x2 x3 x4 x5 x6 x7 r) (W x8 x9 x10 x11 x12 x13 x14 x15 x16 x17 x18 x19 x20 x21 x22 x23) k := fun k =>
    (congrArg (val_main_v98 (F := Ideal) x0 x1 x2 x3 x4 x5 x6 x7 x8 x9 x10 x11 x12 x13 x14 x15 x16 x17 x18 x19 x20 x21) (hl k)).trans (relu2_eq x0 x1 x2 x3 x4 x5 x6 x7 x8 x9 x10 x11 x12 x13 x14 x15 x16 x17 x18 x19 x20 x21 x22 x23 r k)
  have h100 : val_main_v100 (F := Ideal) x0 x1 x2 x3 x4 x5 x6 x7 x8 x9 x10 x11 x12 x13 x14 x15 x16 x17 x18 x19 x20 x21 x22 (ix2 r n) = dot (relu2 (R x0 x1 x2 x3 x4 x5 x6 x7 r) (W x8 x9 x10 x11 x12 x13 x14 x15 x16 x17 x18 x19 x20 x21 x22 x23)) ((W x8 x9 x10 x11 x12 x13 x14 x15 x16 x17 x18 x19 x20 x21 x22 x23).f3 n) :=
    (val_main_v100_apply x0 x1 x2 x3 x4 x5 x6 x7 x8 x9 x10 x11 x12 x13 x14 x15 x16 x17 x18 x19 x20 x21 x22 (ix2 r n)).trans
      (Finset.sum_congr rfl fun k _ => congrArg₂ (· * ·) (hv k) (hr k))
  have h102 : val_main_v102 (F := Ideal) x23 (ix2 r n) = vec x23 n :=
    (val_main_v102_apply x23 _).trans ((val_main_v101_apply x23 _).trans
      (congrArg x23 (funext fun a => match a with | ⟨0, _⟩ => rfl)))
  show val_main_v100 (F := Ideal) x0 x1 x2 x3 x4 x5 x6 x7 x8 x9 x10 x11 x12 x13 x14 x15 x16 x17 x18 x19 x20 x21 x22 (ix2 r n) + val_main_v102 (F := Ideal) x23 (ix2 r n) = _
  rw [h100, h102]
  rfl

end Cert.ReferenceIdeal.Stage3

end
-- ==== Proof.RefRunVals.lean ====
/-
  The unblocked program's run, with each result named by its last stage: every weakly fair execution of @main ends with the
  logits, the first and the second cell's new state at the stages' composed functions of the arguments, the arguments unchanged.
-/
import proofs.«138707_j25177098289494_1_alg».proof.Proof.Gen.ReferenceIdeal.Read
noncomputable section
namespace Cert.ReferenceIdeal.RunVals
open Cert.ReferenceIdeal Cert.ReferenceIdeal.Gen Cert.ReferenceIdeal.Read Idealize.ShloMosaic Idealize.ShloMosaic.TcCoe Idealize.SL.Sem
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v103) = val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_v43) = val_main_v43 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c).1.trans (val_main_v103_eq m c), (h c).2.1.trans (val_main_v43_eq m c),
      (h c).2.2.1.trans (val_main_v83_eq m c), (h c).2.2.2⟩) (Cert.ReferenceIdeal.Value.run (F := Ideal) m ρ)
end Cert.ReferenceIdeal.RunVals
end
-- ==== Proof.lean ====
/-
  The certificate of the blocked GRU-and-dense-layers program against its unblocked jnp reference.

  Both programs compute, for every batch row, the mathematics of Proof/Spec.lean over the extended reals: the input projection
  of [x, m, a1], two GRU cells (the second on the first's residual joined with a2), two ReLU layers (joined with a3, a4) and a
  last dense layer. The blocked program evaluates every dense layer over a joined input as the sum of the products over the
  parts, against parameter matrices cut beforehand, in blocks of 1024 rows (Proof/KBlocks.lean: each result array ends at the
  row mathematics of its row of the arguments); the reference joins the inputs and takes one product (Proof/RS1 … RS3: each
  stage at an entry is the same row mathematics, by splitting the finite sum). A change of float format is the identity on
  the extended reals and the logistic function is 1 / (1 + exp(−·)) on them, so no finiteness of the inputs is used.
  The frames: the blocked program's by its generated frame proof, the reference's by its generated run with the results
  dropped. The idealization rewrote nothing, so there is nothing to preserve.
-/
import proofs.«138707_j25177098289494_1_alg».proof.Defs
import proofs.«138707_j25177098289494_1_alg».proof.Proof.Gen.Kernel
import proofs.«138707_j25177098289494_1_alg».proof.Proof.Gen.KernelIdeal
import proofs.«138707_j25177098289494_1_alg».proof.Proof.Gen.ReferenceIdeal
import proofs.«138707_j25177098289494_1_alg».proof.Proof.Gen.Pre_finite_inputs
import proofs.«138707_j25177098289494_1_alg».proof.Proof.Gen.ReferenceIdeal.Run
import proofs.«138707_j25177098289494_1_alg».proof.Proof.Gen.ReferenceIdeal.Read
import proofs.«138707_j25177098289494_1_alg».proof.Proof.KernelFrameP
import proofs.«138707_j25177098289494_1_alg».proof.Proof.KernelIdealFrameP
import proofs.«138707_j25177098289494_1_alg».proof.Proof.KBlocks
import proofs.«138707_j25177098289494_1_alg».proof.Proof.RS3
import proofs.«138707_j25177098289494_1_alg».proof.Proof.RefRunVals
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.GenP.frame m ρ

theorem frame_ki : Cert.frame_KernelIdeal := fun m ρ _ => Cert.KernelIdeal.GenP.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.RunVals.run m ρ)

theorem preserves : Cert.preserves_Kernel_KernelIdeal := trivial

/-- From memories that agree on the arguments both programs end with the same three arrays: the blocked program's results are
    the row mathematics of the arguments' rows, and each of the reference's last stages, entry by entry, is the same. -/
theorem algebraic : Cert.algebraic_KernelIdeal_ReferenceIdeal := by
  intro m ρ m' ρ' _ hagree
  refine ⟨fun c => Cert.KernelIdeal.Blocks.Glogits m c, fun c => Cert.KernelIdeal.Blocks.Gh1 m c,
    fun c => Cert.KernelIdeal.Blocks.Gh2 m c, Cert.KernelIdeal.Blocks.run m ρ, ?_⟩
  refine (θ_run Cert.ReferenceIdeal.defs _ _).mono (fun r h c => ?_) (Cert.ReferenceIdeal.RunVals.run m' ρ')
  obtain ⟨h0, h1, h2, h3, h4, h5, h6, h7, h8, h9, h10, h11, h12, h13, h14, h15, h16, h17, h18, h19, h20, h21, h22, h23⟩ := hagree c
  refine ⟨(h c).1.trans ?_, (h c).2.1.trans ?_, (h c).2.2.1.trans ?_, (h c).2.2.2⟩
  · rw [h0, h1, h2, h3, h4, h5, h6, h7, h8, h9, h10, h11, h12, h13, h14, h15, h16, h17, h18, h19, h20, h21, h22, h23]
    funext i
    obtain ⟨r, n, rfl⟩ : ∃ (r : Fin 32768) (n : Fin 256), i = ix2 r n := ⟨i 0, i 1, eq_ix2 i⟩
    exact Cert.ReferenceIdeal.Stage3.logits_eq _ _ _ _ _ _ _ _ _ _ _ _ _ _ _ _ _ _ _ _ _ _ _ _ r n
  · rw [h0, h1, h3, h4, h8, h9, h10, h11, h12, h13]
    funext i
    obtain ⟨r, q, rfl⟩ : ∃ (r : Fin 32768) (q : Fin 128), i = ix2 r q := ⟨i 0, i 1, eq_ix2 i⟩
    exact Cert.ReferenceIdeal.Stage1.h1p_eq _ _ (m ((c.tc : Thread Cert.KernelIdeal.nD Cert.KernelIdeal.τ).loc Cert.KernelIdeal.main_arg2)) _ _
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) _ _ _ _ _ _
      (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      (m ((c.tc : Thread Cert.KernelIdeal.nD Cert.KernelIdeal.τ).loc Cert.KernelIdeal.main_arg18)) (m ((c.tc : Thread Cert.KernelIdeal.nD Cert.KernelIdeal.τ).loc Cert.KernelIdeal.main_arg19))
      (m ((c.tc : Thread Cert.KernelIdeal.nD Cert.KernelIdeal.τ).loc Cert.KernelIdeal.main_arg20)) (m ((c.tc : Thread Cert.KernelIdeal.nD Cert.KernelIdeal.τ).loc Cert.KernelIdeal.main_arg21))
      (m ((c.tc : Thread Cert.KernelIdeal.nD Cert.KernelIdeal.τ).loc Cert.KernelIdeal.main_arg22)) (m ((c.tc : Thread Cert.KernelIdeal.nD Cert.KernelIdeal.τ).loc Cert.KernelIdeal.main_arg23)) r q
  · rw [h0, h1, h2, h3, h4, h5, h8, h9, h10, h11, h12, h13, h14, h15, h16, h17]
    funext i
    obtain ⟨r, q, rfl⟩ : ∃ (r : Fin 32768) (q : Fin 128), i = ix2 r q := ⟨i 0, i 1, eq_ix2 i⟩
    exact Cert.ReferenceIdeal.Stage2.h2p_eq _ _ _ _ _ _ (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) _ _ _ _ _ _ _ _ _ _
      (m ((c.tc : Thread Cert.KernelIdeal.nD Cert.KernelIdeal.τ).loc Cert.KernelIdeal.main_arg18)) (m ((c.tc : Thread Cert.KernelIdeal.nD Cert.KernelIdeal.τ).loc Cert.KernelIdeal.main_arg19))
      (m ((c.tc : Thread Cert.KernelIdeal.nD Cert.KernelIdeal.τ).loc Cert.KernelIdeal.main_arg20)) (m ((c.tc : Thread Cert.KernelIdeal.nD Cert.KernelIdeal.τ).loc Cert.KernelIdeal.main_arg21))
      (m ((c.tc : Thread Cert.KernelIdeal.nD Cert.KernelIdeal.τ).loc Cert.KernelIdeal.main_arg22)) (m ((c.tc : Thread Cert.KernelIdeal.nD Cert.KernelIdeal.τ).loc Cert.KernelIdeal.main_arg23)) r q

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
